-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S800000 32) (main_v33 : IVec S_ 1) : IVec S_ 1 :=
  let main_c_12 : IVec S_ 32 := constantI S_ 32 4294917296#32
  let main_v34 : IVec S800000 32 := broadcastInDim S800000 ![] bcast_S_S800000 main_c_12
  let main_v35 : IVec S800000 1 := cmpi .sge main_arg1 main_v34
  let main_c_13 : IVec S_ 32 := constantI S_ 32 50000#32
  let main_v36 : IVec S800000 32 := broadcastInDim S800000 ![] bcast_S_S800000 main_c_13
  let main_v37 : IVec S800000 1 := cmpi .slt main_arg1 main_v36
  let main_v38 : IVec S800000 1 := andi main_v35 main_v37
  let main_c_14 : IVec S_ 1 := constantI S_ 1 1#1
  let main_v39 : IVec S_ 1 := (fun x v => Host.reduce IntOp.andi x v reducesTo_S800000_S_d0 h_S_) main_v38 main_c_14
  let main_v40 : IVec S_ 1 := andi main_v33 main_v39
  main_v40

def fn_part1 {F : FTy → Type} [FloatOps F] (main_arg1 : IVec S800000 32) (main_arg6 : FVec F S64 .f32) (main_arg7 : FVec F S64x32 .f32) (main_arg8 : FVec F S32 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x64 .f32) (main_arg6 : FVec F S64 .f32) (main_arg7 : FVec F S64x32 .f32) (main_arg8 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg6 main_arg7 main_arg8 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S1 : Shape := ⟨1, ![1]⟩
abbrev S1x1 : Shape := ⟨2, ![1, 1]⟩
abbrev S800000x128 : Shape := ⟨2, ![800000, 128]⟩
abbrev S1x128 : Shape := ⟨2, ![1, 128]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩
abbrev S50000x32 : Shape := ⟨2, ![50000, 32]⟩
abbrev S5000x32 : Shape := ⟨2, ![5000, 32]⟩
abbrev S800000x32 : Shape := ⟨2, ![800000, 32]⟩
abbrev S1x32 : Shape := ⟨2, ![1, 32]⟩
abbrev S5000 : Shape := ⟨1, ![5000]⟩

abbrev nBuf : Space → Nat
  | .hbm => 121
  | .vmem => 42
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S1, .i32⟩
  | .hbm, ⟨41, _⟩ => ⟨S_, .i32⟩
  | .hbm, ⟨42, _⟩ => ⟨S800000x1, .i32⟩
  | .hbm, ⟨43, _⟩ => ⟨S800000x1, .i1⟩
  | .hbm, ⟨44, _⟩ => ⟨S1x1, .i32⟩
  | .hbm, ⟨45, _⟩ => ⟨S800000x1, .i32⟩
  | .hbm, ⟨46, _⟩ => ⟨S800000x1, .i1⟩
  | .hbm, ⟨47, _⟩ => ⟨S800000x1, .i1⟩
  | .hbm, ⟨48, _⟩ => ⟨S_, .i1⟩
  | .hbm, ⟨49, _⟩ => ⟨S800000, .i1⟩
  | .hbm, ⟨50, _⟩ => ⟨S800000x128, .f32⟩
  | .hbm, ⟨51, _⟩ => ⟨S800000x128, .i1⟩
  | .hbm, ⟨52, _⟩ => ⟨S_, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x64, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S1, .i32⟩
  | .hbm, ⟨71, _⟩ => ⟨S_, .i32⟩
  | .hbm, ⟨72, _⟩ => ⟨S800000x1, .i32⟩
  | .hbm, ⟨73, _⟩ => ⟨S800000x1, .i1⟩
  | .hbm, ⟨74, _⟩ => ⟨S1x1, .i32⟩
  | .hbm, ⟨75, _⟩ => ⟨S800000x1, .i32⟩
  | .hbm, ⟨76, _⟩ => ⟨S800000x1, .i1⟩
  | .hbm, ⟨77, _⟩ => ⟨S800000x1, .i1⟩
  | .hbm, ⟨78, _⟩ => ⟨S_, .i1⟩
  | .hbm, ⟨79, _⟩ => ⟨S800000, .i1⟩
  | .hbm, ⟨80, _⟩ => ⟨S800000x64, .f32⟩
  | .hbm, ⟨81, _⟩ => ⟨S800000x64, .i1⟩
  | .hbm, ⟨82, _⟩ => ⟨S_, .f32⟩
  | .hbm, ⟨83, _⟩ => ⟨S800000x64, .f32⟩
  | .hbm, ⟨84, _⟩ => ⟨S800000x64, .f32⟩
  | .hbm, ⟨85, _⟩ => ⟨S_, .f32⟩
  | .hbm, ⟨86, _⟩ => ⟨S50000x64, .f32⟩
  | .hbm, ⟨87, _⟩ => ⟨S800000x1, .i32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x32, .f32⟩
  | .hbm, ⟨92, _⟩ => ⟨S_, .i32⟩
  | .hbm, ⟨93, _⟩ => ⟨S800000, .i32⟩
  | .hbm, ⟨94, _⟩ => ⟨S800000, .i1⟩
  | .hbm, ⟨95, _⟩ => ⟨S_, .i32⟩
  | .hbm, ⟨96, _⟩ => ⟨S800000, .i32⟩
  | .hbm, ⟨97, _⟩ => ⟨S800000, .i32⟩
  | .hbm, ⟨98, _⟩ => ⟨S800000, .i32⟩
  | .hbm, ⟨99, _⟩ => ⟨S800000x1, .i32⟩
  | .hbm, ⟨100, _⟩ => ⟨S1, .i32⟩
  | .hbm, ⟨101, _⟩ => ⟨S_, .i32⟩
  | .hbm, ⟨102, _⟩ => ⟨S800000x1, .i32⟩
  | .hbm, ⟨103, _⟩ => ⟨S800000x1, .i1⟩
  | .hbm, ⟨104, _⟩ => ⟨S1x1, .i32⟩
  | .hbm, ⟨105, _⟩ => ⟨S800000x1, .i32⟩
  | .hbm, ⟨106, _⟩ => ⟨S800000x1, .i1⟩
  | .hbm, ⟨107, _⟩ => ⟨S800000x1, .i1⟩
  | .hbm, ⟨108, _⟩ => ⟨S_, .i1⟩
  | .hbm, ⟨109, _⟩ => ⟨S800000, .i1⟩
  | .hbm, ⟨110, _⟩ => ⟨S800000x32, .f32⟩
  | .hbm, ⟨111, _⟩ => ⟨S800000x32, .i1⟩
  | .hbm, ⟨112, _⟩ => ⟨S_, .f32⟩
  | .hbm, ⟨113, _⟩ => ⟨S800000x32, .f32⟩
  | .hbm, ⟨114, _⟩ => ⟨S800000x32, .f32⟩
  | .hbm, ⟨115, _⟩ => ⟨S_, .f32⟩
  | .hbm, ⟨116, _⟩ => ⟨S50000x32, .f32⟩
  | .hbm, ⟨117, _⟩ => ⟨S800000x1, .i32⟩
  | .hbm, ⟨118, _⟩ => ⟨S50000x32, .f32⟩
  | .hbm, ⟨119, _⟩ => ⟨S1x32, .f32⟩
  | .hbm, ⟨120, _⟩ => ⟨S50000x32, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x64, .f32⟩
  | .local _ .vmem, ⟨17, _⟩ => ⟨S5000x1, .f32⟩
  | .local _ .vmem, ⟨18, _⟩ => ⟨S5000x1, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x32, .f32⟩
  | .local _ .vmem, ⟨31, _⟩ => ⟨S5000x1, .f32⟩
  | .local _ .vmem, ⟨32, _⟩ => ⟨S5000x1, .f32⟩
  | .local _ .vmem, ⟨33, _⟩ => ⟨S5000x32, .f32⟩
  | .local _ .vmem, ⟨34, _⟩ => ⟨S5000x32, .f32⟩
  | .local _ .vmem, ⟨35, _⟩ => ⟨S5000x32, .f32⟩
  | .local _ .vmem, ⟨36, _⟩ => ⟨S5000x32, .f32⟩
  | .local _ .vmem, ⟨37, _⟩ => ⟨S5000x1, .f32⟩
  | .local _ .vmem, ⟨38, _⟩ => ⟨S5000x1, .f32⟩
  | .local _ .vmem, ⟨39, _⟩ => ⟨S1x32, .f32⟩
  | .local _ .vmem, ⟨40, _⟩ => ⟨S5000x32, .f32⟩
  | .local _ .vmem, ⟨41, _⟩ => ⟨S5000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_c_1 : Ref sig .tc := ⟨.hbm, 40, rfl⟩
abbrev main_call2_c_2 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_3 : Ref sig .tc := ⟨.hbm, 48, rfl⟩
abbrev main_call2_v12 : Ref sig .tc := ⟨.hbm, 49, rfl⟩
abbrev main_call2_v13 : Ref sig .tc := ⟨.hbm, 50, rfl⟩
abbrev main_call2_v14 : Ref sig .tc := ⟨.hbm, 51, rfl⟩
abbrev main_call2_cst : Ref sig .tc := ⟨.hbm, 52, rfl⟩
abbrev main_call2_v15 : Ref sig .tc := ⟨.hbm, 53, rfl⟩
abbrev main_v14 : Ref sig .tc := ⟨.hbm, 54, rfl⟩
abbrev main_cst_4 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_call3_c : Ref sig .tc := ⟨.hbm, 62, rfl⟩
abbrev main_call3_v0 : Ref sig .tc := ⟨.hbm, 63, rfl⟩
abbrev main_call3_v1 : Ref sig .tc := ⟨.hbm, 64, rfl⟩
abbrev main_call3_c_0 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_c_1 : Ref sig .tc := ⟨.hbm, 70, rfl⟩
abbrev main_call3_c_2 : Ref sig .tc := ⟨.hbm, 71, rfl⟩
abbrev main_call3_v6 : Ref sig .tc := ⟨.hbm, 72, rfl⟩
abbrev main_call3_v7 : Ref sig .tc := ⟨.hbm, 73, rfl⟩
abbrev main_call3_v8 : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_c_3 : Ref sig .tc := ⟨.hbm, 78, rfl⟩
abbrev main_call3_v12 : Ref sig .tc := ⟨.hbm, 79, rfl⟩
abbrev main_call3_v13 : Ref sig .tc := ⟨.hbm, 80, rfl⟩
abbrev main_call3_v14 : Ref sig .tc := ⟨.hbm, 81, rfl⟩
abbrev main_call3_cst : Ref sig .tc := ⟨.hbm, 82, rfl⟩
abbrev main_call3_v15 : Ref sig .tc := ⟨.hbm, 83, rfl⟩
abbrev main_v21 : Ref sig .tc := ⟨.hbm, 84, rfl⟩
abbrev main_cst_5 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_call4_c : Ref sig .tc := ⟨.hbm, 92, rfl⟩
abbrev main_call4_v0 : Ref sig .tc := ⟨.hbm, 93, rfl⟩
abbrev main_call4_v1 : Ref sig .tc := ⟨.hbm, 94, rfl⟩
abbrev main_call4_c_0 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_call4_v5 : Ref sig .tc := ⟨.hbm, 99, rfl⟩
abbrev main_call4_c_1 : Ref sig .tc := ⟨.hbm, 100, rfl⟩
abbrev main_call4_c_2 : Ref sig .tc := ⟨.hbm, 101, rfl⟩
abbrev main_call4_v6 : Ref sig .tc := ⟨.hbm, 102, rfl⟩
abbrev main_call4_v7 : Ref sig .tc := ⟨.hbm, 103, rfl⟩
abbrev main_call4_v8 : Ref sig .tc := ⟨.hbm, 104, rfl⟩
abbrev main_call4_v9 : Ref sig .tc := ⟨.hbm, 105, rfl⟩
abbrev main_call4_v10 : Ref sig .tc := ⟨.hbm, 106, rfl⟩
abbrev main_call4_v11 : Ref sig .tc := ⟨.hbm, 107, rfl⟩
abbrev main_call4_c_3 : Ref sig .tc := ⟨.hbm, 108, rfl⟩
abbrev main_call4_v12 : Ref sig .tc := ⟨.hbm, 109, rfl⟩
abbrev main_call4_v13 : Ref sig .tc := ⟨.hbm, 110, rfl⟩
abbrev main_call4_v14 : Ref sig .tc := ⟨.hbm, 111, rfl⟩
abbrev main_call4_cst : Ref sig .tc := ⟨.hbm, 112, rfl⟩
abbrev main_call4_v15 : Ref sig .tc := ⟨.hbm, 113, rfl⟩
abbrev main_v28 : Ref sig .tc := ⟨.hbm, 114, rfl⟩
abbrev main_cst_6 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S800000_S800000x32_0 : S800000.BroadcastsInDim S800000x32 (![0] : Fin 1 → Fin S800000x32.rank)
  bcast_S_S800000x32 : S_.BroadcastsInDim S800000x32 (![] : Fin 0 → Fin S800000x32.rank)
  bcast_S_S50000x32 : S_.BroadcastsInDim S50000x32 (![] : Fin 0 → Fin S50000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  reduces_S5000x32_S5000 : S5000x32.Reduces [1] S5000
  shapeCasts_S5000_S5000x1 : S5000.ShapeCasts S5000x1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x32_S5000x32_1_0_0_1_n_n_wf : DotDims.WF S5000x64 S64x32 S5000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x32.size a ≤ S50000x32.size a
  hwx4_3 : ∀ i : grid4.Coords, EltTy.bits .f32 = 32 ∨ (Rect.block (s := S50000x32) S5000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S50000x32.size a
  hwx5_0 : ∀ i : grid5.Coords, EltTy.bits .f32 = 32 ∨ (Rect.block (s := S50000x32) S5000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x32.size a ≤ S50000x32.size a
  hwx5_3 : ∀ i : grid5.Coords, EltTy.bits .f32 = 32 ∨ (Rect.block (s := S50000x32) S5000x32.size (cc5_transform_3 i) (hinb5_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v19) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v20) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v24) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v26) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v26) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v10) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v27) S5000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v31) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v12) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v32) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v33) S5000x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩
abbrev S50000x32 : Shape := ⟨2, ![50000, 32]⟩
abbrev S800000x32 : Shape := ⟨2, ![800000, 32]⟩
abbrev S1x32 : Shape := ⟨2, ![1, 32]⟩

abbrev nBuf : Space → Nat
  | .hbm => 166
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128, .f32⟩
  | 5 => ⟨S128x64, .f32⟩
  | 6 => ⟨S64, .f32⟩
  | 7 => ⟨S64x32, .f32⟩
  | 8 => ⟨S32, .f32⟩
  | 9 => ⟨S_, .f32⟩
  | 10 => ⟨S800000, .f32⟩
  | 11 => ⟨S_, .f32⟩
  | 12 => ⟨S50000, .f32⟩
  | 13 => ⟨S800000x1, .i32⟩
  | 14 => ⟨S50000, .f32⟩
  | 15 => ⟨S_, .f32⟩
  | 16 => ⟨S_, .f32⟩
  | 17 => ⟨S50000, .f32⟩
  | 18 => ⟨S50000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S_, .f32⟩
  | 25 => ⟨S50000, .f32⟩
  | 26 => ⟨S50000, .f32⟩
  | 27 => ⟨S50000x128, .f32⟩
  | 28 => ⟨S50000, .f32⟩
  | 29 => ⟨S50000x1, .f32⟩
  | 30 => ⟨S50000x128, .f32⟩
  | 31 => ⟨S50000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S_, .f32⟩
  | 42 => ⟨S50000x128, .f32⟩
  | 43 => ⟨S800000x1, .i32⟩
  | 44 => ⟨S50000x128, .f32⟩
  | 45 => ⟨S50000, .f32⟩
  | 46 => ⟨S50000x1, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S_, .f32⟩
  | 53 => ⟨S50000x128, .f32⟩
  | 54 => ⟨S50000x128, .i1⟩
  | 55 => ⟨S_, .f32⟩
  | 56 => ⟨S50000x128, .f32⟩
  | 57 => ⟨S50000x128, .f32⟩
  | 58 => ⟨S50000x128, .f32⟩
  | 59 => ⟨S_, .f32⟩
  | 60 => ⟨S800000, .f32⟩
  | 61 => ⟨S_, .f32⟩
  | 62 => ⟨S50000, .f32⟩
  | 63 => ⟨S800000x1, .i32⟩
  | 64 => ⟨S50000, .f32⟩
  | 65 => ⟨S_, .f32⟩
  | 66 => ⟨S_, .f32⟩
  | 67 => ⟨S50000, .f32⟩
  | 68 => ⟨S50000, .f32⟩
  | 69 => ⟨S_, .f32⟩
  | 70 => ⟨S50000, .f32⟩
  | 71 => ⟨S800000x1, .i32⟩
  | 72 => ⟨S50000, .f32⟩
  | 73 => ⟨S_, .f32⟩
  | 74 => ⟨S_, .f32⟩
  | 75 => ⟨S50000, .f32⟩
  | 76 => ⟨S50000, .f32⟩
  | 77 => ⟨S50000x64, .f32⟩
  | 78 => ⟨S50000, .f32⟩
  | 79 => ⟨S50000x1, .f32⟩
  | 80 => ⟨S50000x64, .f32⟩
  | 81 => ⟨S50000x64, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x64, .f32⟩
  | 91 => ⟨S_, .f32⟩
  | 92 => ⟨S50000x64, .f32⟩
  | 93 => ⟨S800000x1, .i32⟩
  | 94 => ⟨S50000x64, .f32⟩
  | 95 => ⟨S50000, .f32⟩
  | 96 => ⟨S50000x1, .f32⟩
  | 97 => ⟨S50000x64, .f32⟩
  | 98 => ⟨S50000x64, .f32⟩
  | 99 => ⟨S1x64, .f32⟩
  | 100 => ⟨S50000x64, .f32⟩
  | 101 => ⟨S50000x64, .f32⟩
  | 102 => ⟨S_, .f32⟩
  | 103 => ⟨S50000x64, .f32⟩
  | 104 => ⟨S50000x64, .i1⟩
  | 105 => ⟨S_, .f32⟩
  | 106 => ⟨S50000x64, .f32⟩
  | 107 => ⟨S50000x64, .f32⟩
  | 108 => ⟨S50000x64, .f32⟩
  | 109 => ⟨S_, .f32⟩
  | 110 => ⟨S800000, .f32⟩
  | 111 => ⟨S_, .f32⟩
  | 112 => ⟨S50000, .f32⟩
  | 113 => ⟨S800000x1, .i32⟩
  | 114 => ⟨S50000, .f32⟩
  | 115 => ⟨S_, .f32⟩
  | 116 => ⟨S_, .f32⟩
  | 117 => ⟨S50000, .f32⟩
  | 118 => ⟨S50000, .f32⟩
  | 119 => ⟨S_, .f32⟩
  | 120 => ⟨S50000, .f32⟩
  | 121 => ⟨S800000x1, .i32⟩
  | 122 => ⟨S50000, .f32⟩
  | 123 => ⟨S_, .f32⟩
  | 124 => ⟨S_, .f32⟩
  | 125 => ⟨S50000, .f32⟩
  | 126 => ⟨S50000, .f32⟩
  | 127 => ⟨S50000x32, .f32⟩
  | _ => ⟨S50000x128, .f32⟩

abbrev hbmTy0_1 (i : Nat) : BufTy := match i % 128 with
  | 0 => ⟨S50000, .f32⟩
  | 1 => ⟨S50000x1, .f32⟩
  | 2 => ⟨S50000x32, .f32⟩
  | 3 => ⟨S50000x32, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x32, .f32⟩
  | 13 => ⟨S_, .f32⟩
  | 14 => ⟨S50000x32, .f32⟩
  | 15 => ⟨S800000x1, .i32⟩
  | 16 => ⟨S50000x32, .f32⟩
  | 17 => ⟨S50000, .f32⟩
  | 18 => ⟨S50000x1, .f32⟩
  | 19 => ⟨S50000x32, .f32⟩
  | 20 => ⟨S50000x32, .f32⟩
  | 21 => ⟨S1x32, .f32⟩
  | 22 => ⟨S50000x32, .f32⟩
  | 23 => ⟨S50000x32, .f32⟩
  | 24 => ⟨S_, .f32⟩
  | 25 => ⟨S50000, .f32⟩
  | 26 => ⟨S_, .f32⟩
  | 27 => ⟨S50000, .f32⟩
  | 28 => ⟨S50000, .f32⟩
  | 29 => ⟨S50000x1, .f32⟩
  | 30 => ⟨S50000x32, .f32⟩
  | 31 => ⟨S50000x32, .f32⟩
  | 32 => ⟨S50000x32, .f32⟩
  | 33 => ⟨S_, .f32⟩
  | 34 => ⟨S50000, .f32⟩
  | 35 => ⟨S50000x1, .f32⟩
  | 36 => ⟨S50000x32, .f32⟩
  | 37 => ⟨S50000x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_10 : Ref sig .tc := ⟨.hbm, 65, rfl⟩
abbrev main_call3_v0 : Ref sig .tc := ⟨.hbm, 66, rfl⟩
abbrev main_call3_v1 : Ref sig .tc := ⟨.hbm, 67, rfl⟩
abbrev main_v40 : Ref sig .tc := ⟨.hbm, 68, rfl⟩
abbrev main_cst_11 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_12 : Ref sig .tc := ⟨.hbm, 73, rfl⟩
abbrev main_call4_v0 : Ref sig .tc := ⟨.hbm, 74, rfl⟩
abbrev main_call4_v1 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_13 : Ref sig .tc := ⟨.hbm, 82, rfl⟩
abbrev main_v50 : Ref sig .tc := ⟨.hbm, 83, rfl⟩
abbrev main_v51 : Ref sig .tc := ⟨.hbm, 84, rfl⟩
abbrev main_c_14 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_15 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_16 : Ref sig .tc := ⟨.hbm, 102, rfl⟩
abbrev main_v67 : Ref sig .tc := ⟨.hbm, 103, rfl⟩
abbrev main_v68 : Ref sig .tc := ⟨.hbm, 104, rfl⟩
abbrev main_cst_17 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_18 : Ref sig .tc := ⟨.hbm, 109, rfl⟩
abbrev main_v72 : Ref sig .tc := ⟨.hbm, 110, rfl⟩
abbrev main_cst_19 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_20 : Ref sig .tc := ⟨.hbm, 115, rfl⟩
abbrev main_call6_v0 : Ref sig .tc := ⟨.hbm, 116, rfl⟩
abbrev main_call6_v1 : Ref sig .tc := ⟨.hbm, 117, rfl⟩
abbrev main_v76 : Ref sig .tc := ⟨.hbm, 118, rfl⟩
abbrev main_cst_21 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_22 : Ref sig .tc := ⟨.hbm, 123, rfl⟩
abbrev main_call7_v0 : Ref sig .tc := ⟨.hbm, 124, rfl⟩
abbrev main_call7_v1 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_c_23 : Ref sig .tc := ⟨.hbm, 132, rfl⟩
abbrev main_v86 : Ref sig .tc := ⟨.hbm, 133, rfl⟩
abbrev main_v87 : Ref sig .tc := ⟨.hbm, 134, rfl⟩
abbrev main_c_24 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_cst_25 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_cst_26 : Ref sig .tc := ⟨.hbm, 152, rfl⟩
abbrev main_v103 : Ref sig .tc := ⟨.hbm, 153, rfl⟩
abbrev main_cst_27 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_cst_28 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S50000x1_S50000x32_0_1 : S50000x1.BroadcastsInDim S50000x32 (![0, 1] : Fin 2 → Fin S50000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  reducesTo_S50000x32_S50000_d1 : S50000x32.ReducesTo [1] S50000
  h_S_ : 0 < S_.numel
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x32_S50000x32_1_0_0_1_n_n_wf : DotDims.WF S50000x64 S64x32 S50000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

class Facts : Prop extends Facts₀ where

variable [Facts]
-- ==== Proof.Spec.lean ====
/-
  One graph-convolution layer, index by index, on the extended reals.

  A layer takes node features `x` (one row per node), a weight matrix `w`, a bias `b` and the two
  degree scales `so`, `si` (one entry per node: the inverse square roots of the clipped out- and in-degrees).
  It projects, `p[r, c] = (∑ k, x[r, k] · w[k, c]) · so[r]`; sums the projected rows along the edges into
  `a` (a gather by source followed by a scatter-add by destination: never opened here); and finishes with
  `v[r, c] = a[r, c] · si[r] + b[c]`, followed by the leaky rectifier `v ↦ if v ≥ 0 then v else 0.1 · v`
  on the hidden layers and by the row-wise softmax `exp (v − max) / ∑ exp (v − max)` on the last.

  The functions below are those three pointwise stages as whole-array functions of the arrays they read;
  the number of nodes is the literal 50000, the feature widths are parameters.
-/
import Idealize.ShloMosaic.PureOps.Ideal
import Idealize.ShloMosaic.PureOps.Ideal.Laws
import Idealize.ShloMosaic.Lib.ValueIdx

noncomputable section

namespace Gcn

open Idealize.ShloMosaic Idealize.ShloMosaic.ValueIdx

/-- The projection stage: `(x · w)[r, c] · so[r]`. -/
def proj {K M : Nat} (x : FVec Ideal ⟨2, ![50000, K]⟩ .f32) (w : FVec Ideal ⟨2, ![K, M]⟩ .f32)
    (so : FVec Ideal ⟨1, ![50000]⟩ .f32) : FVec Ideal ⟨2, ![50000, M]⟩ .f32 :=
  fun i => (∑ k : Fin K, x (ix2 (i 0) k) * w (ix2 k (i 1))) * so (ix1 (i 0))

/-- The scaled, biased aggregate: `a[r, c] · si[r] + b[c]`. -/
def affine {M : Nat} (a : FVec Ideal ⟨2, ![50000, M]⟩ .f32) (si : FVec Ideal ⟨1, ![50000]⟩ .f32)
    (b : FVec Ideal ⟨1, ![M]⟩ .f32) : FVec Ideal ⟨2, ![50000, M]⟩ .f32 :=
  fun i => a i * si (ix1 (i 0)) + b (ix1 (i 1))

/-- The leaky rectifier with slope the f32 word of 0.1, entry by entry: the comparison with zero and the choice
    are the machine's own scalar operations, which both programs apply to the same entry. -/
def leaky {M : Nat} (v : FVec Ideal ⟨2, ![50000, M]⟩ .f32) : FVec Ideal ⟨2, ![50000, M]⟩ .f32 :=
  fun i => Scalar.select (FloatOps.cmpf .oge (v i) (Ideal.ofBits .f32 0x00000000#32)) (v i)
    (Ideal.ofBits .f32 0x3DCCCCCD#32 * v i)

/-- The row-wise softmax: each entry's exponential of its distance to the row's maximum, over the row's sum of
    those exponentials. The maximum is the fold of `max` over the row from `-∞`. -/
def soft {M : Nat} (v : FVec Ideal ⟨2, ![50000, M]⟩ .f32) : FVec Ideal ⟨2, ![50000, M]⟩ .f32 :=
  fun i =>
    let mx : EReal := (Finset.univ : Finset (Fin M)).fold max (Ideal.ofBits .f32 0xFF800000#32) (fun j => v (ix2 (i 0) j))
    Ideal.div (Ideal.exp (v i - mx)) (∑ j : Fin M, Ideal.exp (v (ix2 (i 0) j) - mx))

/-- A hidden layer's finishing stage. -/
def hidden {M : Nat} (a : FVec Ideal ⟨2, ![50000, M]⟩ .f32) (si : FVec Ideal ⟨1, ![50000]⟩ .f32)
    (b : FVec Ideal ⟨1, ![M]⟩ .f32) : FVec Ideal ⟨2, ![50000, M]⟩ .f32 := leaky (affine a si b)

/-- The last layer's finishing stage. -/
def last {M : Nat} (a : FVec Ideal ⟨2, ![50000, M]⟩ .f32) (si : FVec Ideal ⟨1, ![50000]⟩ .f32)
    (b : FVec Ideal ⟨1, ![M]⟩ .f32) : FVec Ideal ⟨2, ![50000, M]⟩ .f32 := soft (affine a si b)

end Gcn

end
-- ==== Proof.Chain.lean ====
/-
  The whole network as one function of the nine inputs.

  Three graph-convolution layers (`Spec.lean`): widths 128 → 128 → 64 → 32, the first two finished by the leaky
  rectifier and the last by the row-wise softmax. Every layer scales by the same two vectors: the inverse square
  roots of the out-degrees (edges counted by source) and of the in-degrees (edges counted by destination), each
  degree clipped below at one. Between a layer's projection and its finish the projected rows are summed along the
  edges: row `src[e]` (a negative index counted from the end, as NumPy reads it) is added into row `dst[e]`.

  The degree count, the gather and the scatter-add are the host's own operations; both programs apply them to the
  same operands, so they are carried here as they are printed and never opened.
-/
import proofs.«431278_j31860067401788_1_alg».proof.Proof.Gen.ReferenceIdeal
import proofs.«431278_j31860067401788_1_alg».proof.Proof.Spec
import Idealize.ShloMosaic.Lib.ValueIdx

noncomputable section

namespace Gcn

open Idealize.ShloMosaic Cert.ReferenceIdeal Cert.ReferenceIdeal.Facts₀ Cert.ReferenceIdeal.Facts

/-- The degree scale of an index vector: `1 / √(max 1 (number of edges whose index is the node))`. -/
def scale (idx : IVec S800000 32) : FVec Ideal S50000 .f32 :=
  Host.rsqrt (maximumf (broadcastInDim S50000 ![] bcast_S_S50000 (id (constant S_ .f32 0x3F800000#32)))
    (Host.scatterAdd scatter_S50000_S800000x1_S800000_n_0_0_1
      (broadcastInDim S50000 ![] bcast_S_S50000 (constant S_ .f32 0x00000000#32))
      (broadcastInDim S800000x1 ![0] bcast_S800000_S800000x1_0 idx)
      (broadcastInDim S800000 ![] bcast_S_S800000 (constant S_ .f32 0x3F800000#32))))

/-- The source indices as the gather takes them: a negative index counted from the end, one index per row. -/
def wrapped (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The sum along the edges at width 128: row `src[e]` of `h` added into row `dst[e]`. -/
def agg128 (h : FVec Ideal S50000x128 .f32) (src dst : IVec S800000 32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h (wrapped src))

/-- The sum along the edges at width 64. -/
def agg64 (h : FVec Ideal S50000x64 .f32) (src dst : IVec S800000 32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (Host.gather gather_S50000x64_S800000x1_S800000x64_1_0_n_n_0_1_164 h (wrapped src))

/-- The sum along the edges at width 32. -/
def agg32 (h : FVec Ideal S50000x32 .f32) (src dst : IVec S800000 32) : FVec Ideal S50000x32 .f32 :=
  Host.scatterAdd scatter_S50000x32_S800000x1_S800000x32_1_0_0_1
    (broadcastInDim S50000x32 ![] bcast_S_S50000x32 (constant S_ .f32 0x00000000#32))
    (broadcastInDim S800000x1 ![0] bcast_S800000_S800000x1_0 dst)
    (Host.gather gather_S50000x32_S800000x1_S800000x32_1_0_n_n_0_1_132 h (wrapped src))

/-- Every source index is a valid row index of a 50000-row array as NumPy reads one: from `-50000` up to `49999`. -/
def InRange (src : IVec S800000 32) : Prop :=
  ∀ e : Fin 800000, -50000 ≤ (src (ValueIdx.ix1 e)).toInt ∧ (src (ValueIdx.ix1 e)).toInt < 50000

/-- The network's output: the class probabilities of every node. -/
def out (x : FVec Ideal S50000x128 .f32) (src dst : IVec S800000 32)
    (w1 : FVec Ideal S128x128 .f32) (b1 : FVec Ideal S128 .f32)
    (w2 : FVec Ideal S128x64 .f32) (b2 : FVec Ideal S64 .f32)
    (w3 : FVec Ideal S64x32 .f32) (b3 : FVec Ideal S32 .f32) : FVec Ideal S50000x32 .f32 :=
  let so := scale src
  let si := scale dst
  let h1 : FVec Ideal S50000x128 .f32 := hidden (agg128 (proj x w1 so) src dst) si b1
  let h2 : FVec Ideal S50000x64 .f32 := hidden (agg64 (proj h1 w2 so) src dst) si b2
  last (agg32 (proj h2 w3 so) src dst) si b3

end Gcn

end
-- ==== Proof.Take.lean ====
/-
  A row gather that fills out-of-range rows is the plain gather when no index is out of range.
-/
import proofs.«431278_j31860067401788_1_alg».proof.Proof.Chain
import Idealize.ShloMosaic.Lib.ValueIdx
import Idealize.ShloMosaic.Lib.StableHlo.Predicate
import Idealize.ShloMosaic.Lib.Affine

noncomputable section

namespace Gcn

open Idealize.ShloMosaic Idealize.ShloMosaic.ValueIdx

/-- A vector laid along the first axis of an [n × m] rectangle reads, at (p, q), the vector at `p`. -/
theorem bcast_axis0 {α : Type} {n m : Nat} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  simp only [broadcastInDim]
  congr 1
  funext a
  match a with
  | ⟨0, _⟩ =>
    apply Fin.ext
    have hp := p.isLt
    split
    · next h1 => change n = 1 at h1; show (0 : Nat) = p.val; omega
    · rfl

/-- A left fold by `and` from 1 over one-bit words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_one f l _ (IntOp.andi_eq_one.2 ⟨h, hl a (List.mem_cons_self ..)⟩)
      (fun n hn => hl n (List.mem_cons_of_mem _ hn))

/-- A reduce by `and` from the constant 1 is 1 at `j` when every operand entry that reduces into `j` is 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i : s.Idx, h.drop i = j → x i = 1#1) : Host.reduce IntOp.andi x init h hu j = 1#1 := by
  rw [Host.reduce_eq_foldl]
  refine foldl_andi_one x _ _ hinit ?_
  intro i hi
  rw [List.mem_filter] at hi
  exact hx i (by simpa using hi.2)

/-- With every source index in `[-50000, 50000)`, every wrapped index is a row of the array: `0 ≤ · ≤ 49999`. -/
theorem wrapped_range (src : IVec Cert.ReferenceIdeal.S800000 32) (h : InRange src) :
    ∀ e : Fin 800000, 0 ≤ (wrapped src (ix2 e 0)).toInt ∧ (wrapped src (ix2 e 0)).toInt ≤ 49999 := by
  intro e
  obtain ⟨hlo, hhi⟩ := h e
  have hread : wrapped src (ix2 e 0)
      = Scalar.select (IntOp.cmpi .slt (src (ix1 e)) 0#32) (IntOp.addi (src (ix1 e)) 50000#32) (src (ix1 e)) :=
    bcast_axis0 _ _ e 0
  rw [hread]
  generalize src (ix1 e) = w at hlo hhi ⊢
  have h0 : (0#32 : BitVec 32).toInt = 0 := by decide
  have h5 : (50000#32 : BitVec 32).toInt = 50000 := by decide
  by_cases hneg : w.toInt < 0
  · have hc : IntOp.cmpi .slt w 0#32 = 1#1 := IntOp.cmpi_slt.2 (by rw [h0]; exact hneg)
    rw [hc, select_one]
    have hs : (IntOp.addi w 50000#32).toInt = w.toInt + 50000 := by
      show (w + 50000#32).toInt = _
      rw [BitVec.toInt_add, h5]
      exact Int.bmod_eq_of_le (by omega) (by omega)
    rw [hs]; omega
  · have hc : IntOp.cmpi .slt w 0#32 = 0#1 :=
      eq_zero_of_ne_one (fun hc => hneg (by have := IntOp.cmpi_slt.1 hc; rwa [h0] at this))
    rw [hc, select_zero]; omega

/-- The filling gather: rows are kept where the index passes `0 ≤ · ≤ 49999` (the conjunction reduced over the
    index's one column and laid along the row) and replaced by the fill elsewhere. With every index in range the
    mask is all ones and nothing is replaced. -/
theorem take_fill {M : Nat} (I : IVec ⟨2, ![800000, 1]⟩ 32)
    (hI : ∀ e : Fin 800000, 0 ≤ (I (ix2 e 0)).toInt ∧ (I (ix2 e 0)).toInt ≤ 49999)
    (G N : FVec Ideal ⟨2, ![800000, M]⟩ .f32)
    (h0 : (⟨0, ![]⟩ : Shape).BroadcastsInDim ⟨2, ![800000, 1]⟩ ![])
    (h2 : (⟨1, ![1]⟩ : Shape).BroadcastsInDim ⟨2, ![1, 1]⟩ ![1])
    (h1 : (⟨2, ![1, 1]⟩ : Shape).BroadcastsInDim ⟨2, ![800000, 1]⟩ ![0, 1])
    (hred : (⟨2, ![800000, 1]⟩ : Shape).ReducesTo [1] ⟨1, ![800000]⟩) (hS : 0 < (⟨0, ![]⟩ : Shape).numel)
    (hb : (⟨1, ![800000]⟩ : Shape).BroadcastsInDim ⟨2, ![800000, M]⟩ ![0]) :
    select (broadcastInDim ⟨2, ![800000, M]⟩ ![0] hb
        (Host.reduce IntOp.andi
          (andi (cmpi .sge I (broadcastInDim ⟨2, ![800000, 1]⟩ ![] h0 (constantI ⟨0, ![]⟩ 32 0#32)))
            (cmpi .sle I (broadcastInDim ⟨2, ![800000, 1]⟩ ![0, 1] h1
              (broadcastInDim ⟨2, ![1, 1]⟩ ![1] h2 (constantI ⟨1, ![1]⟩ 32 49999#32)))))
          (constantI ⟨0, ![]⟩ 1 1#1) hred hS)) G N = G := by
  funext y
  obtain ⟨p, q, rfl⟩ : ∃ (p : Fin 800000) (q : Fin M), y = ix2 p q := ⟨y 0, y 1, eq_ix2 y⟩
  rw [select_apply, bcast_axis0 hb _ p q]
  have hm : Host.reduce IntOp.andi
      (andi (cmpi .sge I (broadcastInDim ⟨2, ![800000, 1]⟩ ![] h0 (constantI ⟨0, ![]⟩ 32 0#32)))
        (cmpi .sle I (broadcastInDim ⟨2, ![800000, 1]⟩ ![0, 1] h1
          (broadcastInDim ⟨2, ![1, 1]⟩ ![1] h2 (constantI ⟨1, ![1]⟩ 32 49999#32)))))
      (constantI ⟨0, ![]⟩ 1 1#1) hred hS (ix1 p) = 1#1 := by
    refine reduce_andi_one _ _ hred hS _ rfl ?_
    intro i _
    obtain ⟨a, b, rfl⟩ : ∃ (a : Fin 800000) (b : Fin 1), i = ix2 a b := ⟨i 0, i 1, eq_ix2 i⟩
    obtain rfl : b = 0 := Subsingleton.elim _ _
    obtain ⟨hge, hle⟩ := hI a
    show IntOp.andi (IntOp.cmpi .sge (I (ix2 a 0)) 0#32) (IntOp.cmpi .sle (I (ix2 a 0)) 49999#32) = 1#1
    have z0 : (0#32 : BitVec 32).toInt = 0 := by decide
    have z9 : (49999#32 : BitVec 32).toInt = 49999 := by decide
    exact IntOp.andi_eq_one.2 ⟨IntOp.cmpi_sge.2 (by rw [z0]; exact hge), IntOp.cmpi_sle.2 (by rw [z9]; exact hle)⟩
  rw [hm, select_one]

end Gcn

end
-- ==== Proof.Region0.lean ====
/-
  The projection kernel of layer 1, over all ten row blocks: its output array is `Gcn.proj` of the arrays it reads.
-/
import proofs.«431278_j31860067401788_1_alg».proof.Proof.Gen.KernelIdeal.Frame
import proofs.«431278_j31860067401788_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

namespace Proj0

/-! ## The shapes by role, and the body's value at an entry of its block -/

/-- The feature array and one row block of it; the weight array; the result array and one row block of it. -/
abbrev Xa : Shape := S50000x128
abbrev Xb : Shape := S5000x128
abbrev Wa : Shape := S128x128
abbrev Ya : Shape := S50000x128
abbrev Yb : Shape := S5000x128

/-- The left operand's row coordinate is the result's. -/
theorem lhs_0 (i : Yb.Idx) (s : dot_S5000x128_S128x128_S5000x128_1_0_0_1_n_n.contr.Idx) :
    (dot_S5000x128_S128x128_S5000x128_1_0_0_1_n_n.lhsIdx i s 0).val = (i 0).val := by
  unfold DotDims.lhsIdx
  rw [dif_neg (show ¬(0 : Fin Xb.rank) ∈ dot_S5000x128_S128x128_S5000x128_1_0_0_1_n_n.lhsBatch by decide), dif_pos (show (0 : Fin Xb.rank) ∈ dot_S5000x128_S128x128_S5000x128_1_0_0_1_n_n.lhsNonContracting by decide)]
  rfl
/-- The left operand's column coordinate is the contracted one. -/
theorem lhs_1 (i : Yb.Idx) (s : dot_S5000x128_S128x128_S5000x128_1_0_0_1_n_n.contr.Idx) :
    (dot_S5000x128_S128x128_S5000x128_1_0_0_1_n_n.lhsIdx i s 1).val = (s ⟨0, by decide⟩).val :=
  dot_S5000x128_S128x128_S5000x128_1_0_0_1_n_n.lhsIdx_val_of_single rfl i s
/-- The right operand's row coordinate is the contracted one. -/
theorem rhs_0 (i : Yb.Idx) (s : dot_S5000x128_S128x128_S5000x128_1_0_0_1_n_n.contr.Idx) :
    (dot_S5000x128_S128x128_S5000x128_1_0_0_1_n_n.rhsIdx i s 0).val = (s ⟨0, by decide⟩).val :=
  dot_S5000x128_S128x128_S5000x128_1_0_0_1_n_n.rhsIdx_val_of_single rfl i s
/-- The right operand's column coordinate is the result's. -/
theorem rhs_1 (i : Yb.Idx) (s : dot_S5000x128_S128x128_S5000x128_1_0_0_1_n_n.contr.Idx) :
    (dot_S5000x128_S128x128_S5000x128_1_0_0_1_n_n.rhsIdx i s 1).val = (i 1).val := by
  unfold DotDims.rhsIdx
  rw [dif_neg (show ¬(1 : Fin Wa.rank) ∈ dot_S5000x128_S128x128_S5000x128_1_0_0_1_n_n.rhsBatch by decide), dif_pos (show (1 : Fin Wa.rank) ∈ dot_S5000x128_S128x128_S5000x128_1_0_0_1_n_n.rhsNonContracting by decide)]
  rfl

/-- The product into a zero accumulator, entry by entry: the sum over the contracted coordinate. -/
theorem matmul_apply (a : FVec Ideal Xb .bf16) (b : FVec Ideal Wa .bf16) (p : Fin 5000) (q : Fin 128) :
    matmul dot_S5000x128_S128x128_S5000x128_1_0_0_1_n_n none a b (constant (F := Ideal) Yb .f32 0x00000000#32) (ix2 p q)
      = ∑ k : Fin 128, a (ix2 p k) * b (ix2 k q) := by
  show FloatOps.matmul dot_S5000x128_S128x128_S5000x128_1_0_0_1_n_n none a b (constant (F := Ideal) Yb .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- A column broadcast along the rows: entry `(p, q)` reads the column's row `p`. -/
theorem bcast_col_apply (v : FVec Ideal S5000x1 .f32) (p : Fin 5000) (q : Fin 128) :
    broadcastTo Yb v broadcasts_S5000x1_S5000x128 (ix2 p q) = v (ix2 p (0 : Fin 1)) := by
  refine broadcastTo_apply v broadcasts_S5000x1_S5000x128 (ix2 p q) (ix2 p (0 : Fin 1)) fun ax => ?_
  match ax with
  | ⟨0, _⟩ => rfl
  | ⟨1, _⟩ => rfl

/-- The body's value at entry `(p, q)` of its block: the features' row `p` against the weights' column `q`, times the
    scale of row `p`. The casts between equal shapes are the identity, and so is the rounding of the operands on the
    extended reals. -/
theorem pay_apply (x0 : Vec Ideal Xb .f32) (x1 : Vec Ideal Wa .f32) (x2 : Vec Ideal S5000x1 .f32) (p : Fin 5000) (q : Fin 128) :
    k0_pay1 x0 x1 x2 (ix2 p q) = (∑ k : Fin 128, x0 (ix2 p k) * x1 (ix2 k q)) * x2 (ix2 p (0 : Fin 1)) := by
  unfold k0_pay1
  rw [mulf_apply, matmul_apply, bcast_col_apply]
  simp only [shapeCast_self]
  rfl

/-- The projection at entry `(r, q)`, spelt out. -/
theorem proj_apply (x : FVec Ideal Xa .f32) (w : FVec Ideal Wa .f32) (so : FVec Ideal S50000 .f32)
    (r : Fin 50000) (q : Fin 128) :
    Gcn.proj x w so (ix2 r q) = (∑ k : Fin 128, x (ix2 r k) * w (ix2 k q)) * so (ix1 r) := rfl

/-! ## From the ten blocks to the array -/

/-- The zero offsets of a whole-block load or store, as the constant function. -/
theorem hz : (![0, 0] : Fin 2 → Nat) = fun _ => 0 := funext fun a => by fin_cases a <;> rfl

/-- The index maps over the ten grid points: the features, the scale column and the result move down one row block per
    point, the weights stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The features' block at point `t` is rows `5000 t … 5000 t + 4999` of the feature array. -/
theorem blk_x_apply (c : Dev nD) (t : Fin cfg0.N) (y : Xb.Idx) (i : Xa.Idx)
    (h0 : (i 0).val = 5000 * t.val + (y 0).val) (h1 : (i 1).val = (y 1).val) :
    (iblk0 V c 0 t : Vec Ideal Xb .f32) y = (V c main_arg0 : FVec Ideal Xa .f32) i := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weights' block at every point is the whole weight array. -/
theorem blk_w_apply (c : Dev nD) (t : Fin cfg0.N) (y : Wa.Idx) :
    (iblk0 V c 1 t : Vec Ideal Wa .f32) y = (V c main_arg3 : FVec Ideal Wa .f32) y := by
  obtain ⟨-, -, e2, e3, -⟩ := idx_facts t
  unfold iblk0
  rw [View.read_apply]
  show V c main_arg3 _ = V c main_arg3 _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- The scale column's block at point `t` is rows `5000 t … 5000 t + 4999` of the scale column. -/
theorem blk_s_apply (c : Dev nD) (t : Fin cfg0.N) (y : S5000x1.Idx) (i : S50000x1.Idx)
    (h0 : (i 0).val = 5000 * t.val + (y 0).val) (h1 : (i 1).val = (y 1).val) :
    (iblk0 V c 2 t : Vec Ideal S5000x1 .f32) y = (V c main_v10 : FVec Ideal S50000x1 .f32) i := by
  obtain ⟨-, -, -, -, e4, e5, -⟩ := idx_facts t
  unfold iblk0
  rw [View.read_apply]
  show V c main_v10 _ = V c main_v10 _
  congr 1
  funext a
  apply Fin.ext
  match a with
  | ⟨0, _⟩ => show win0_2.index t (0 : Fin 2) * 5000 + 1 * (y 0).val = (i 0).val; rw [e4, h0]; omega
  | ⟨1, _⟩ => show win0_2.index t (1 : Fin 2) * 1 + 1 * (y 1).val = (i 1).val; rw [e5, h1]; omega

/-- The body's value at entry `y` of point `t`'s block is the projection at the entry `i` of the array that `y` names:
    row `5000 t + y₀`, column `y₁`. -/
theorem pay_blk (c : Dev nD) (so : FVec Ideal S50000 .f32)
    (hs : ∀ r : Fin 50000, (V c main_v10 : FVec Ideal S50000x1 .f32) (ix2 r 0) = so (ix1 r))
    (t : Fin cfg0.N) (y : Yb.Idx) (i : Ya.Idx)
    (h0 : (i 0).val = 5000 * t.val + (y 0).val) (h1 : (i 1).val = (y 1).val) :
    k0_pay1 (iblk0 V c 0 t) (iblk0 V c 1 t) (iblk0 V c 2 t) y = Gcn.proj (V c main_arg0) (V c main_arg3) so i := by
  obtain ⟨p, q, rfl⟩ : ∃ (p : Fin 5000) (q : Fin 128), y = ix2 p q := ⟨y 0, y 1, eq_ix2 y⟩
  obtain ⟨r, q', rfl⟩ : ∃ (r : Fin 50000) (q' : Fin 128), i = ix2 r q' := ⟨i 0, i 1, eq_ix2 i⟩
  obtain rfl : q' = q := Fin.ext h1
  have hr : r.val = 5000 * t.val + p.val := h0
  refine ((pay_apply (iblk0 V c 0 t) (iblk0 V c 1 t) (iblk0 V c 2 t) p q').trans ?_).trans
    (proj_apply (V c main_arg0) (V c main_arg3) so r q').symm
  rw [blk_s_apply V c t (ix2 p (0 : Fin 1)) (ix2 r (0 : Fin 1)) hr rfl, hs r]
  congr 1
  refine Finset.sum_congr rfl fun k _ => ?_
  rw [blk_x_apply V c t (ix2 p k) (ix2 r k) hr rfl, blk_w_apply V c t (ix2 k q')]

/-- What point `t` writes back is block `t` of the projection of the arrays the region reads. -/
theorem flushed_eq (c : Dev nD) (so : FVec Ideal S50000 .f32)
    (hs : ∀ r : Fin 50000, (V c main_v10 : FVec Ideal S50000x1 .f32) (ix2 r 0) = so (ix1 r)) (t : Fin cfg0.N) :
    (dat0 V c).flushed 3 t = ((cfg0.win 3).blk t).view.read (Elt Ideal) (Gcn.proj (V c main_arg0) (V c main_arg3) so) := by
  show (cfg0.win 3).cut (grid0.coords t) ((dat0 V c).after 3 t) = _
  rw [after0_3]
  unfold out0_3
  rw [View.canon_unit_zero hz]
  simp only [View.ld_unit_zero (S := Xb) hz, View.ld_unit_zero (S := Wa) hz, View.ld_unit_zero (S := S5000x1) hz]
  obtain ⟨-, -, -, -, -, -, e6, e7⟩ := idx_facts t
  funext j
  refine pay_blk V c so hs t ((cfg0.win 3).xinj (grid0.coords t) j) (((cfg0.win 3).blk t).view.emb j) ?_ ?_
  · show win0_3.index t (0 : Fin 2) * 5000 + 1 * (j 0).val = 5000 * t.val + (j 0).val; rw [e6]; omega
  · show win0_3.index t (1 : Fin 2) * 128 + 1 * (j 1).val = (j 1).val; rw [e7]; omega

/-- An entry of the result array is in point `t`'s block iff each coordinate is in the block's range on its axis. -/
theorem mem_blk (t : Fin cfg0.N) (i : Ya.Idx) :
    i ∈ ((cfg0.win 3).blk t).view.set ↔ ∀ a : Fin 2, win0_3.index t a * Yb.size a ≤ (i a).val ∧ (i a).val < win0_3.index t a * Yb.size a + Yb.size a := by
  show i ∈ ((View.whole main_v13).slice (win0_3.rect t)).set ↔ _
  rw [View.set_slice_whole, Rect.mem_set_unit]
  exact Iff.rfl

/-- Every entry of the result array is in some point's block: row `r` lies in the block of point `r / 5000`. -/
theorem cover (i : Ya.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 := ⟨⟨(i 0).val / 5000, by show _ < grid0.N; omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e6]; omega
  | ⟨1, _⟩ => show win0_3.index t (1 : Fin 2) * 128 ≤ (i 1).val ∧ (i 1).val < win0_3.index t (1 : Fin 2) * 128 + 128; rw [e7]; omega

end Proj0

/-- The output array after the last row block is written back: row `r`, column `c` holds `(∑ k, x[r, k] · w[k, c]) · so[r]`,
    `so` being the scale column the kernel reads as a 50000 × 1 array. -/
theorem region0_arr (c : Dev nD) (so : FVec Ideal S50000 .f32)
    (hs : ∀ r : Fin 50000, (V c main_v10 : FVec Ideal S50000x1 .f32) (ix2 r 0) = so (ix1 r)) :
    (dat0 V c).arrAt 3 cfg0.N = Gcn.proj (V c main_arg0) (V c main_arg3) so :=
  (dat0 V c).arrAt_eq_of_cover 3 (Gcn.proj (V c main_arg0) (V c main_arg3) so)
    (fun t _ => Proj0.flushed_eq V c so hs t) Proj0.cover

end Cert.KernelIdeal.Gen

end
-- ==== Proof.Region1.lean ====
/-
  The finishing kernel of layer 1, over all ten row blocks: its output array is `Gcn.hidden` of the arrays it reads.
-/
import proofs.«431278_j31860067401788_1_alg».proof.Proof.Gen.KernelIdeal.Frame
import proofs.«431278_j31860067401788_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

namespace Fin1

/-- The body's loads and its store start at the zero offsets. -/
theorem zero_offsets : (![0, 0] : Fin 2 → Nat) = fun _ => 0 :=
  funext fun a => match a with | ⟨0, _⟩ => rfl | ⟨1, _⟩ => rfl

/-- An `[a, 1]` column broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's arithmetic at an entry `(p, q)` of the block: the aggregate's entry times the row's scale plus the
    column's bias, then the leaky rectifier. -/
theorem pay_apply (x0 : Vec Ideal S5000x128 .f32) (x1 : Vec Ideal S5000x1 .f32) (x2 : Vec Ideal S1x128 .f32)
    (p : Fin 5000) (q : Fin 128) :
    k1_pay1 x0 x1 x2 (ix2 p q) =
      Scalar.select (FloatOps.cmpf .oge (x0 (ix2 p q) * x1 (ix2 p (0 : Fin 1)) + x2 (ix2 (0 : Fin 1) q)) (Ideal.ofBits .f32 0x00000000#32))
        (x0 (ix2 p q) * x1 (ix2 p (0 : Fin 1)) + x2 (ix2 (0 : Fin 1) q))
        (Ideal.ofBits .f32 0x3DCCCCCD#32 * (x0 (ix2 p q) * x1 (ix2 p (0 : Fin 1)) + x2 (ix2 (0 : Fin 1) q))) := by
  unfold k1_pay1
  simp only [shapeCast_self]
  rw [select_apply, cmpf_apply, mulf_apply, addf_apply, mulf_apply, broadcast_apply, broadcast_apply,
    broadcastTo_a1_ab_apply, broadcastTo_1b_ab_apply]
  rfl

/-- One entry of a block against one entry of the arrays: when the block entry `(p, q)` of the aggregate is the array's
    entry `(r, q)`, row `p` of the scale block is the scale of row `r` and the bias block's column `q` is the bias of
    column `q`, the body's value at `(p, q)` is the finishing stage's at `(r, q)`. -/
theorem pay_eq_hidden (a : FVec Ideal S50000x128 .f32) (si : FVec Ideal S50000 .f32) (b : FVec Ideal S128 .f32)
    (x0 : Vec Ideal S5000x128 .f32) (x1 : Vec Ideal S5000x1 .f32) (x2 : Vec Ideal S1x128 .f32)
    (p : Fin 5000) (q : Fin 128) (r : Fin 50000)
    (h0 : x0 (ix2 p q) = a (ix2 r q)) (h1 : x1 (ix2 p (0 : Fin 1)) = si (ix1 r)) (h2 : x2 (ix2 (0 : Fin 1) q) = b (ix1 q)) :
    k1_pay1 x0 x1 x2 (ix2 p q) = Gcn.hidden a si b (ix2 r q) := by
  rw [pay_apply, h0, h1, h2]
  rfl

/-- The printed index maps, decided over the grid: at point `t` the aggregate's, the scale's and the output's windows are
    at row block `t`, and the bias window at its one block. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the finishing stage of the arrays the region reads. -/
theorem flushed_eq (c : Dev nD) (si : FVec Ideal S50000 .f32) (b : FVec Ideal S128 .f32)
    (hs : ∀ r : Fin 50000, (V c main_v12 : FVec Ideal S50000x1 .f32) (ix2 r 0) = si (ix1 r))
    (hb : ∀ q : Fin 128, (V c main_v18 : FVec Ideal S1x128 .f32) (ix2 0 q) = b (ix1 q)) (t : Fin cfg1.N) :
    (dat1 V c).flushed 3 t = ((cfg1.win 3).blk t).view.read (Elt Ideal) (Gcn.hidden (V c main_v17) si b) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S5000x1) zero_offsets,
    View.ld_unit_zero (S := S1x128) zero_offsets]
  obtain ⟨e0, e1, e2, e3, e4, e5, e6, e7⟩ := block_index t
  have ht : t.val < 10 := t.isLt
  funext j
  obtain ⟨p, q, rfl⟩ : ∃ (p : Fin 5000) (q : Fin 128), j = ix2 p q := ⟨j 0, j 1, eq_ix2 j⟩
  have hp : p.val < 5000 := p.isLt
  show k1_pay1 (iblk1 V c 0 t) (iblk1 V c 1 t) (iblk1 V c 2 t) (ix2 p q)
    = Gcn.hidden (V c main_v17) si b (((cfg1.win 3).blk t).view.emb (ix2 p q))
  have hr : ((cfg1.win 3).blk t).view.emb (ix2 p q) = ix2 (⟨t.val * 5000 + p.val, by omega⟩ : Fin 50000) q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  rw [hr]
  refine pay_eq_hidden (V c main_v17) si b _ _ _ p q _ ?_ ?_ ?_
  · show V c main_v17 (((cfg1.win 0).blk t).view.emb (ix2 p q)) = V c main_v17 _
    refine congrArg (V c main_v17) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  · rw [← hs]
    show V c main_v12 (((cfg1.win 1).blk t).view.emb (ix2 p (0 : Fin 1))) = V c main_v12 _
    refine congrArg (V c main_v12) ?_
    funext a; apply Fin.ext
    match a with
    | ⟨0, _⟩ => show win1_1.index t (0 : Fin 2) * 5000 + 1 * p.val = t.val * 5000 + p.val; omega
    | ⟨1, _⟩ => show win1_1.index t (1 : Fin 2) * 1 + 1 * 0 = 0; omega
  · rw [← hb]
    show V c main_v18 (((cfg1.win 2).blk t).view.emb (ix2 (0 : Fin 1) q)) = V c main_v18 _
    refine congrArg (V c main_v18) ?_
    funext a; apply Fin.ext
    match a with
    | ⟨0, _⟩ => show win1_2.index t (0 : Fin 2) * 1 + 1 * 0 = 0; omega
    | ⟨1, _⟩ => show win1_2.index t (1 : Fin 2) * 128 + 1 * q.val = q.val; omega

/-- An index of the array is in point `t`'s block iff each coordinate is in the block's range on its axis. -/
theorem mem_blk (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v19).slice (win1_3.rect t)).set ↔ _
  rw [View.set_slice_whole, Rect.mem_set_unit]
  exact Iff.rfl

/-- Every entry of the array is written back: row `r` lies in the block of point `r / 5000`. -/
theorem covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hlt : (i 0).val / 5000 < 10 := by omega
  refine ⟨⟨(i 0).val / 5000, hlt⟩, flush1_3 _, ?_⟩
  obtain ⟨-, -, -, -, -, -, e6, e7⟩ := block_index ⟨(i 0).val / 5000, hlt⟩
  have e6' : win1_3.index ⟨(i 0).val / 5000, hlt⟩ (0 : Fin 2) = (i 0).val / 5000 := e6
  rw [mem_blk]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    omega
  | ⟨1, _⟩ =>
    show win1_3.index ⟨(i 0).val / 5000, hlt⟩ (1 : Fin 2) * 128 ≤ (i 1).val
      ∧ (i 1).val < win1_3.index ⟨(i 0).val / 5000, hlt⟩ (1 : Fin 2) * 128 + 128
    omega

end Fin1

/-- The output array after the last row block is written back, the scale read as a 50000 × 1 array and the bias as a
    1 × 128 array. -/
theorem region1_arr (c : Dev nD) (si : FVec Ideal S50000 .f32) (b : FVec Ideal S128 .f32)
    (hs : ∀ r : Fin 50000, (V c main_v12 : FVec Ideal S50000x1 .f32) (ix2 r 0) = si (ix1 r))
    (hb : ∀ q : Fin 128, (V c main_v18 : FVec Ideal S1x128 .f32) (ix2 0 q) = b (ix1 q)) :
    (dat1 V c).arrAt 3 cfg1.N = Gcn.hidden (V c main_v17) si b := by
  exact (dat1 V c).arrAt_eq_of_cover 3 (Gcn.hidden (V c main_v17) si b)
    (fun t _ => Fin1.flushed_eq V c si b hs hb t) Fin1.covered

end Cert.KernelIdeal.Gen

end
-- ==== Proof.Region2.lean ====
/-
  The projection kernel of layer 2, over all ten row blocks: its output array is `Gcn.proj` of the arrays it reads.
-/
import proofs.«431278_j31860067401788_1_alg».proof.Proof.Gen.KernelIdeal.Frame
import proofs.«431278_j31860067401788_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

namespace Proj2

/-! ## The shapes by role, and the body's value at an entry of its block -/

/-- The feature array and one row block of it; the weight array; the result array and one row block of it. -/
abbrev Xa : Shape := S50000x128
abbrev Xb : Shape := S5000x128
abbrev Wa : Shape := S128x64
abbrev Ya : Shape := S50000x64
abbrev Yb : Shape := S5000x64

/-- The left operand's row coordinate is the result's. -/
theorem lhs_0 (i : Yb.Idx) (s : dot_S5000x128_S128x64_S5000x64_1_0_0_1_n_n.contr.Idx) :
    (dot_S5000x128_S128x64_S5000x64_1_0_0_1_n_n.lhsIdx i s 0).val = (i 0).val := by
  unfold DotDims.lhsIdx
  rw [dif_neg (show ¬(0 : Fin Xb.rank) ∈ dot_S5000x128_S128x64_S5000x64_1_0_0_1_n_n.lhsBatch by decide), dif_pos (show (0 : Fin Xb.rank) ∈ dot_S5000x128_S128x64_S5000x64_1_0_0_1_n_n.lhsNonContracting by decide)]
  rfl
/-- The left operand's column coordinate is the contracted one. -/
theorem lhs_1 (i : Yb.Idx) (s : dot_S5000x128_S128x64_S5000x64_1_0_0_1_n_n.contr.Idx) :
    (dot_S5000x128_S128x64_S5000x64_1_0_0_1_n_n.lhsIdx i s 1).val = (s ⟨0, by decide⟩).val :=
  dot_S5000x128_S128x64_S5000x64_1_0_0_1_n_n.lhsIdx_val_of_single rfl i s
/-- The right operand's row coordinate is the contracted one. -/
theorem rhs_0 (i : Yb.Idx) (s : dot_S5000x128_S128x64_S5000x64_1_0_0_1_n_n.contr.Idx) :
    (dot_S5000x128_S128x64_S5000x64_1_0_0_1_n_n.rhsIdx i s 0).val = (s ⟨0, by decide⟩).val :=
  dot_S5000x128_S128x64_S5000x64_1_0_0_1_n_n.rhsIdx_val_of_single rfl i s
/-- The right operand's column coordinate is the result's. -/
theorem rhs_1 (i : Yb.Idx) (s : dot_S5000x128_S128x64_S5000x64_1_0_0_1_n_n.contr.Idx) :
    (dot_S5000x128_S128x64_S5000x64_1_0_0_1_n_n.rhsIdx i s 1).val = (i 1).val := by
  unfold DotDims.rhsIdx
  rw [dif_neg (show ¬(1 : Fin Wa.rank) ∈ dot_S5000x128_S128x64_S5000x64_1_0_0_1_n_n.rhsBatch by decide), dif_pos (show (1 : Fin Wa.rank) ∈ dot_S5000x128_S128x64_S5000x64_1_0_0_1_n_n.rhsNonContracting by decide)]
  rfl

/-- The product into a zero accumulator, entry by entry: the sum over the contracted coordinate. -/
theorem matmul_apply (a : FVec Ideal Xb .bf16) (b : FVec Ideal Wa .bf16) (p : Fin 5000) (q : Fin 64) :
    matmul dot_S5000x128_S128x64_S5000x64_1_0_0_1_n_n none a b (constant (F := Ideal) Yb .f32 0x00000000#32) (ix2 p q)
      = ∑ k : Fin 128, a (ix2 p k) * b (ix2 k q) := by
  show FloatOps.matmul dot_S5000x128_S128x64_S5000x64_1_0_0_1_n_n none a b (constant (F := Ideal) Yb .f32 0x00000000#32) (ix2 p q) = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- A column broadcast along the rows: entry `(p, q)` reads the column's row `p`. -/
theorem bcast_col_apply (v : FVec Ideal S5000x1 .f32) (p : Fin 5000) (q : Fin 64) :
    broadcastTo Yb v broadcasts_S5000x1_S5000x64 (ix2 p q) = v (ix2 p (0 : Fin 1)) := by
  refine broadcastTo_apply v broadcasts_S5000x1_S5000x64 (ix2 p q) (ix2 p (0 : Fin 1)) fun ax => ?_
  match ax with
  | ⟨0, _⟩ => rfl
  | ⟨1, _⟩ => rfl

/-- The body's value at entry `(p, q)` of its block: the features' row `p` against the weights' column `q`, times the
    scale of row `p`. The casts between equal shapes are the identity, and so is the rounding of the operands on the
    extended reals. -/
theorem pay_apply (x0 : Vec Ideal Xb .f32) (x1 : Vec Ideal Wa .f32) (x2 : Vec Ideal S5000x1 .f32) (p : Fin 5000) (q : Fin 64) :
    k2_pay1 x0 x1 x2 (ix2 p q) = (∑ k : Fin 128, x0 (ix2 p k) * x1 (ix2 k q)) * x2 (ix2 p (0 : Fin 1)) := by
  unfold k2_pay1
  rw [mulf_apply, matmul_apply, bcast_col_apply]
  simp only [shapeCast_self]
  rfl

/-- The projection at entry `(r, q)`, spelt out. -/
theorem proj_apply (x : FVec Ideal Xa .f32) (w : FVec Ideal Wa .f32) (so : FVec Ideal S50000 .f32)
    (r : Fin 50000) (q : Fin 64) :
    Gcn.proj x w so (ix2 r q) = (∑ k : Fin 128, x (ix2 r k) * w (ix2 k q)) * so (ix1 r) := rfl

/-! ## From the ten blocks to the array -/

/-- The zero offsets of a whole-block load or store, as the constant function. -/
theorem hz : (![0, 0] : Fin 2 → Nat) = fun _ => 0 := funext fun a => by fin_cases a <;> rfl

/-- The index maps over the ten grid points: the features, the scale column and the result move down one row block per
    point, the weights stay at their one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The features' block at point `t` is rows `5000 t … 5000 t + 4999` of the feature array. -/
theorem blk_x_apply (c : Dev nD) (t : Fin cfg2.N) (y : Xb.Idx) (i : Xa.Idx)
    (h0 : (i 0).val = 5000 * t.val + (y 0).val) (h1 : (i 1).val = (y 1).val) :
    (iblk2 V c 0 t : Vec Ideal Xb .f32) y = (V c main_v19 : FVec Ideal Xa .f32) i := by
  obtain ⟨e0, e1, -⟩ := idx_facts t
  unfold iblk2
  rw [View.read_apply]
  show V c main_v19 _ = V c main_v19 _
  congr 1
  funext a
  apply Fin.ext
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- The weights' block at every point is the whole weight array. -/
theorem blk_w_apply (c : Dev nD) (t : Fin cfg2.N) (y : Wa.Idx) :
    (iblk2 V c 1 t : Vec Ideal Wa .f32) y = (V c main_arg5 : FVec Ideal Wa .f32) y := by
  obtain ⟨-, -, e2, e3, -⟩ := idx_facts t
  unfold iblk2
  rw [View.read_apply]
  show V c main_arg5 _ = V c main_arg5 _
  congr 1
  funext a
  apply Fin.ext
  match a with
  | ⟨0, _⟩ => show win2_1.index t (0 : Fin 2) * 128 + 1 * (y 0).val = (y 0).val; rw [e2]; omega
  | ⟨1, _⟩ => show win2_1.index t (1 : Fin 2) * 64 + 1 * (y 1).val = (y 1).val; rw [e3]; omega

/-- The scale column's block at point `t` is rows `5000 t … 5000 t + 4999` of the scale column. -/
theorem blk_s_apply (c : Dev nD) (t : Fin cfg2.N) (y : S5000x1.Idx) (i : S50000x1.Idx)
    (h0 : (i 0).val = 5000 * t.val + (y 0).val) (h1 : (i 1).val = (y 1).val) :
    (iblk2 V c 2 t : Vec Ideal S5000x1 .f32) y = (V c main_v10 : FVec Ideal S50000x1 .f32) i := by
  obtain ⟨-, -, -, -, e4, e5, -⟩ := idx_facts t
  unfold iblk2
  rw [View.read_apply]
  show V c main_v10 _ = V c main_v10 _
  congr 1
  funext a
  apply Fin.ext
  match a with
  | ⟨0, _⟩ => show win2_2.index t (0 : Fin 2) * 5000 + 1 * (y 0).val = (i 0).val; rw [e4, h0]; omega
  | ⟨1, _⟩ => show win2_2.index t (1 : Fin 2) * 1 + 1 * (y 1).val = (i 1).val; rw [e5, h1]; omega

/-- The body's value at entry `y` of point `t`'s block is the projection at the entry `i` of the array that `y` names:
    row `5000 t + y₀`, column `y₁`. -/
theorem pay_blk (c : Dev nD) (so : FVec Ideal S50000 .f32)
    (hs : ∀ r : Fin 50000, (V c main_v10 : FVec Ideal S50000x1 .f32) (ix2 r 0) = so (ix1 r))
    (t : Fin cfg2.N) (y : Yb.Idx) (i : Ya.Idx)
    (h0 : (i 0).val = 5000 * t.val + (y 0).val) (h1 : (i 1).val = (y 1).val) :
    k2_pay1 (iblk2 V c 0 t) (iblk2 V c 1 t) (iblk2 V c 2 t) y = Gcn.proj (V c main_v19) (V c main_arg5) so i := by
  obtain ⟨p, q, rfl⟩ : ∃ (p : Fin 5000) (q : Fin 64), y = ix2 p q := ⟨y 0, y 1, eq_ix2 y⟩
  obtain ⟨r, q', rfl⟩ : ∃ (r : Fin 50000) (q' : Fin 64), i = ix2 r q' := ⟨i 0, i 1, eq_ix2 i⟩
  obtain rfl : q' = q := Fin.ext h1
  have hr : r.val = 5000 * t.val + p.val := h0
  refine ((pay_apply (iblk2 V c 0 t) (iblk2 V c 1 t) (iblk2 V c 2 t) p q').trans ?_).trans
    (proj_apply (V c main_v19) (V c main_arg5) so r q').symm
  rw [blk_s_apply V c t (ix2 p (0 : Fin 1)) (ix2 r (0 : Fin 1)) hr rfl, hs r]
  congr 1
  refine Finset.sum_congr rfl fun k _ => ?_
  rw [blk_x_apply V c t (ix2 p k) (ix2 r k) hr rfl, blk_w_apply V c t (ix2 k q')]

/-- What point `t` writes back is block `t` of the projection of the arrays the region reads. -/
theorem flushed_eq (c : Dev nD) (so : FVec Ideal S50000 .f32)
    (hs : ∀ r : Fin 50000, (V c main_v10 : FVec Ideal S50000x1 .f32) (ix2 r 0) = so (ix1 r)) (t : Fin cfg2.N) :
    (dat2 V c).flushed 3 t = ((cfg2.win 3).blk t).view.read (Elt Ideal) (Gcn.proj (V c main_v19) (V c main_arg5) so) := by
  show (cfg2.win 3).cut (grid2.coords t) ((dat2 V c).after 3 t) = _
  rw [after2_3]
  unfold out2_3
  rw [View.canon_unit_zero hz]
  simp only [View.ld_unit_zero (S := Xb) hz, View.ld_unit_zero (S := Wa) hz, View.ld_unit_zero (S := S5000x1) hz]
  obtain ⟨-, -, -, -, -, -, e6, e7⟩ := idx_facts t
  funext j
  refine pay_blk V c so hs t ((cfg2.win 3).xinj (grid2.coords t) j) (((cfg2.win 3).blk t).view.emb j) ?_ ?_
  · show win2_3.index t (0 : Fin 2) * 5000 + 1 * (j 0).val = 5000 * t.val + (j 0).val; rw [e6]; omega
  · show win2_3.index t (1 : Fin 2) * 64 + 1 * (j 1).val = (j 1).val; rw [e7]; omega

/-- An entry of the result array is in point `t`'s block iff each coordinate is in the block's range on its axis. -/
theorem mem_blk (t : Fin cfg2.N) (i : Ya.Idx) :
    i ∈ ((cfg2.win 3).blk t).view.set ↔ ∀ a : Fin 2, win2_3.index t a * Yb.size a ≤ (i a).val ∧ (i a).val < win2_3.index t a * Yb.size a + Yb.size a := by
  show i ∈ ((View.whole main_v20).slice (win2_3.rect t)).set ↔ _
  rw [View.set_slice_whole, Rect.mem_set_unit]
  exact Iff.rfl

/-- Every entry of the result array is in some point's block: row `r` lies in the block of point `r / 5000`. -/
theorem cover (i : Ya.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : grid2.N = 10 := N_2
  obtain ⟨t, ht⟩ : ∃ t : Fin cfg2.N, t.val = (i 0).val / 5000 := ⟨⟨(i 0).val / 5000, by show _ < grid2.N; omega⟩, rfl⟩
  obtain ⟨-, -, -, -, -, -, e6, e7⟩ := idx_facts t
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; rw [e6]; omega
  | ⟨1, _⟩ => show win2_3.index t (1 : Fin 2) * 64 ≤ (i 1).val ∧ (i 1).val < win2_3.index t (1 : Fin 2) * 64 + 64; rw [e7]; omega

end Proj2

/-- The output array after the last row block is written back: row `r`, column `c` holds `(∑ k, x[r, k] · w[k, c]) · so[r]`,
    `so` being the scale column the kernel reads as a 50000 × 1 array. -/
theorem region2_arr (c : Dev nD) (so : FVec Ideal S50000 .f32)
    (hs : ∀ r : Fin 50000, (V c main_v10 : FVec Ideal S50000x1 .f32) (ix2 r 0) = so (ix1 r)) :
    (dat2 V c).arrAt 3 cfg2.N = Gcn.proj (V c main_v19) (V c main_arg5) so :=
  (dat2 V c).arrAt_eq_of_cover 3 (Gcn.proj (V c main_v19) (V c main_arg5) so)
    (fun t _ => Proj2.flushed_eq V c so hs t) Proj2.cover

end Cert.KernelIdeal.Gen

end
-- ==== Proof.Region3.lean ====
/-
  The finishing kernel of layer 2, over all ten row blocks: its output array is `Gcn.hidden` of the arrays it reads.
-/
import proofs.«431278_j31860067401788_1_alg».proof.Proof.Gen.KernelIdeal.Frame
import proofs.«431278_j31860067401788_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

namespace Fin3

/-- The body's loads and its store start at the zero offsets. -/
theorem zero_offsets : (![0, 0] : Fin 2 → Nat) = fun _ => 0 :=
  funext fun a => match a with | ⟨0, _⟩ => rfl | ⟨1, _⟩ => rfl

/-- An `[a, 1]` column broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's arithmetic at an entry `(p, q)` of the block: the aggregate's entry times the row's scale plus the
    column's bias, then the leaky rectifier. -/
theorem pay_apply (x0 : Vec Ideal S5000x64 .f32) (x1 : Vec Ideal S5000x1 .f32) (x2 : Vec Ideal S1x64 .f32)
    (p : Fin 5000) (q : Fin 64) :
    k3_pay1 x0 x1 x2 (ix2 p q) =
      Scalar.select (FloatOps.cmpf .oge (x0 (ix2 p q) * x1 (ix2 p (0 : Fin 1)) + x2 (ix2 (0 : Fin 1) q)) (Ideal.ofBits .f32 0x00000000#32))
        (x0 (ix2 p q) * x1 (ix2 p (0 : Fin 1)) + x2 (ix2 (0 : Fin 1) q))
        (Ideal.ofBits .f32 0x3DCCCCCD#32 * (x0 (ix2 p q) * x1 (ix2 p (0 : Fin 1)) + x2 (ix2 (0 : Fin 1) q))) := by
  unfold k3_pay1
  simp only [shapeCast_self]
  rw [select_apply, cmpf_apply, mulf_apply, addf_apply, mulf_apply, broadcast_apply, broadcast_apply,
    broadcastTo_a1_ab_apply, broadcastTo_1b_ab_apply]
  rfl

/-- One entry of a block against one entry of the arrays: when the block entry `(p, q)` of the aggregate is the array's
    entry `(r, q)`, row `p` of the scale block is the scale of row `r` and the bias block's column `q` is the bias of
    column `q`, the body's value at `(p, q)` is the finishing stage's at `(r, q)`. -/
theorem pay_eq_hidden (a : FVec Ideal S50000x64 .f32) (si : FVec Ideal S50000 .f32) (b : FVec Ideal S64 .f32)
    (x0 : Vec Ideal S5000x64 .f32) (x1 : Vec Ideal S5000x1 .f32) (x2 : Vec Ideal S1x64 .f32)
    (p : Fin 5000) (q : Fin 64) (r : Fin 50000)
    (h0 : x0 (ix2 p q) = a (ix2 r q)) (h1 : x1 (ix2 p (0 : Fin 1)) = si (ix1 r)) (h2 : x2 (ix2 (0 : Fin 1) q) = b (ix1 q)) :
    k3_pay1 x0 x1 x2 (ix2 p q) = Gcn.hidden a si b (ix2 r q) := by
  rw [pay_apply, h0, h1, h2]
  rfl

/-- The printed index maps, decided over the grid: at point `t` the aggregate's, the scale's and the output's windows are
    at row block `t`, and the bias window at its one block. -/
theorem block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of the finishing stage of the arrays the region reads. -/
theorem flushed_eq (c : Dev nD) (si : FVec Ideal S50000 .f32) (b : FVec Ideal S64 .f32)
    (hs : ∀ r : Fin 50000, (V c main_v12 : FVec Ideal S50000x1 .f32) (ix2 r 0) = si (ix1 r))
    (hb : ∀ q : Fin 64, (V c main_v25 : FVec Ideal S1x64 .f32) (ix2 0 q) = b (ix1 q)) (t : Fin cfg3.N) :
    (dat3 V c).flushed 3 t = ((cfg3.win 3).blk t).view.read (Elt Ideal) (Gcn.hidden (V c main_v24) si b) := by
  show (cfg3.win 3).cut (grid3.coords t) ((dat3 V c).after 3 t) = _
  rw [after3_3]
  unfold out3_3
  rw [View.canon_unit_zero zero_offsets]
  simp only [View.ld_unit_zero (S := S5000x64) zero_offsets, View.ld_unit_zero (S := S5000x1) zero_offsets,
    View.ld_unit_zero (S := S1x64) zero_offsets]
  obtain ⟨e0, e1, e2, e3, e4, e5, e6, e7⟩ := block_index t
  have ht : t.val < 10 := t.isLt
  funext j
  obtain ⟨p, q, rfl⟩ : ∃ (p : Fin 5000) (q : Fin 64), j = ix2 p q := ⟨j 0, j 1, eq_ix2 j⟩
  have hp : p.val < 5000 := p.isLt
  show k3_pay1 (iblk3 V c 0 t) (iblk3 V c 1 t) (iblk3 V c 2 t) (ix2 p q)
    = Gcn.hidden (V c main_v24) si b (((cfg3.win 3).blk t).view.emb (ix2 p q))
  have hr : ((cfg3.win 3).blk t).view.emb (ix2 p q) = ix2 (⟨t.val * 5000 + p.val, by omega⟩ : Fin 50000) q := by
    funext a; apply Fin.ext
    match a with
    | ⟨0, _⟩ => show win3_3.index t (0 : Fin 2) * 5000 + 1 * p.val = t.val * 5000 + p.val; omega
    | ⟨1, _⟩ => show win3_3.index t (1 : Fin 2) * 64 + 1 * q.val = q.val; omega
  rw [hr]
  refine pay_eq_hidden (V c main_v24) si b _ _ _ p q _ ?_ ?_ ?_
  · show V c main_v24 (((cfg3.win 0).blk t).view.emb (ix2 p q)) = V c main_v24 _
    refine congrArg (V c main_v24) ?_
    funext a; apply Fin.ext
    match a with
    | ⟨0, _⟩ => show win3_0.index t (0 : Fin 2) * 5000 + 1 * p.val = t.val * 5000 + p.val; omega
    | ⟨1, _⟩ => show win3_0.index t (1 : Fin 2) * 64 + 1 * q.val = q.val; omega
  · rw [← hs]
    show V c main_v12 (((cfg3.win 1).blk t).view.emb (ix2 p (0 : Fin 1))) = V c main_v12 _
    refine congrArg (V c main_v12) ?_
    funext a; apply Fin.ext
    match a with
    | ⟨0, _⟩ => show win3_1.index t (0 : Fin 2) * 5000 + 1 * p.val = t.val * 5000 + p.val; omega
    | ⟨1, _⟩ => show win3_1.index t (1 : Fin 2) * 1 + 1 * 0 = 0; omega
  · rw [← hb]
    show V c main_v25 (((cfg3.win 2).blk t).view.emb (ix2 (0 : Fin 1) q)) = V c main_v25 _
    refine congrArg (V c main_v25) ?_
    funext a; apply Fin.ext
    match a with
    | ⟨0, _⟩ => show win3_2.index t (0 : Fin 2) * 1 + 1 * 0 = 0; omega
    | ⟨1, _⟩ => show win3_2.index t (1 : Fin 2) * 64 + 1 * q.val = q.val; omega

/-- An index of the array is in point `t`'s block iff each coordinate is in the block's range on its axis. -/
theorem mem_blk (t : Fin cfg3.N) (i : S50000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v26).slice (win3_3.rect t)).set ↔ _
  rw [View.set_slice_whole, Rect.mem_set_unit]
  exact Iff.rfl

/-- Every entry of the array is written back: row `r` lies in the block of point `r / 5000`. -/
theorem covered (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  have hlt : (i 0).val / 5000 < 10 := by omega
  refine ⟨⟨(i 0).val / 5000, hlt⟩, flush3_3 _, ?_⟩
  obtain ⟨-, -, -, -, -, -, e6, e7⟩ := block_index ⟨(i 0).val / 5000, hlt⟩
  have e6' : win3_3.index ⟨(i 0).val / 5000, hlt⟩ (0 : Fin 2) = (i 0).val / 5000 := e6
  rw [mem_blk]
  intro a
  match a with
  | ⟨0, _⟩ =>
    show win3_3.index ⟨(i 0).val / 5000, hlt⟩ (0 : Fin 2) * 5000 ≤ (i 0).val
      ∧ (i 0).val < win3_3.index ⟨(i 0).val / 5000, hlt⟩ (0 : Fin 2) * 5000 + 5000
    omega
  | ⟨1, _⟩ =>
    show win3_3.index ⟨(i 0).val / 5000, hlt⟩ (1 : Fin 2) * 64 ≤ (i 1).val
      ∧ (i 1).val < win3_3.index ⟨(i 0).val / 5000, hlt⟩ (1 : Fin 2) * 64 + 64
    omega

end Fin3

/-- The output array after the last row block is written back, the scale read as a 50000 × 1 array and the bias as a
    1 × 64 array. -/
theorem region3_arr (c : Dev nD) (si : FVec Ideal S50000 .f32) (b : FVec Ideal S64 .f32)
    (hs : ∀ r : Fin 50000, (V c main_v12 : FVec Ideal S50000x1 .f32) (ix2 r 0) = si (ix1 r))
    (hb : ∀ q : Fin 64, (V c main_v25 : FVec Ideal S1x64 .f32) (ix2 0 q) = b (ix1 q)) :
    (dat3 V c).arrAt 3 cfg3.N = Gcn.hidden (V c main_v24) si b := by
  exact (dat3 V c).arrAt_eq_of_cover 3 (Gcn.hidden (V c main_v24) si b)
    (fun t _ => Fin3.flushed_eq V c si b hs hb t) Fin3.covered

end Cert.KernelIdeal.Gen

end
-- ==== Proof.Region4.lean ====
/-
  The projection kernel of layer 3, over all ten row blocks: its output array is `Gcn.proj` of the arrays it reads.
-/
import proofs.«431278_j31860067401788_1_alg».proof.Proof.Gen.KernelIdeal.Frame
import proofs.«431278_j31860067401788_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

namespace Proj4

/-! ## The shapes by role, and the body's value at an entry of its block -/

/-- The feature array and one row block of it; the weight array; the result array and one row block of it. -/
abbrev Xa : Shape := S50000x64
abbrev Xb : Shape := S5000x64
abbrev Wa : Shape := S64x32
abbrev Ya : Shape := S50000x32
abbrev Yb : Shape := S5000x32

/-- The left operand's row coordinate is the result's. -/
theorem lhs_0 (i : Yb.Idx) (s : dot_S5000x64_S64x32_S5000x32_1_0_0_1_n_n.contr.Idx) :
    (dot_S5000x64_S64x32_S5000x32_1_0_0_1_n_n.lhsIdx i s 0).val = (i 0).val := by
  unfold DotDims.lhsIdx
  rw [dif_neg (show ¬(0 : Fin Xb.rank) ∈ dot_S5000x64_S64x32_S5000x32_1_0_0_1_n_n.lhsBatch by decide), dif_pos (show (0 : Fin Xb.rank) ∈ dot_S5000x64_S64x32_S5000x32_1_0_0_1_n_n.lhsNonContracting by decide)]
  rfl
/-- The left operand's column coordinate is the contracted one. -/
theorem lhs_1 (i : Yb.Idx) (s : dot_S5000x64_S64x32_S5000x32_1_0_0_1_n_n.contr.Idx) :
    (dot_S5000x64_S64x32_S5000x32_1_0_0_1_n_n.lhsIdx i s 1).val = (s ⟨0, by decide⟩).val :=
  dot_S5000x64_S64x32_S5000x32_1_0_0_1_n_n.lhsIdx_val_of_single rfl i s
/-- The right operand's row coordinate is the contracted one. -/
theorem rhs_0 (i : Yb.Idx) (s : dot_S5000x64_S64x32_S5000x32_1_0_0_1_n_n.contr.Idx) :
    (dot_S5000x64_S64x32_S5000x32_1_0_0_1_n_n.rhsIdx i s 0).val = (s ⟨0, by decide⟩).val :=
  dot_S5000x64_S64x32_S5000x32_1_0_0_1_n_n.rhsIdx_val_of_single rfl i s
/-- The right operand's column coordinate is the result's. -/
theorem rhs_1 (i : Yb.Idx) (s : dot_S5000x64_S64x32_S5000x32_1_0_0_1_n_n.contr.Idx) :
    (dot_S5000x64_S64x32_S5000x32_1_0_0_1_n_n.rhsIdx i s 1).val = (i 1).val := by
  unfold DotDims.rhsIdx
  rw [dif_neg (show ¬(1 : Fin Wa.rank) ∈ dot_S5000x64_S64x32_S5000x32_1_0_0_1_n_n.rhsBatch by decide), dif_pos (show (1 : Fin Wa.rank) ∈ dot_S5000x64_S64x32_S5000x32_1_0_0_1_n_n.rhsNonContracting by decide)]
  rfl

/-- The product into a zero accumulator, entry by entry: the sum over the contracted coordinate. -/
theorem matmul_apply (a : FVec Ideal Xb .bf16) (b : FVec Ideal Wa .bf16) (p : Fin 5000) (q : Fin 32) :
    matmul dot_S5000x64_S64x32_S5000x32_1_0_0_1_n_n none a b (constant (F := Ideal) Yb .f32 0x00000000#32) (ix2 p q)
      = ∑ k : Fin 64, a (ix2 p k) * b (ix2 k q) := by
  show FloatOps.matmul dot_S5000x64_S64x32_S5000x32_1_0_0_1_n_n none a b (constant (F := Ideal) Yb .f32 0x00000000#32) (ix2 p q) = _
  rw [Ideal.matmul_constant_zero_apply, ← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx (ix2 p q) ((ValueIdx.contrEquiv1 dot_S5000x64_S64x32_S5000x32_1_0_0_1_n_n 64 rfl rfl).symm k) = ix2 p k := funext fun a => Fin.ext (by
    match a with
    | ⟨0, _⟩ => exact lhs_0 _ _
    | ⟨1, _⟩ => exact (lhs_1 _ _).trans hk)
  have er : dot_S5000x64_S64x32_S5000x32_1_0_0_1_n_n.rhsIdx (ix2 p q) ((ValueIdx.contrEquiv1 dot_S5000x64_S64x32_S5000x32_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- A column broadcast along the rows: entry `(p, q)` reads the column's row `p`. -/
theorem bcast_col_apply (v : FVec Ideal S5000x1 .f32) (p : Fin 5000) (q : Fin 32) :
    broadcastTo Yb v broadcasts_S5000x1_S5000x32 (ix2 p q) = v (ix2 p (0 : Fin 1)) := by
  refine broadcastTo_apply v broadcasts_S5000x1_S5000x32 (ix2 p q) (ix2 p (0 : Fin 1)) fun ax => ?_
  match ax with
  | ⟨0, _⟩ => rfl
  | ⟨1, _⟩ => rfl

/-- The body's value at entry `(p, q)` of its block: the features' row `p` against the weights' column `q`, times the
    scale of row `p`. The casts between equal shapes are the identity, and so is the rounding of the operands on the
    extended reals. -/
theorem pay_apply (x0 : Vec Ideal Xb .f32) (x1 : Vec Ideal Wa .f32) (x2 : Vec Ideal S5000x1 .f32) (p : Fin 5000) (q : Fin 32) :
    k4_pay1 x0 x1 x2 (ix2 p q) = (∑ k : Fin 64, x0 (ix2 p k) * x1 (ix2 k q)) * x2 (ix2 p (0 : Fin 1)) := by
  unfold k4_pay1
  rw [mulf_apply, matmul_apply, bcast_col_apply]
  simp only [shapeCast_self]
  rfl

/-- The projection at entry `(r, q)`, spelt out. -/
theorem proj_apply (x : FVec Ideal Xa .f32) (w : FVec Ideal Wa .f32) (so : FVec Ideal S50000 .f32)
    (r : Fin 50000) (q : Fin 32) :
    Gcn.proj x w so (ix2 r q) = (∑ k : Fin 64, x (ix2 r k) * w (ix2 k q)) * so (ix1 r) := rfl

/-! ## From the ten blocks to the array -/

/-- The zero offsets of a whole-block load or store, as the constant function. -/
theorem hz : (![0, 0] : Fin 2 → Nat) = fun _ => 0 := funext fun a => by fin_cases a <;> rfl

/-- The index maps over the ten grid points: the features, the scale column and the result move down one row block per
    point, the weights stay at their one block. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- The features' block at point `t` is rows `5000 t … 5000 t + 4999` of the feature array. -/
theorem blk_x_apply (c : Dev nD) (t : Fin cfg4.N) (y : Xb.Idx) (i : Xa.Idx)
    (h0 : (i 0).val = 5000 * t.val + (y 0).val) (h1 : (i 1).val = (y 1).val) :
    (iblk4 V c 0 t : Vec Ideal Xb .f32) y = (V c main_v26 : FVec Ideal Xa .f32) i := by
  obtain ⟨e0, e1, -⟩ := idx_facts t
  unfold iblk4
  rw [View.read_apply]
  show V c main_v26 _ = V c main_v26 _
  congr 1
  funext a
  apply Fin.ext
  match a with
  | ⟨0, _⟩ => show win4_0.index t (0 : Fin 2) * 5000 + 1 * (y 0).val = (i 0).val; rw [e0, h0]; omega
  | ⟨1, _⟩ => show win4_0.index t (1 : Fin 2) * 64 + 1 * (y 1).val = (i 1).val; rw [e1, h1]; omega

/-- The weights' block at every point is the whole weight array. -/
theorem blk_w_apply (c : Dev nD) (t : Fin cfg4.N) (y : Wa.Idx) :
    (iblk4 V c 1 t : Vec Ideal Wa .f32) y = (V c main_arg7 : FVec Ideal Wa .f32) y := by
  obtain ⟨-, -, e2, e3, -⟩ := idx_facts t
  unfold iblk4
  rw [View.read_apply]
  show V c main_arg7 _ = V c main_arg7 _
  congr 1
  funext a
  apply Fin.ext
  match a with
  | ⟨0, _⟩ => show win4_1.index t (0 : Fin 2) * 64 + 1 * (y 0).val = (y 0).val; rw [e2]; omega
  | ⟨1, _⟩ => show win4_1.index t (1 : Fin 2) * 32 + 1 * (y 1).val = (y 1).val; rw [e3]; omega

/-- The scale column's block at point `t` is rows `5000 t … 5000 t + 4999` of the scale column. -/
theorem blk_s_apply (c : Dev nD) (t : Fin cfg4.N) (y : S5000x1.Idx) (i : S50000x1.Idx)
    (h0 : (i 0).val = 5000 * t.val + (y 0).val) (h1 : (i 1).val = (y 1).val) :
    (iblk4 V c 2 t : Vec Ideal S5000x1 .f32) y = (V c main_v10 : FVec Ideal S50000x1 .f32) i := by
  obtain ⟨-, -, -, -, e4, e5, -⟩ := idx_facts t
  unfold iblk4
  rw [View.read_apply]
  show V c main_v10 _ = V c main_v10 _
  congr 1
  funext a
  apply Fin.ext
  match a with
  | ⟨0, _⟩ => show win4_2.index t (0 : Fin 2) * 5000 + 1 * (y 0).val = (i 0).val; rw [e4, h0]; omega
  | ⟨1, _⟩ => show win4_2.index t (1 : Fin 2) * 1 + 1 * (y 1).val = (i 1).val; rw [e5, h1]; omega

/-- The body's value at entry `y` of point `t`'s block is the projection at the entry `i` of the array that `y` names:
    row `5000 t + y₀`, column `y₁`. -/
theorem pay_blk (c : Dev nD) (so : FVec Ideal S50000 .f32)
    (hs : ∀ r : Fin 50000, (V c main_v10 : FVec Ideal S50000x1 .f32) (ix2 r 0) = so (ix1 r))
    (t : Fin cfg4.N) (y : Yb.Idx) (i : Ya.Idx)
    (h0 : (i 0).val = 5000 * t.val + (y 0).val) (h1 : (i 1).val = (y 1).val) :
    k4_pay1 (iblk4 V c 0 t) (iblk4 V c 1 t) (iblk4 V c 2 t) y = Gcn.proj (V c main_v26) (V c main_arg7) so i := by
  obtain ⟨p, q, rfl⟩ : ∃ (p : Fin 5000) (q : Fin 32), y = ix2 p q := ⟨y 0, y 1, eq_ix2 y⟩
  obtain ⟨r, q', rfl⟩ : ∃ (r : Fin 50000) (q' : Fin 32), i = ix2 r q' := ⟨i 0, i 1, eq_ix2 i⟩
  obtain rfl : q' = q := Fin.ext h1
  have hr : r.val = 5000 * t.val + p.val := h0
  refine ((pay_apply (iblk4 V c 0 t) (iblk4 V c 1 t) (iblk4 V c 2 t) p q').trans ?_).trans
    (proj_apply (V c main_v26) (V c main_arg7) so r q').symm
  rw [blk_s_apply V c t (ix2 p (0 : Fin 1)) (ix2 r (0 : Fin 1)) hr rfl, hs r]
  congr 1
  refine Finset.sum_congr rfl fun k _ => ?_
  rw [blk_x_apply V c t (ix2 p k) (ix2 r k) hr rfl, blk_w_apply V c t (ix2 k q')]

/-- What point `t` writes back is block `t` of the projection of the arrays the region reads. -/
theorem flushed_eq (c : Dev nD) (so : FVec Ideal S50000 .f32)
    (hs : ∀ r : Fin 50000, (V c main_v10 : FVec Ideal S50000x1 .f32) (ix2 r 0) = so (ix1 r)) (t : Fin cfg4.N) :
    (dat4 V c).flushed 3 t = ((cfg4.win 3).blk t).view.read (Elt Ideal) (Gcn.proj (V c main_v26) (V c main_arg7) so) := by
  show (cfg4.win 3).cut (grid4.coords t) ((dat4 V c).after 3 t) = _
  rw [after4_3]
  unfold out4_3
  rw [View.canon_unit_zero hz]
  simp only [View.ld_unit_zero (S := Xb) hz, View.ld_unit_zero (S := Wa) hz, View.ld_unit_zero (S := S5000x1) hz]
  obtain ⟨-, -, -, -, -, -, e6, e7⟩ := idx_facts t
  funext j
  refine pay_blk V c so hs t ((cfg4.win 3).xinj (grid4.coords t) j) (((cfg4.win 3).blk t).view.emb j) ?_ ?_
  · show win4_3.index t (0 : Fin 2) * 5000 + 1 * (j 0).val = 5000 * t.val + (j 0).val; rw [e6]; omega
  · show win4_3.index t (1 : Fin 2) * 32 + 1 * (j 1).val = (j 1).val; rw [e7]; omega

/-- An entry of the result array is in point `t`'s block iff each coordinate is in the block's range on its axis. -/
theorem mem_blk (t : Fin cfg4.N) (i : Ya.Idx) :
    i ∈ ((cfg4.win 3).blk t).view.set ↔ ∀ a : Fin 2, win4_3.index t a * Yb.size a ≤ (i a).val ∧ (i a).val < win4_3.index t a * Yb.size a + Yb.size a := by
  show i ∈ ((View.whole main_v27).slice (win4_3.rect t)).set ↔ _
  rw [View.set_slice_whole, Rect.mem_set_unit]
  exact Iff.rfl

/-- Every entry of the result array is in some point's block: row `r` lies in the block of point `r / 5000`. -/
theorem cover (i : Ya.Idx) :
    ∃ t : Fin cfg4.N, (cfg4.win 3).flush t = true ∧ i ∈ ((cfg4.win 3).blk t).view.set := by
  have hi0 : (i 0).val < 50000 := (i 0).isLt
  have hi1 : (i 1).val < 32 := (i 1).isLt
  have hN : grid4.N = 10 := N_4
  obtain ⟨t, ht⟩ : ∃ t : Fin cfg4.N, t.val = (i 0).val / 5000 := ⟨⟨(i 0).val / 5000, by show _ < grid4.N; omega⟩, rfl⟩
  obtain ⟨-, -, -, -, -, -, e6, e7⟩ := idx_facts t
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; rw [e6]; omega
  | ⟨1, _⟩ => show win4_3.index t (1 : Fin 2) * 32 ≤ (i 1).val ∧ (i 1).val < win4_3.index t (1 : Fin 2) * 32 + 32; rw [e7]; omega

end Proj4

/-- The output array after the last row block is written back: row `r`, column `c` holds `(∑ k, x[r, k] · w[k, c]) · so[r]`,
    `so` being the scale column the kernel reads as a 50000 × 1 array. -/
theorem region4_arr (c : Dev nD) (so : FVec Ideal S50000 .f32)
    (hs : ∀ r : Fin 50000, (V c main_v10 : FVec Ideal S50000x1 .f32) (ix2 r 0) = so (ix1 r)) :
    (dat4 V c).arrAt 3 cfg4.N = Gcn.proj (V c main_v26) (V c main_arg7) so :=
  (dat4 V c).arrAt_eq_of_cover 3 (Gcn.proj (V c main_v26) (V c main_arg7) so)
    (fun t _ => Proj4.flushed_eq V c so hs t) Proj4.cover

end Cert.KernelIdeal.Gen

end
-- ==== Proof.Region5.lean ====
/-
  The finishing kernel of layer 3, over all ten row blocks: its output array is `Gcn.last` of the arrays it reads.
-/
import proofs.«431278_j31860067401788_1_alg».proof.Proof.Gen.KernelIdeal.Frame
import proofs.«431278_j31860067401788_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The column forms of the layout operations, read at an index -/

section Layout
variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The body's arithmetic at an entry of a block -/

/-- The index a row reduction of a 5000 × 32 block inserts coordinate `k` into, at row `p`, is `(p, k)`. -/
theorem lift_row (h : S5000x32.Reduces [1] S5000) (p : Fin 5000) (k : Fin 32) : h.lift (ix1 p) k = ix2 p k := by
  funext a
  match a with
  | ⟨0, _⟩ => exact Fin.ext rfl
  | ⟨1, _⟩ => exact Fin.ext rfl

/-- A block's row maximum from `-∞`, at row `p`: the fold of `max` over that row's 32 entries. -/
theorem rowMax_apply (w : FVec Ideal S5000x32 .f32) (hφ : FTy.f32 = FTy.f32 ∨ FTy.f32 = FTy.bf16)
    (hacc : (0xFF800000#32 : BitVec 32) = 0xFF800000#32) (p : Fin 5000) :
    multiReduction (F := Ideal) .maximumf [1] S5000 w 0xFF800000#32 reduces_S5000x32_S5000 hφ hacc (ix1 p)
      = (Finset.univ : Finset (Fin 32)).fold max (Ideal.ofBits .f32 0xFF800000#32) (fun k => w (ix2 p k)) := by
  refine (Ideal.multiReduction_maximumf_single w 0xFF800000#32 reduces_S5000x32_S5000 hφ hacc (ix1 p)).trans ?_
  show (Finset.univ : Finset (Fin 32)).fold max (Ideal.ofBits .f32 0xFF800000#32) (w ∘ reduces_S5000x32_S5000.lift (ix1 p)) = _
  congr 1
  funext k
  exact congrArg w (lift_row reduces_S5000x32_S5000 p k)

/-- A block's row sum, at row `p`: the sum of that row's 32 entries. -/
theorem rowSum_apply (w : FVec Ideal S5000x32 .f32) (hφ : FTy.f32 = FTy.f32 ∨ FTy.f32 = FTy.bf16)
    (hacc : (0x00000000#32 : BitVec 32) = 0x00000000#32) (p : Fin 5000) :
    multiReduction (F := Ideal) .add [1] S5000 w 0x00000000#32 reduces_S5000x32_S5000 hφ hacc (ix1 p)
      = ∑ k : Fin 32, w (ix2 p k) := by
  refine (Ideal.multiReduction_add_single w 0x00000000#32 reduces_S5000x32_S5000 hφ hacc (ix1 p)).trans ?_
  show ∑ k : Fin 32, w (reduces_S5000x32_S5000.lift (ix1 p) k) = _
  exact Finset.sum_congr rfl fun k _ => congrArg w (lift_row reduces_S5000x32_S5000 p k)

/-- The entry-wise exponential at an index is the extended reals' exponential of the entry. -/
theorem exp_apply {s : Shape} (a : FVec Ideal s .f32) (i : s.Idx) : exp a i = Ideal.exp (a i) := rfl

/-- The row-wise softmax of a 5000 × 32 block `w` as the body computes it, at entry `(p, q)`: the exponential of the entry's
    distance to its row's maximum over the row's sum of those exponentials. It depends on row `p` of `w` only. -/
theorem softRows_apply (w : FVec Ideal S5000x32 .f32) (hφ : FTy.f32 = FTy.f32 ∨ FTy.f32 = FTy.bf16)
    (h1 : (0xFF800000#32 : BitVec 32) = 0xFF800000#32) (h2 : (0x00000000#32 : BitVec 32) = 0x00000000#32)
    (p : Fin 5000) (q : Fin 32) :
    divf
        (exp (subf w (broadcastTo S5000x32 (shapeCast S5000x1
          (multiReduction (F := Ideal) .maximumf [1] S5000 w 0xFF800000#32 reduces_S5000x32_S5000 hφ h1)
          shapeCasts_S5000_S5000x1) broadcasts_S5000x1_S5000x32)))
        (broadcastTo S5000x32 (shapeCast S5000x1
          (multiReduction (F := Ideal) .add [1] S5000
            (exp (subf w (broadcastTo S5000x32 (shapeCast S5000x1
              (multiReduction (F := Ideal) .maximumf [1] S5000 w 0xFF800000#32 reduces_S5000x32_S5000 hφ h1)
              shapeCasts_S5000_S5000x1) broadcasts_S5000x1_S5000x32)))
            0x00000000#32 reduces_S5000x32_S5000 hφ h2)
          shapeCasts_S5000_S5000x1) broadcasts_S5000x1_S5000x32)
        (ix2 p q)
      = Ideal.div
          (Ideal.exp (w (ix2 p q) - (Finset.univ : Finset (Fin 32)).fold max (Ideal.ofBits .f32 0xFF800000#32) (fun k => w (ix2 p k))))
          (∑ j : Fin 32, Ideal.exp (w (ix2 p j)
            - (Finset.univ : Finset (Fin 32)).fold max (Ideal.ofBits .f32 0xFF800000#32) (fun k => w (ix2 p k)))) := by
  generalize hM : multiReduction (F := Ideal) .maximumf [1] S5000 w 0xFF800000#32 reduces_S5000x32_S5000 hφ h1 = M
  have hMp : M (ix1 p) = (Finset.univ : Finset (Fin 32)).fold max (Ideal.ofBits .f32 0xFF800000#32) (fun k => w (ix2 p k)) := by
    rw [← hM]; exact rowMax_apply w hφ h1 p
  generalize hE : exp (subf w (broadcastTo S5000x32 (shapeCast S5000x1 M shapeCasts_S5000_S5000x1) broadcasts_S5000x1_S5000x32)) = E
  have hEj : ∀ j : Fin 32, E (ix2 p j) = Ideal.exp (w (ix2 p j) - M (ix1 p)) := fun j => by
    rw [← hE, exp_apply, subf_apply, broadcastTo_a1_ab_apply, shapeCast_a_a1_apply]
  rw [divf_apply, broadcastTo_a1_ab_apply, shapeCast_a_a1_apply, rowSum_apply, hEj q, hMp]
  congr 1
  exact Finset.sum_congr rfl fun j _ => by rw [hEj j, hMp]

/-- The scaled, biased block at entry `(p, j)`: the block's entry times the scale column's entry of row `p`, plus the bias
    row's entry `j`. -/
theorem affineBlock_apply (x0 : FVec Ideal S5000x32 .f32) (x1 : FVec Ideal S5000x1 .f32) (x2 : FVec Ideal S1x32 .f32)
    (p : Fin 5000) (j : Fin 32) :
    addf (mulf x0 (broadcastTo S5000x32 x1 broadcasts_S5000x1_S5000x32)) (broadcastTo S5000x32 x2 broadcasts_S1x32_S5000x32) (ix2 p j)
      = x0 (ix2 p j) * x1 (ix2 p (0 : Fin 1)) + x2 (ix2 (0 : Fin 1) j) := by
  rw [addf_apply, mulf_apply, broadcastTo_a1_ab_apply, broadcastTo_1b_ab_apply]

/-- THE BODY'S PAYLOAD at entry `(p, q)` of a block: with `v j` the scaled, biased entry `(p, j)` — the block's entry times the
    scale column's entry of row `p` plus the bias row's entry `j` —, the softmax of `v` at `q`. -/
theorem pay5_apply (x0 : Vec Ideal S5000x32 .f32) (x1 : Vec Ideal S5000x1 .f32) (x2 : Vec Ideal S1x32 .f32)
    (p : Fin 5000) (q : Fin 32) (v : Fin 32 → EReal)
    (hv : ∀ j : Fin 32, x0 (ix2 p j) * x1 (ix2 p (0 : Fin 1)) + x2 (ix2 (0 : Fin 1) j) = v j) :
    k5_pay1 x0 x1 x2 (ix2 p q)
      = Ideal.div (Ideal.exp (v q - (Finset.univ : Finset (Fin 32)).fold max (Ideal.ofBits .f32 0xFF800000#32) v))
          (∑ j : Fin 32, Ideal.exp (v j - (Finset.univ : Finset (Fin 32)).fold max (Ideal.ofBits .f32 0xFF800000#32) v)) := by
  unfold k5_pay1
  simp only [shapeCast_self]
  refine (softRows_apply _ _ _ _ p q).trans ?_
  simp only [affineBlock_apply, hv]

/-! ## A block's entry as the whole-array function's entry -/

/-- ENTRY `j` OF POINT `t`'S BLOCK of the body's payload is `Gcn.last` at the array index `i` under it — row `5000·t + j₀`, column
    `j₁` —, when the three loaded blocks are the arrays' blocks at that point (`h0`, `h1`: rows `5000·t …` of the 50000-row arrays;
    `h2`: the whole bias row) and the scale column and bias row read as `si` and `b` (`hs`, `hb`). Every entry of the array's row
    lies in the same block, so the block's row maximum and row sum are the array's. -/
theorem block_entry (A : FVec Ideal S50000x32 .f32) (S1 : FVec Ideal S50000x1 .f32) (B : FVec Ideal S1x32 .f32)
    (si : FVec Ideal S50000 .f32) (b : FVec Ideal S32 .f32)
    (hs : ∀ r : Fin 50000, S1 (ix2 r 0) = si (ix1 r)) (hb : ∀ q : Fin 32, B (ix2 0 q) = b (ix1 q))
    (x0 : Vec Ideal S5000x32 .f32) (x1 : Vec Ideal S5000x1 .f32) (x2 : Vec Ideal S1x32 .f32) (t : ℕ)
    (h0 : ∀ (y : S5000x32.Idx) (z : S50000x32.Idx), (z 0).val = t * 5000 + (y 0).val → (z 1).val = (y 1).val → x0 y = A z)
    (h1 : ∀ (y : S5000x1.Idx) (z : S50000x1.Idx), (z 0).val = t * 5000 + (y 0).val → (z 1).val = (y 1).val → x1 y = S1 z)
    (h2 : ∀ y : S1x32.Idx, x2 y = B y)
    (j : S5000x32.Idx) (i : S50000x32.Idx) (hi0 : (i 0).val = t * 5000 + (j 0).val) (hi1 : (i 1).val = (j 1).val) :
    k5_pay1 x0 x1 x2 j = Gcn.last A si b i := by
  obtain ⟨p, q, rfl⟩ : ∃ (p : Fin 5000) (q : Fin 32), j = ix2 p q := ⟨j 0, j 1, eq_ix2 j⟩
  obtain ⟨r, q', rfl⟩ : ∃ (r : Fin 50000) (q' : Fin 32), i = ix2 r q' := ⟨i 0, i 1, eq_ix2 i⟩
  have hr : r.val = t * 5000 + p.val := hi0
  obtain rfl : q = q' := Fin.ext hi1.symm
  refine (pay5_apply x0 x1 x2 p q (fun k => Gcn.affine A si b (ix2 r k)) (fun k => ?_)).trans ?_
  · show _ = A (ix2 r k) * si (ix1 r) + b (ix1 k)
    rw [h0 (ix2 p k) (ix2 r k) hr rfl, h1 (ix2 p 0) (ix2 r 0) hr rfl, h2, hs, hb]
  · rfl

/-! ## From the ten blocks to the array -/

theorem zero_offsets : (![0, 0] : Fin 2 → Nat) = fun _ => 0 := funext fun a => by fin_cases a <;> rfl

/-- The printed index maps, decided over the grid: at point `t` the two 50000-row inputs and the output are at row block `t`,
    column block `0`; the bias row is at block `(0, 0)` at every point. -/
theorem block_indices : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- WHAT POINT `t` WRITES BACK is block `t` of `Gcn.last` of the arrays as the region finds them. -/
theorem flushed5_eq (c : Dev nD) (si : FVec Ideal S50000 .f32) (b : FVec Ideal S32 .f32)
    (hs : ∀ r : Fin 50000, (V c main_v12 : FVec Ideal S50000x1 .f32) (ix2 r 0) = si (ix1 r))
    (hb : ∀ q : Fin 32, (V c main_v32 : FVec Ideal S1x32 .f32) (ix2 0 q) = b (ix1 q)) (t : Fin cfg5.N) :
    (dat5 V c).flushed 3 t = ((cfg5.win 3).blk t).view.read (Elt Ideal) (Gcn.last (V c main_v31) si b) := by
  show (cfg5.win 3).cut (grid5.coords t) ((dat5 V c).after 3 t) = _
  rw [after5_3]
  unfold out5_3
  rw [View.canon_unit_zero zero_offsets]
  simp only [View.ld_unit_zero (S := S5000x32) zero_offsets, View.ld_unit_zero (S := S5000x1) zero_offsets,
    View.ld_unit_zero (S := S1x32) zero_offsets]
  obtain ⟨e00, e01, e10, e11, e20, e21, e30, e31⟩ := block_indices t
  funext j
  show k5_pay1 (iblk5 V c 0 t) (iblk5 V c 1 t) (iblk5 V c 2 t) j
    = Gcn.last (V c main_v31) si b (((cfg5.win 3).blk t).view.emb j)
  refine block_entry (V c main_v31) (V c main_v12) (V c main_v32) si b hs hb _ _ _ t.val ?_ ?_ ?_ j _ ?_ ?_
  · intro y z hz0 hz1
    show V c main_v31 (((cfg5.win 0).blk t).view.emb y) = V c main_v31 z
    refine congrArg _ (funext fun a => Fin.ext ?_)
    match a with
    | ⟨0, _⟩ => show win5_0.index t (0 : Fin 2) * 5000 + 1 * (y 0).val = (z 0).val; omega
    | ⟨1, _⟩ => show win5_0.index t (1 : Fin 2) * 32 + 1 * (y 1).val = (z 1).val; omega
  · intro y z hz0 hz1
    show V c main_v12 (((cfg5.win 1).blk t).view.emb y) = V c main_v12 z
    refine congrArg _ (funext fun a => Fin.ext ?_)
    match a with
    | ⟨0, _⟩ => show win5_1.index t (0 : Fin 2) * 5000 + 1 * (y 0).val = (z 0).val; omega
    | ⟨1, _⟩ => show win5_1.index t (1 : Fin 2) * 1 + 1 * (y 1).val = (z 1).val; omega
  · intro y
    show V c main_v32 (((cfg5.win 2).blk t).view.emb y) = V c main_v32 y
    refine congrArg _ (funext fun a => Fin.ext ?_)
    match a with
    | ⟨0, _⟩ => show win5_2.index t (0 : Fin 2) * 1 + 1 * (y 0).val = (y 0).val; omega
    | ⟨1, _⟩ => show win5_2.index t (1 : Fin 2) * 32 + 1 * (y 1).val = (y 1).val; omega
  · show win5_3.index t (0 : Fin 2) * 5000 + 1 * (j 0).val = t.val * 5000 + (j 0).val; omega
  · show win5_3.index t (1 : Fin 2) * 32 + 1 * (j 1).val = (j 1).val; omega

/-- An index of the output array is in point `t`'s block iff each coordinate is in the block's range on its axis. -/
theorem mem_block5 (t : Fin cfg5.N) (i : S50000x32.Idx) :
    i ∈ ((cfg5.win 3).blk t).view.set ↔ ∀ a : Fin 2, win5_3.index t a * S5000x32.size a ≤ (i a).val
      ∧ (i a).val < win5_3.index t a * S5000x32.size a + S5000x32.size a := by
  show i ∈ ((View.whole main_v33).slice (win5_3.rect t)).set ↔ _
  rw [View.set_slice_whole, Rect.mem_set_unit]
  exact Iff.rfl

/-- THE COVER: row `r` of the output array lies in the block of point `r / 5000`, which is written back. -/
theorem covered5 (i : S50000x32.Idx) :
    ∃ t : Fin cfg5.N, (cfg5.win 3).flush t = true ∧ i ∈ ((cfg5.win 3).blk t).view.set := by
  have hi0 : (i 0).val < 50000 := (i 0).isLt
  have hi1 : (i 1).val < 32 := (i 1).isLt
  have hN : cfg5.N = 10 := by decide
  obtain ⟨t, ht⟩ : ∃ t : Fin cfg5.N, t.val = (i 0).val / 5000 := ⟨⟨(i 0).val / 5000, by rw [hN]; omega⟩, rfl⟩
  obtain ⟨-, -, -, -, -, -, e30, e31⟩ := block_indices t
  refine ⟨t, flush5_3 t, ?_⟩
  rw [mem_block5]
  intro a
  match a with
  | ⟨0, _⟩ =>
    show win5_3.index t (0 : Fin 2) * 5000 ≤ (i 0).val ∧ (i 0).val < win5_3.index t (0 : Fin 2) * 5000 + 5000
    omega
  | ⟨1, _⟩ =>
    show win5_3.index t (1 : Fin 2) * 32 ≤ (i 1).val ∧ (i 1).val < win5_3.index t (1 : Fin 2) * 32 + 32
    omega

/-- The output array after the last row block is written back, the scale read as a 50000 × 1 array and the bias as a
    1 × 32 array. -/
theorem region5_arr (c : Dev nD) (si : FVec Ideal S50000 .f32) (b : FVec Ideal S32 .f32)
    (hs : ∀ r : Fin 50000, (V c main_v12 : FVec Ideal S50000x1 .f32) (ix2 r 0) = si (ix1 r))
    (hb : ∀ q : Fin 32, (V c main_v32 : FVec Ideal S1x32 .f32) (ix2 0 q) = b (ix1 q)) :
    (dat5 V c).arrAt 3 cfg5.N = Gcn.last (V c main_v31) si b := by
  exact (dat5 V c).arrAt_eq_of_cover 3 (Gcn.last (V c main_v31) si b) (fun t _ => flushed5_eq V c si b hs hb t) covered5

end Cert.KernelIdeal.Gen

end
-- ==== Proof.KernelLayer1.lean ====
/-
  The kernel program's first layer after its projection, read back through its run: from the projected features, held
  in their buffer after the first region, to the first layer's output after its finishing kernel.
-/
import proofs.«431278_j31860067401788_1_alg».proof.Proof.Gen.KernelIdeal.Frame
import proofs.«431278_j31860067401788_1_alg».proof.Proof.Chain
import proofs.«431278_j31860067401788_1_alg».proof.Proof.Take
import proofs.«431278_j31860067401788_1_alg».proof.Proof.Region1
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Gen

open Idealize.ShloMosaic Idealize.ShloMosaic.TcCoe Idealize.SL.Sem Idealize.ShloMosaic.ValueIdx

variable (m : (ℓ : Loc nD τ sig) → Buf (Elt Ideal) ℓ) (ρ : Dev nD → PrngReg)

namespace Layer1

/-! ## The two programs' gather and scatter records at width 128 are the same records -/

theorem gd128_eq : Cert.KernelIdeal.gather_S50000x128_S800000x1_S800000x128_1_0_n_n_0_1_1128
    = Cert.ReferenceIdeal.gather_S50000x128_S800000x1_S800000x128_1_0_n_n_0_1_1128 := rfl
theorem sd128_eq : Cert.KernelIdeal.scatter_S50000x128_S800000x1_S800000x128_1_0_0_1
    = Cert.ReferenceIdeal.scatter_S50000x128_S800000x1_S800000x128_1_0_0_1 := rfl

/-! ## What each host stretch writes -/

/-- An operation that writes one buffer of a list writes inside the list. -/
theorem writes_sub_of_mem {W : List (Ref sig .tc)} {op : HloOp τ sig (Elt Ideal)} (y : Ref sig .tc)
    (hw : op.writes = {Proc.devRef .tc y}) (hy : y ∈ W) : op.writes ⊆ (W.map (Proc.devRef (τ := τ) .tc)).toFinset := by
  rw [hw, Finset.singleton_subset_iff, List.mem_toFinset]
  exact List.mem_map_of_mem hy

/-- The buffers the operations of `hostOps0` write, one each, in order. -/
abbrev wr0 : List (Ref sig .tc) :=
  [main_cst, main_v0, main_cst_0, main_v1, main_v2, main_v3, main_cst_1]
theorem hostOps0_wr : (hostOps0 : List (HloOp τ sig (Elt Ideal))).Forall fun op =>
    op.writes ⊆ ((wr0).map (Proc.devRef (τ := τ) .tc)).toFinset :=
  ⟨writes_sub_of_mem main_cst rfl (by decide),
   writes_sub_of_mem main_v0 rfl (by decide),
   writes_sub_of_mem main_cst_0 rfl (by decide),
   writes_sub_of_mem main_v1 rfl (by decide),
   writes_sub_of_mem main_v2 rfl (by decide),
   writes_sub_of_mem main_v3 rfl (by decide),
   writes_sub_of_mem main_cst_1 rfl (by decide)⟩

/-- The buffers the operations of `hostOps1` write, one each, in order. -/
abbrev wr1 : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v14]
theorem hostOps1_wr : (hostOps1 : List (HloOp τ sig (Elt Ideal))).Forall fun op =>
    op.writes ⊆ ((wr1).map (Proc.devRef (τ := τ) .tc)).toFinset :=
  ⟨writes_sub_of_mem main_call2_c rfl (by decide),
   writes_sub_of_mem main_call2_v0 rfl (by decide),
   writes_sub_of_mem main_call2_v1 rfl (by decide),
   writes_sub_of_mem main_call2_c_0 rfl (by decide),
   writes_sub_of_mem main_call2_v2 rfl (by decide),
   writes_sub_of_mem main_call2_v3 rfl (by decide),
   writes_sub_of_mem main_call2_v4 rfl (by decide),
   writes_sub_of_mem main_call2_v5 rfl (by decide),
   writes_sub_of_mem main_call2_c_1 rfl (by decide),
   writes_sub_of_mem main_call2_c_2 rfl (by decide),
   writes_sub_of_mem main_call2_v6 rfl (by decide),
   writes_sub_of_mem main_call2_v7 rfl (by decide),
   writes_sub_of_mem main_call2_v8 rfl (by decide),
   writes_sub_of_mem main_call2_v9 rfl (by decide),
   writes_sub_of_mem main_call2_v10 rfl (by decide),
   writes_sub_of_mem main_call2_v11 rfl (by decide),
   writes_sub_of_mem main_call2_c_3 rfl (by decide),
   writes_sub_of_mem main_call2_v12 rfl (by decide),
   writes_sub_of_mem main_call2_v13 rfl (by decide),
   writes_sub_of_mem main_call2_v14 rfl (by decide),
   writes_sub_of_mem main_call2_cst rfl (by decide),
   writes_sub_of_mem main_call2_v15 rfl (by decide),
   writes_sub_of_mem main_v14 rfl (by decide)⟩

/-- The buffers the operations of `hostOps0_1` write, one each, in order. -/
abbrev wr0_1 : List (Ref sig .tc) :=
  [main_call0_v0, main_call0_v1, main_v4]
theorem hostOps0_1_wr : (hostOps0_1 : List (HloOp τ sig (Elt Ideal))).Forall fun op =>
    op.writes ⊆ ((wr0_1).map (Proc.devRef (τ := τ) .tc)).toFinset :=
  ⟨writes_sub_of_mem main_call0_v0 rfl (by decide),
   writes_sub_of_mem main_call0_v1 rfl (by decide),
   writes_sub_of_mem main_v4 rfl (by decide)⟩

/-- The buffers the operations of `hostOps0_2` write, one each, in order. -/
abbrev wr0_2 : List (Ref sig .tc) :=
  [main_cst_2, main_v5, main_v6, main_v7, main_cst_3]
theorem hostOps0_2_wr : (hostOps0_2 : List (HloOp τ sig (Elt Ideal))).Forall fun op =>
    op.writes ⊆ ((wr0_2).map (Proc.devRef (τ := τ) .tc)).toFinset :=
  ⟨writes_sub_of_mem main_cst_2 rfl (by decide),
   writes_sub_of_mem main_v5 rfl (by decide),
   writes_sub_of_mem main_v6 rfl (by decide),
   writes_sub_of_mem main_v7 rfl (by decide),
   writes_sub_of_mem main_cst_3 rfl (by decide)⟩

/-- The buffers the operations of `hostOps0_3` write, one each, in order. -/
abbrev wr0_3 : List (Ref sig .tc) :=
  [main_call1_v0, main_call1_v1, main_v8]
theorem hostOps0_3_wr : (hostOps0_3 : List (HloOp τ sig (Elt Ideal))).Forall fun op =>
    op.writes ⊆ ((wr0_3).map (Proc.devRef (τ := τ) .tc)).toFinset :=
  ⟨writes_sub_of_mem main_call1_v0 rfl (by decide),
   writes_sub_of_mem main_call1_v1 rfl (by decide),
   writes_sub_of_mem main_v8 rfl (by decide)⟩

/-- The buffers the operations of `hostOps0_4` write, one each, in order. -/
abbrev wr0_4 : List (Ref sig .tc) :=
  [main_v9, main_v10, main_v11, main_v12]
theorem hostOps0_4_wr : (hostOps0_4 : List (HloOp τ sig (Elt Ideal))).Forall fun op =>
    op.writes ⊆ ((wr0_4).map (Proc.devRef (τ := τ) .tc)).toFinset :=
  ⟨writes_sub_of_mem main_v9 rfl (by decide),
   writes_sub_of_mem main_v10 rfl (by decide),
   writes_sub_of_mem main_v11 rfl (by decide),
   writes_sub_of_mem main_v12 rfl (by decide)⟩

/-- The buffers the operations of `hostOps1_1` write, one each, in order. -/
abbrev wr1_1 : List (Ref sig .tc) :=
  [main_cst_4, main_v15, main_v16, main_v17, main_v18]
theorem hostOps1_1_wr : (hostOps1_1 : List (HloOp τ sig (Elt Ideal))).Forall fun op =>
    op.writes ⊆ ((wr1_1).map (Proc.devRef (τ := τ) .tc)).toFinset :=
  ⟨writes_sub_of_mem main_cst_4 rfl (by decide),
   writes_sub_of_mem main_v15 rfl (by decide),
   writes_sub_of_mem main_v16 rfl (by decide),
   writes_sub_of_mem main_v17 rfl (by decide),
   writes_sub_of_mem main_v18 rfl (by decide)⟩

/-! ## Buffers carried unchanged across the stretches -/

/-- A buffer none of the five opening stretches writes holds at the first region's entry what it held at launch. -/
theorem W5_of_not_written (c : Dev nD) (r : Ref sig .tc) (h0 : r ∉ wr0) (h1 : r ∉ wr0_1) (h2 : r ∉ wr0_2) (h3 : r ∉ wr0_3)
    (h4 : r ∉ wr0_4) :
    W5 (F := Ideal) m ρ c (Proc.devRef .tc r) = W0 (F := Ideal) m ρ c (Proc.devRef .tc r) :=
  (StableHlo.after_of_writes_sub hostOps0_4 _ hostOps0_4_wr h4).trans
  ((StableHlo.after_of_writes_sub hostOps0_3 _ hostOps0_3_wr h3).trans
  ((StableHlo.after_of_writes_sub hostOps0_2 _ hostOps0_2_wr h2).trans
  ((StableHlo.after_of_writes_sub hostOps0_1 _ hostOps0_1_wr h1).trans
   (StableHlo.after_of_writes_sub hostOps0 _ hostOps0_wr h0))))

/-- A buffer the gather stretch does not write holds after it what it held after the first region. -/
theorem W7_of_not_written (c : Dev nD) (r : Ref sig .tc) (h1 : r ∉ wr1) :
    W7 (F := Ideal) m ρ c (Proc.devRef .tc r) = W6 (F := Ideal) m ρ c (Proc.devRef .tc r) :=
  StableHlo.after_of_writes_sub hostOps1 _ hostOps1_wr h1

/-- A buffer neither the gather stretch nor the scatter-add stretch writes holds at the second region's entry what it
    held after the first region. -/
theorem W8_of_not_written (c : Dev nD) (r : Ref sig .tc) (h1 : r ∉ wr1) (h11 : r ∉ wr1_1) :
    W8 (F := Ideal) m ρ c (Proc.devRef .tc r) = W6 (F := Ideal) m ρ c (Proc.devRef .tc r) :=
  (StableHlo.after_of_writes_sub hostOps1_1 _ hostOps1_1_wr h11).trans (W7_of_not_written m ρ c r h1)

/-- The source indices after the first region are the launch's. -/
theorem arg1_W6 (c : Dev nD) :
    W6 (F := Ideal) m ρ c (Proc.devRef .tc main_arg1) = m ((c : Thread nD τ).loc main_arg1) :=
  ((W6_of_ne m ρ c main_arg1 (by decide)).trans
    (W5_of_not_written m ρ c main_arg1 (by decide) (by decide) (by decide) (by decide) (by decide))).trans rfl

/-- The destination indices after the gather stretch are the launch's. -/
theorem arg2_W7 (c : Dev nD) :
    W7 (F := Ideal) m ρ c (Proc.devRef .tc main_arg2) = m ((c : Thread nD τ).loc main_arg2) :=
  ((W7_of_not_written m ρ c main_arg2 (by decide)).trans ((W6_of_ne m ρ c main_arg2 (by decide)).trans
    (W5_of_not_written m ρ c main_arg2 (by decide) (by decide) (by decide) (by decide) (by decide)))).trans rfl

/-- The first bias after the gather stretch is the launch's. -/
theorem arg4_W7 (c : Dev nD) :
    W7 (F := Ideal) m ρ c (Proc.devRef .tc main_arg4) = m ((c : Thread nD τ).loc main_arg4) :=
  ((W7_of_not_written m ρ c main_arg4 (by decide)).trans ((W6_of_ne m ρ c main_arg4 (by decide)).trans
    (W5_of_not_written m ρ c main_arg4 (by decide) (by decide) (by decide) (by decide) (by decide)))).trans rfl

/-- The first bias after the first region is the launch's. -/
theorem arg4_W6 (c : Dev nD) :
    W6 (F := Ideal) m ρ c (Proc.devRef .tc main_arg4) = m ((c : Thread nD τ).loc main_arg4) :=
  ((W6_of_ne m ρ c main_arg4 (by decide)).trans
    (W5_of_not_written m ρ c main_arg4 (by decide) (by decide) (by decide) (by decide) (by decide))).trans rfl

/-! ## A typed reference's transport of contents, at a literal reference -/

/-- Contents moved to a literal reference's own type and back are the contents. -/
theorem ofBuf_toBuf {T : BufTy} (r : Ref sig .tc) (e e' : r.ty = T) (d d' : r.space ≠ .host) (u u' : r.isScoped = false)
    (v : T.Contents (Elt Ideal)) :
    (StableHlo.TRef.of r e d u).ofBuf ((StableHlo.TRef.of r e' d' u').toBuf v) = v := by
  subst e; rfl

/-- An equation at the reference's own type is the equation at the carried type. -/
theorem toBuf_eq_iff {T : BufTy} (r : Ref sig .tc) (e : r.ty = T) (d : r.space ≠ .host) (u : r.isScoped = false)
    (v : T.Contents (Elt Ideal)) (w : r.ty.Contents (Elt Ideal)) :
    (StableHlo.TRef.of r e d u).toBuf v = w ↔ v = (StableHlo.TRef.of r e d u).ofBuf w := by
  subst e; exact Iff.rfl

/-! ## The first layer's values, buffer by buffer -/

/-- The gathered rows: the filling gather of the projected features by the wrapped source indices fills nothing when
    every source index is in range, so it is the plain gather. -/
theorem W7_v14 (c : Dev nD) (hsrc : Gcn.InRange (m ((c : Thread nD τ).loc main_arg1)))
    (H0 : FVec Ideal S50000x128 .f32) (h13 : W6 (F := Ideal) m ρ c (Proc.devRef .tc main_v13) = H0) :
    W7 (F := Ideal) m ρ c (Proc.devRef .tc main_v14)
      = (Host.gather Cert.ReferenceIdeal.gather_S50000x128_S800000x1_S800000x128_1_0_n_n_0_1_1128 H0
          (Gcn.wrapped (m ((c : Thread nD τ).loc main_arg1))) : FVec Ideal S800000x128 .f32) := by
  show StableHlo.after hostOps1 (W6 (F := Ideal) m ρ c) (Proc.devRef .tc main_v14) = _
  generalize hV : W6 (F := Ideal) m ρ c = V6
  have e13 : V6 (Proc.devRef .tc main_v13) = H0 := by rw [← hV]; exact h13
  have e1 : V6 (Proc.devRef .tc main_arg1) = m ((c : Thread nD τ).loc main_arg1) := by rw [← hV]; exact arg1_W6 m ρ c
  dsimp only [hostOps1]
  after_results_simp
  rw [e13, e1, toBuf_eq_iff]
  simp only [ofBuf_toBuf]
  have l1 : ∀ (e : main_arg1.ty = (⟨S800000, .i32⟩ : BufTy)) (d : main_arg1.space ≠ .host) (u : main_arg1.isScoped = false),
      (StableHlo.TRef.of main_arg1 e d u).ofBuf (m ((c : Thread nD τ).loc main_arg1)) = m ((c : Thread nD τ).loc main_arg1) :=
    fun _ _ _ => rfl
  have l13 : ∀ (e : main_v13.ty = (⟨S50000x128, .f32⟩ : BufTy)) (d : main_v13.space ≠ .host) (u : main_v13.isScoped = false),
      (StableHlo.TRef.of main_v13 e d u).ofBuf (Val := Elt Ideal) H0 = H0 :=
    fun _ _ _ => rfl
  simp only [l1, l13]
  have hw : broadcastInDim S800000x1 ![0] bcast_S800000_S800000x1_0
      (select (cmpi .slt (m ((c : Thread nD τ).loc main_arg1)) (broadcastInDim S800000 ![] bcast_S_S800000 (constantI S_ 32 0#32)))
        (addi (m ((c : Thread nD τ).loc main_arg1)) (broadcastInDim S800000 ![] bcast_S_S800000 (constantI S_ 32 50000#32)))
        (m ((c : Thread nD τ).loc main_arg1))) = Gcn.wrapped (m ((c : Thread nD τ).loc main_arg1)) := rfl
  rw [hw]
  refine (Gcn.take_fill _ (Gcn.wrapped_range _ hsrc) _ _ _ _ _ _ _ _).trans ?_
  rw [gd128_eq]
  rfl
/-- The aggregate: the gathered rows added into the rows the destination indices name. -/
theorem W8_v17 (c : Dev nD) (hsrc : Gcn.InRange (m ((c : Thread nD τ).loc main_arg1)))
    (H0 : FVec Ideal S50000x128 .f32) (h13 : W6 (F := Ideal) m ρ c (Proc.devRef .tc main_v13) = H0) :
    W8 (F := Ideal) m ρ c (Proc.devRef .tc main_v17)
      = (Gcn.agg128 H0 (m ((c : Thread nD τ).loc main_arg1)) (m ((c : Thread nD τ).loc main_arg2)) : FVec Ideal S50000x128 .f32) := by
  show StableHlo.after hostOps1_1 (W7 (F := Ideal) m ρ c) (Proc.devRef .tc main_v17) = _
  generalize hV : W7 (F := Ideal) m ρ c = V7
  have e14 : V7 (Proc.devRef .tc main_v14)
      = (Host.gather Cert.ReferenceIdeal.gather_S50000x128_S800000x1_S800000x128_1_0_n_n_0_1_1128 H0
          (Gcn.wrapped (m ((c : Thread nD τ).loc main_arg1))) : FVec Ideal S800000x128 .f32) := by
    rw [← hV]; exact W7_v14 m ρ c hsrc H0 h13
  have e2 : V7 (Proc.devRef .tc main_arg2) = m ((c : Thread nD τ).loc main_arg2) := by rw [← hV]; exact arg2_W7 m ρ c
  dsimp only [hostOps1_1]
  after_results
  rw [e14, e2]
  unfold Gcn.agg128
  rw [sd128_eq]

/-- The bias as a 1 × 128 array: entry `(0, q)` is the bias at `q`. -/
theorem W8_v18 (c : Dev nD) (q : Fin 128) :
    (W8 (F := Ideal) m ρ c (Proc.devRef .tc main_v18) : FVec Ideal S1x128 .f32) (ix2 0 q)
      = (m ((c : Thread nD τ).loc main_arg4) : FVec Ideal S128 .f32) (ix1 q) := by
  have h : W8 (F := Ideal) m ρ c (Proc.devRef .tc main_v18)
      = (shapeCast S1x128 (m ((c : Thread nD τ).loc main_arg4) : FVec Ideal S128 .f32) shapeCasts_S128_S1x128 : FVec Ideal S1x128 .f32) := by
    show StableHlo.after hostOps1_1 (W7 (F := Ideal) m ρ c) (Proc.devRef .tc main_v18) = _
    generalize hV : W7 (F := Ideal) m ρ c = V7
    have e4 : V7 (Proc.devRef .tc main_arg4) = m ((c : Thread nD τ).loc main_arg4) := by rw [← hV]; exact arg4_W7 m ρ c
    dsimp only [hostOps1_1]
    after_results
    rw [e4]
    rfl
  rw [h]
  exact shapeCast_a_1a_apply _ _ 0 q

end Layer1

/-- The two scale columns are written before the first region and never again: they are at the second layer's entry
    what they were after the first region. -/
theorem W9_v10_keep (c : Dev nD) :
    W9 (F := Ideal) m ρ c (Proc.devRef .tc main_v10) = W6 (F := Ideal) m ρ c (Proc.devRef .tc main_v10) := by
  exact (W9_of_ne m ρ c main_v10 (by decide)).trans (Layer1.W8_of_not_written m ρ c main_v10 (by decide) (by decide))

theorem W9_v12_keep (c : Dev nD) :
    W9 (F := Ideal) m ρ c (Proc.devRef .tc main_v12) = W6 (F := Ideal) m ρ c (Proc.devRef .tc main_v12) := by
  exact ((W9_arr m ρ c 1).trans (((dat1 (V8 m ρ) c).arrAt_in 1 rfl _).trans (A_eq1 (V8 m ρ) c 1))).trans
    (Layer1.W8_of_not_written m ρ c main_v12 (by decide) (by decide))

/-- THE FIRST LAYER AFTER ITS PROJECTION: with the projected features `H0` in their buffer after the first region and the
    in-degree scale column reading as `si`, the first layer's output buffer after its finishing kernel holds
    `hidden (agg128 H0 src dst) si b1`. -/
theorem layer1_eq (c : Dev nD) (hsrc : Gcn.InRange (m ((c : Thread nD τ).loc main_arg1)))
    (H0 : FVec Ideal S50000x128 .f32) (si : FVec Ideal S50000 .f32)
    (h13 : W6 (F := Ideal) m ρ c (Proc.devRef .tc main_v13) = H0)
    (h12 : ∀ r : Fin 50000, (W6 (F := Ideal) m ρ c (Proc.devRef .tc main_v12) : FVec Ideal S50000x1 .f32) (ix2 r 0) = si (ix1 r)) :
    W9 (F := Ideal) m ρ c (Proc.devRef .tc main_v19)
      = Gcn.hidden (Gcn.agg128 H0 (m ((c : Thread nD τ).loc main_arg1)) (m ((c : Thread nD τ).loc main_arg2))) si (m ((c : Thread nD τ).loc main_arg4)) := by
  -- the in-degree scale column at the finishing kernel's entry is the one after the first region
  have hs : ∀ r : Fin 50000, (V8 (F := Ideal) m ρ c main_v12 : FVec Ideal S50000x1 .f32) (ix2 r 0) = si (ix1 r) := by
    intro r
    rw [show V8 (F := Ideal) m ρ c main_v12 = W6 (F := Ideal) m ρ c (Proc.devRef .tc main_v12) from
      Layer1.W8_of_not_written m ρ c main_v12 (by decide) (by decide)]
    exact h12 r
  -- the kernel's output array is the finish of its aggregate input; the aggregate input is the edge sum of `H0`
  refine (W9_arr m ρ c 3).trans ((region1_arr (V8 (F := Ideal) m ρ) c si (m ((c : Thread nD τ).loc main_arg4)) hs
    (Layer1.W8_v18 m ρ c)).trans ?_)
  rw [show V8 (F := Ideal) m ρ c main_v17 = Gcn.agg128 H0 (m ((c : Thread nD τ).loc main_arg1)) (m ((c : Thread nD τ).loc main_arg2)) from
    Layer1.W8_v17 m ρ c hsrc H0 h13]

end Cert.KernelIdeal.Gen

end
-- ==== Proof.KernelLayers.lean ====
/-
  The kernel program's second layer, read back through its run: from the first layer's output, held in its buffer when
  the second layer's projection kernel is entered, to the second layer's output after its finishing kernel.
-/
import proofs.«431278_j31860067401788_1_alg».proof.Proof.Gen.KernelIdeal.Frame
import proofs.«431278_j31860067401788_1_alg».proof.Proof.Chain
import proofs.«431278_j31860067401788_1_alg».proof.Proof.Take
import proofs.«431278_j31860067401788_1_alg».proof.Proof.Region2
import proofs.«431278_j31860067401788_1_alg».proof.Proof.Region3
import proofs.«431278_j31860067401788_1_alg».proof.Proof.Region4
import proofs.«431278_j31860067401788_1_alg».proof.Proof.Region5
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Gen

open Idealize.ShloMosaic Idealize.ShloMosaic.TcCoe Idealize.SL.Sem Idealize.ShloMosaic.ValueIdx

variable (m : (ℓ : Loc nD τ sig) → Buf (Elt Ideal) ℓ) (ρ : Dev nD → PrngReg)

/-! ## The two programs' gather and scatter records at width 64 are the same records -/

theorem gd64_eq : Cert.KernelIdeal.gather_S50000x64_S800000x1_S800000x64_1_0_n_n_0_1_164
    = Cert.ReferenceIdeal.gather_S50000x64_S800000x1_S800000x64_1_0_n_n_0_1_164 := rfl
theorem sd64_eq : Cert.KernelIdeal.scatter_S50000x64_S800000x1_S800000x64_1_0_0_1
    = Cert.ReferenceIdeal.scatter_S50000x64_S800000x1_S800000x64_1_0_0_1 := rfl

/-! ## What the host stretches after the second layer's projection write -/

/-- The buffers the filling gather at width 64 writes. -/
abbrev hostOps3_W : List (Ref sig .tc) :=
  [main_call3_c, main_call3_v0, main_call3_v1, main_call3_c_0, main_call3_v2, main_call3_v3, main_call3_v4, main_call3_v5,
   main_call3_c_1, main_call3_c_2, main_call3_v6, main_call3_v7, main_call3_v8, main_call3_v9, main_call3_v10,
   main_call3_v11, main_call3_c_3, main_call3_v12, main_call3_v13, main_call3_v14, main_call3_cst, main_call3_v15, main_v21]
/-- The buffers the scatter-add at width 64 and the bias's reshape write. -/
abbrev hostOps3_1_W : List (Ref sig .tc) := [main_cst_5, main_v22, main_v23, main_v24, main_v25]
/-- The buffers the filling gather at width 32 writes. -/
abbrev hostOps5_W : List (Ref sig .tc) :=
  [main_call4_c, main_call4_v0, main_call4_v1, main_call4_c_0, main_call4_v2, main_call4_v3, main_call4_v4, main_call4_v5,
   main_call4_c_1, main_call4_c_2, main_call4_v6, main_call4_v7, main_call4_v8, main_call4_v9, main_call4_v10,
   main_call4_v11, main_call4_c_3, main_call4_v12, main_call4_v13, main_call4_v14, main_call4_cst, main_call4_v15, main_v28]
/-- The buffers the scatter-add at width 32 and the bias's reshape write. -/
abbrev hostOps5_1_W : List (Ref sig .tc) := [main_cst_6, main_v29, main_v30, main_v31, main_v32]

section Writes
variable {F : FTy → Type} [FloatOps F]

theorem hostOps3_writes : (hostOps3 : List (HloOp τ sig (Elt F))).Forall fun op =>
    op.writes ⊆ (hostOps3_W.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem hostOps3_1_writes : (hostOps3_1 : List (HloOp τ sig (Elt F))).Forall fun op =>
    op.writes ⊆ (hostOps3_1_W.map (Proc.devRef (τ := τ) .tc)).toFinset := by
  simp only [hostOps3_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem hostOps5_writes : (hostOps5 : List (HloOp τ sig (Elt F))).Forall fun op =>
    op.writes ⊆ (hostOps5_W.map (Proc.devRef (τ := τ) .tc)).toFinset := by
  simp only [hostOps5, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem hostOps5_1_writes : (hostOps5_1 : List (HloOp τ sig (Elt F))).Forall fun op =>
    op.writes ⊆ (hostOps5_1_W.map (Proc.devRef (τ := τ) .tc)).toFinset := by
  simp only [hostOps5_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

end Writes

/-! ## A buffer a host stretch does not write is after it what it was before -/

theorem W11_of (c : Dev nD) (r : Ref sig .tc) (h : r ∉ hostOps3_W) :
    W11 (F := Ideal) m ρ c (Proc.devRef .tc r) = W10 (F := Ideal) m ρ c (Proc.devRef .tc r) :=
  StableHlo.after_of_writes_sub hostOps3 _ hostOps3_writes h
theorem W12_of (c : Dev nD) (r : Ref sig .tc) (h : r ∉ hostOps3_1_W) :
    W12 (F := Ideal) m ρ c (Proc.devRef .tc r) = W11 (F := Ideal) m ρ c (Proc.devRef .tc r) :=
  StableHlo.after_of_writes_sub hostOps3_1 _ hostOps3_1_writes h
theorem W15_of (c : Dev nD) (r : Ref sig .tc) (h : r ∉ hostOps5_W) :
    W15 (F := Ideal) m ρ c (Proc.devRef .tc r) = W14 (F := Ideal) m ρ c (Proc.devRef .tc r) :=
  StableHlo.after_of_writes_sub hostOps5 _ hostOps5_writes h
theorem W16_of (c : Dev nD) (r : Ref sig .tc) (h : r ∉ hostOps5_1_W) :
    W16 (F := Ideal) m ρ c (Proc.devRef .tc r) = W15 (F := Ideal) m ρ c (Proc.devRef .tc r) :=
  StableHlo.after_of_writes_sub hostOps5_1 _ hostOps5_1_writes h

/-! ## The arguments at the boundaries where the second layer reads them

No item writes an argument, so at any boundary its buffer holds what it holds at the end, which is what was launched. -/

/-- A buffer that nothing from the scatter-add at width 64 on writes, and that no later region takes as a window, is at
    the end what it was after the filling gather at width 64. -/
theorem W17_of_W11 (c : Dev nD) (r : Ref sig .tc) (h31 : r ∉ hostOps3_1_W) (h3 : ∀ w, Pipeline.arrRef spec3 w ≠ r)
    (h4 : ∀ w, Pipeline.arrRef spec4 w ≠ r) (h5 : r ∉ hostOps5_W) (h51 : r ∉ hostOps5_1_W)
    (h5r : ∀ w, Pipeline.arrRef spec5 w ≠ r) :
    W17 (F := Ideal) m ρ c (Proc.devRef .tc r) = W11 (F := Ideal) m ρ c (Proc.devRef .tc r) :=
  (W17_of_ne m ρ c r h5r).trans <| (W16_of m ρ c r h51).trans <| (W15_of m ρ c r h5).trans <|
    (W14_of_ne m ρ c r h4).trans <| (W13_of_ne m ρ c r h3).trans (W12_of m ρ c r h31)

theorem W11_main_arg2 (c : Dev nD) :
    W11 (F := Ideal) m ρ c (Proc.devRef .tc main_arg2) = m ((c : Thread nD τ).loc main_arg2) :=
  (W17_of_W11 m ρ c main_arg2 (by decide) (by decide) (by decide) (by decide) (by decide) (by decide)).symm.trans
    (W17_main_arg2 m ρ c)
theorem W11_main_arg6 (c : Dev nD) :
    W11 (F := Ideal) m ρ c (Proc.devRef .tc main_arg6) = m ((c : Thread nD τ).loc main_arg6) :=
  (W17_of_W11 m ρ c main_arg6 (by decide) (by decide) (by decide) (by decide) (by decide) (by decide)).symm.trans
    (W17_main_arg6 m ρ c)
theorem W10_main_arg1 (c : Dev nD) :
    W10 (F := Ideal) m ρ c (Proc.devRef .tc main_arg1) = m ((c : Thread nD τ).loc main_arg1) :=
  (W11_of m ρ c main_arg1 (by decide)).symm.trans <|
    (W17_of_W11 m ρ c main_arg1 (by decide) (by decide) (by decide) (by decide) (by decide) (by decide)).symm.trans
      (W17_main_arg1 m ρ c)
/-- The second layer's weight is the projection kernel's second window, an input: the kernel leaves it as entered. -/
theorem W9_main_arg5 (c : Dev nD) :
    W9 (F := Ideal) m ρ c (Proc.devRef .tc main_arg5) = m ((c : Thread nD τ).loc main_arg5) :=
  ((W10_arr m ρ c 1).trans (((dat2 (V9 m ρ) c).arrAt_in 1 rfl _).trans (A_eq2 (V9 m ρ) c 1))).symm.trans <|
    (W11_of m ρ c main_arg5 (by decide)).symm.trans <|
      (W17_of_W11 m ρ c main_arg5 (by decide) (by decide) (by decide) (by decide) (by decide) (by decide)).symm.trans
        (W17_main_arg5 m ρ c)

/-! ## The two scale columns from the second layer's entry to the third's -/

/-- The two scale columns are written before the first region and never again: they are at the third layer's entry
    what they were at the second's. -/
theorem W13_v10_keep (c : Dev nD) :
    W13 (F := Ideal) m ρ c (Proc.devRef .tc main_v10) = W9 (F := Ideal) m ρ c (Proc.devRef .tc main_v10) :=
  (W13_of_ne m ρ c main_v10 (by decide)).trans <| (W12_of m ρ c main_v10 (by decide)).trans <|
    (W11_of m ρ c main_v10 (by decide)).trans <|
      (W10_arr m ρ c 2).trans (((dat2 (V9 m ρ) c).arrAt_in 2 rfl _).trans (A_eq2 (V9 m ρ) c 2))

/-- The in-degree column up to the finishing kernel's entry. -/
theorem W12_v12_keep (c : Dev nD) :
    W12 (F := Ideal) m ρ c (Proc.devRef .tc main_v12) = W9 (F := Ideal) m ρ c (Proc.devRef .tc main_v12) :=
  (W12_of m ρ c main_v12 (by decide)).trans <| (W11_of m ρ c main_v12 (by decide)).trans
    (W10_of_ne m ρ c main_v12 (by decide))

theorem W13_v12_keep (c : Dev nD) :
    W13 (F := Ideal) m ρ c (Proc.devRef .tc main_v12) = W9 (F := Ideal) m ρ c (Proc.devRef .tc main_v12) :=
  ((W13_arr m ρ c 1).trans (((dat3 (V12 m ρ) c).arrAt_in 1 rfl _).trans (A_eq3 (V12 m ρ) c 1))).trans
    (W12_v12_keep m ρ c)

/-! ## The second layer, buffer by buffer -/

/-- The projection kernel's output: the first layer's output projected by the second weight and scaled by `so`. -/
theorem W10_v20 (c : Dev nD) (H1 : FVec Ideal S50000x128 .f32) (so : FVec Ideal S50000 .f32)
    (h19 : W9 (F := Ideal) m ρ c (Proc.devRef .tc main_v19) = H1)
    (h10 : ∀ r : Fin 50000, (W9 (F := Ideal) m ρ c (Proc.devRef .tc main_v10) : FVec Ideal S50000x1 .f32) (ix2 r 0) = so (ix1 r)) :
    W10 (F := Ideal) m ρ c (Proc.devRef .tc main_v20) = Gcn.proj H1 (m ((c : Thread nD τ).loc main_arg5)) so := by
  refine (W10_arr m ρ c 3).trans ((region2_arr (V9 m ρ) c so h10).trans ?_)
  show Gcn.proj (W9 (F := Ideal) m ρ c (Proc.devRef .tc main_v19)) (W9 (F := Ideal) m ρ c (Proc.devRef .tc main_arg5)) so = _
  rw [h19, W9_main_arg5]

/-- The filling gather of the projected rows at the wrapped source indices: the index's two range tests are reduced
    over its one column and laid along the row, and rows failing them are replaced. With every source index in range
    none fails, and it is the plain gather. -/
theorem W11_v21 (c : Dev nD) (hsrc : Gcn.InRange (m ((c : Thread nD τ).loc main_arg1)))
    (P : FVec Ideal S50000x64 .f32) (h20 : W10 (F := Ideal) m ρ c (Proc.devRef .tc main_v20) = P) :
    W11 (F := Ideal) m ρ c (Proc.devRef .tc main_v21)
      = Host.gather Cert.KernelIdeal.gather_S50000x64_S800000x1_S800000x64_1_0_n_n_0_1_164 P
          (Gcn.wrapped (m ((c : Thread nD τ).loc main_arg1))) := by
  show StableHlo.after hostOps3 (W10 (F := Ideal) m ρ c) (Proc.devRef .tc main_v21) = _
  dsimp only [hostOps3]
  -- each operation's result at its own buffer, every other buffer as it was; a typed reference's transport is the identity
  simp (disch := decide) only [StableHlo.after_cons, StableHlo.after_nil, StableHlo.nullary_result', StableHlo.unary_result',
    StableHlo.binary_result', StableHlo.ternary_result', StableHlo.nullary_result_ne', StableHlo.unary_result_ne',
    StableHlo.binary_result_ne', StableHlo.ternary_result_ne', StableHlo.TRef.ofBuf, StableHlo.TRef.toBuf, cast_eq]
  rw [h20, W10_main_arg1]
  exact Gcn.take_fill (M := 64) (Gcn.wrapped (m ((c : Thread nD τ).loc main_arg1))) (Gcn.wrapped_range _ hsrc) _ _ _ _ _ _ _ _

/-- The scatter-add of the gathered rows by destination, from zeros: the sum along the edges at width 64. -/
theorem W12_v24 (c : Dev nD) (hsrc : Gcn.InRange (m ((c : Thread nD τ).loc main_arg1)))
    (P : FVec Ideal S50000x64 .f32) (h20 : W10 (F := Ideal) m ρ c (Proc.devRef .tc main_v20) = P) :
    W12 (F := Ideal) m ρ c (Proc.devRef .tc main_v24)
      = Gcn.agg64 P (m ((c : Thread nD τ).loc main_arg1)) (m ((c : Thread nD τ).loc main_arg2)) := by
  have e21 := W11_v21 m ρ c hsrc P h20
  have e2 := W11_main_arg2 m ρ c
  show StableHlo.after hostOps3_1 (W11 (F := Ideal) m ρ c) (Proc.devRef .tc main_v24) = _
  -- the stretch reads the contents before it at two buffers only: those are named, the rest is left closed
  generalize W11 (F := Ideal) m ρ c = V11 at e21 e2 ⊢
  dsimp only [hostOps3_1]
  after_results
  rw [e21, e2]
  rfl

/-- The second bias as the 1 × 64 array the finishing kernel reads: at (0, q) it is the bias at q. -/
theorem W12_v25 (c : Dev nD) (q : Fin 64) :
    (W12 (F := Ideal) m ρ c (Proc.devRef .tc main_v25) : FVec Ideal S1x64 .f32) (ix2 0 q)
      = (m ((c : Thread nD τ).loc main_arg6) : FVec Ideal S64 .f32) (ix1 q) := by
  have h : W12 (F := Ideal) m ρ c (Proc.devRef .tc main_v25)
      = shapeCast S1x64 (m ((c : Thread nD τ).loc main_arg6) : FVec Ideal S64 .f32) shapeCasts_S64_S1x64 := by
    have e6 := W11_main_arg6 m ρ c
    show StableHlo.after hostOps3_1 (W11 (F := Ideal) m ρ c) (Proc.devRef .tc main_v25) = _
    generalize W11 (F := Ideal) m ρ c = V11 at e6 ⊢
    dsimp only [hostOps3_1]
    after_results
    rw [e6]
    rfl
  rw [h]
  exact shapeCast_a_1a_apply _ _ 0 q

/-! ## The second layer -/

/-- THE SECOND LAYER: with the first layer's output `H1` in its buffer when the projection kernel is entered and the two
    scale columns reading as `so`, `si`, the second layer's output buffer after its finishing kernel holds
    `hidden (agg64 (proj H1 w2 so) src dst) si b2`. -/
theorem layer2_eq (c : Dev nD) (hsrc : Gcn.InRange (m ((c : Thread nD τ).loc main_arg1)))
    (H1 : FVec Ideal S50000x128 .f32) (so si : FVec Ideal S50000 .f32)
    (h19 : W9 (F := Ideal) m ρ c (Proc.devRef .tc main_v19) = H1)
    (h10 : ∀ r : Fin 50000, (W9 (F := Ideal) m ρ c (Proc.devRef .tc main_v10) : FVec Ideal S50000x1 .f32) (ix2 r 0) = so (ix1 r))
    (h12 : ∀ r : Fin 50000, (W9 (F := Ideal) m ρ c (Proc.devRef .tc main_v12) : FVec Ideal S50000x1 .f32) (ix2 r 0) = si (ix1 r)) :
    W13 (F := Ideal) m ρ c (Proc.devRef .tc main_v26)
      = Gcn.hidden (Gcn.agg64 (Gcn.proj H1 (m ((c : Thread nD τ).loc main_arg5)) so) (m ((c : Thread nD τ).loc main_arg1)) (m ((c : Thread nD τ).loc main_arg2))) si (m ((c : Thread nD τ).loc main_arg6)) := by
  have h20 := W10_v20 m ρ c H1 so h19 h10
  have hs : ∀ r : Fin 50000, (V12 (F := Ideal) m ρ c main_v12 : FVec Ideal S50000x1 .f32) (ix2 r 0) = si (ix1 r) := by
    intro r
    show (W12 (F := Ideal) m ρ c (Proc.devRef .tc main_v12) : FVec Ideal S50000x1 .f32) (ix2 r 0) = _
    rw [W12_v12_keep]
    exact h12 r
  refine (W13_arr m ρ c 3).trans ((region3_arr (V12 m ρ) c si (m ((c : Thread nD τ).loc main_arg6)) hs (W12_v25 m ρ c)).trans ?_)
  show Gcn.hidden (W12 (F := Ideal) m ρ c (Proc.devRef .tc main_v24)) si _ = _
  rw [W12_v24 m ρ c hsrc _ h20]

end Cert.KernelIdeal.Gen

end
-- ==== Proof.KernelLayer3.lean ====
/-
  The kernel program's third layer, read back through its run: from the second layer's output, held in its buffer when
  the third layer's projection kernel is entered, to the result buffer after the softmax kernel.
-/
import proofs.«431278_j31860067401788_1_alg».proof.Proof.Gen.KernelIdeal.Frame
import proofs.«431278_j31860067401788_1_alg».proof.Proof.Chain
import proofs.«431278_j31860067401788_1_alg».proof.Proof.Take
import proofs.«431278_j31860067401788_1_alg».proof.Proof.Region4
import proofs.«431278_j31860067401788_1_alg».proof.Proof.Region5
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Gen

open Idealize.ShloMosaic Idealize.ShloMosaic.TcCoe Idealize.SL.Sem Idealize.ShloMosaic.ValueIdx

variable (m : (ℓ : Loc nD τ sig) → Buf (Elt Ideal) ℓ) (ρ : Dev nD → PrngReg)

namespace Layer3

/-- The two programs' row-gather and row-scatter records at width 32 are the same records. -/
theorem gather32_eq : Cert.KernelIdeal.gather_S50000x32_S800000x1_S800000x32_1_0_n_n_0_1_132
    = Cert.ReferenceIdeal.gather_S50000x32_S800000x1_S800000x32_1_0_n_n_0_1_132 := rfl
theorem scatter32_eq : Cert.KernelIdeal.scatter_S50000x32_S800000x1_S800000x32_1_0_0_1
    = Cert.ReferenceIdeal.scatter_S50000x32_S800000x1_S800000x32_1_0_0_1 := rfl

/-- Contents moved to a typed reference's buffer type and back are the contents. -/
theorem ofBuf_toBuf {Val : EltTy → Type} {T : BufTy} (x : StableHlo.TRef sig T) (v : T.Contents Val) :
    x.ofBuf (x.toBuf v) = v := by
  obtain ⟨r, rfl, _, _⟩ := x
  rfl

/-- Read at the source indices' own buffer type, the contents are themselves. -/
theorem ofBuf_arg1 (v : main_arg1.ty.Contents (Elt Ideal)) (h1 h2 h3) :
    (StableHlo.TRef.of main_arg1 h1 h2 h3 : StableHlo.TRef sig ⟨S800000, .i32⟩).ofBuf v = v := rfl

/-- Read at the projected features' own buffer type, the contents are themselves. -/
theorem ofBuf_v27 (v : main_v27.ty.Contents (Elt Ideal)) (h1 h2 h3) :
    (StableHlo.TRef.of main_v27 h1 h2 h3 : StableHlo.TRef sig ⟨S50000x32, .f32⟩).ofBuf v = v := rfl

/-- Written at the gathered rows' own buffer type, the contents are themselves. -/
theorem toBuf_v28 (v : (⟨S800000x32, .f32⟩ : BufTy).Contents (Elt Ideal)) (h1 h2 h3) :
    (StableHlo.TRef.of main_v28 h1 h2 h3 : StableHlo.TRef sig ⟨S800000x32, .f32⟩).toBuf v = v := rfl

/-- The gather stretch writes none of: the source indices, the last weight matrix, the in-degree scale column. -/
theorem W15_arg1 (c : Dev nD) :
    W15 (F := Ideal) m ρ c (Proc.devRef .tc main_arg1) = W14 (F := Ideal) m ρ c (Proc.devRef .tc main_arg1) := by
  show StableHlo.after hostOps5 (W14 (F := Ideal) m ρ c) (Proc.devRef .tc main_arg1) = _
  generalize W14 (F := Ideal) m ρ c = V
  dsimp only [hostOps5]
  after_results

theorem W15_arg7 (c : Dev nD) :
    W15 (F := Ideal) m ρ c (Proc.devRef .tc main_arg7) = W14 (F := Ideal) m ρ c (Proc.devRef .tc main_arg7) := by
  show StableHlo.after hostOps5 (W14 (F := Ideal) m ρ c) (Proc.devRef .tc main_arg7) = _
  generalize W14 (F := Ideal) m ρ c = V
  dsimp only [hostOps5]
  after_results

theorem W15_v12 (c : Dev nD) :
    W15 (F := Ideal) m ρ c (Proc.devRef .tc main_v12) = W14 (F := Ideal) m ρ c (Proc.devRef .tc main_v12) := by
  show StableHlo.after hostOps5 (W14 (F := Ideal) m ρ c) (Proc.devRef .tc main_v12) = _
  generalize W14 (F := Ideal) m ρ c = V
  dsimp only [hostOps5]
  after_results

/-- The scatter stretch writes none of: the source and destination indices, the last weight matrix and bias, the in-degree
    scale column. -/
theorem W16_arg1 (c : Dev nD) :
    W16 (F := Ideal) m ρ c (Proc.devRef .tc main_arg1) = W15 (F := Ideal) m ρ c (Proc.devRef .tc main_arg1) := by
  show StableHlo.after hostOps5_1 (W15 (F := Ideal) m ρ c) (Proc.devRef .tc main_arg1) = _
  generalize W15 (F := Ideal) m ρ c = V
  dsimp only [hostOps5_1]
  after_results

theorem W16_arg2 (c : Dev nD) :
    W16 (F := Ideal) m ρ c (Proc.devRef .tc main_arg2) = W15 (F := Ideal) m ρ c (Proc.devRef .tc main_arg2) := by
  show StableHlo.after hostOps5_1 (W15 (F := Ideal) m ρ c) (Proc.devRef .tc main_arg2) = _
  generalize W15 (F := Ideal) m ρ c = V
  dsimp only [hostOps5_1]
  after_results

theorem W16_arg7 (c : Dev nD) :
    W16 (F := Ideal) m ρ c (Proc.devRef .tc main_arg7) = W15 (F := Ideal) m ρ c (Proc.devRef .tc main_arg7) := by
  show StableHlo.after hostOps5_1 (W15 (F := Ideal) m ρ c) (Proc.devRef .tc main_arg7) = _
  generalize W15 (F := Ideal) m ρ c = V
  dsimp only [hostOps5_1]
  after_results

theorem W16_arg8 (c : Dev nD) :
    W16 (F := Ideal) m ρ c (Proc.devRef .tc main_arg8) = W15 (F := Ideal) m ρ c (Proc.devRef .tc main_arg8) := by
  show StableHlo.after hostOps5_1 (W15 (F := Ideal) m ρ c) (Proc.devRef .tc main_arg8) = _
  generalize W15 (F := Ideal) m ρ c = V
  dsimp only [hostOps5_1]
  after_results

theorem W16_v12 (c : Dev nD) :
    W16 (F := Ideal) m ρ c (Proc.devRef .tc main_v12) = W15 (F := Ideal) m ρ c (Proc.devRef .tc main_v12) := by
  show StableHlo.after hostOps5_1 (W15 (F := Ideal) m ρ c) (Proc.devRef .tc main_v12) = _
  generalize W15 (F := Ideal) m ρ c = V
  dsimp only [hostOps5_1]
  after_results

/-- The last weight matrix, read when the projection kernel is entered, is the launch's: nothing from there to the return
    writes it, and at the return it is as launched. -/
theorem arg7_at13 (c : Dev nD) :
    W13 (F := Ideal) m ρ c (Proc.devRef .tc main_arg7) = m ((c : Thread nD τ).loc main_arg7) :=
  calc W13 (F := Ideal) m ρ c (Proc.devRef .tc main_arg7)
    _ = W14 (F := Ideal) m ρ c (Proc.devRef .tc main_arg7) :=
        ((W14_arr m ρ c 1).trans (((dat4 (V13 m ρ) c).arrAt_in 1 rfl _).trans (A_eq4 (V13 m ρ) c 1))).symm
    _ = W15 (F := Ideal) m ρ c (Proc.devRef .tc main_arg7) := (W15_arg7 m ρ c).symm
    _ = W16 (F := Ideal) m ρ c (Proc.devRef .tc main_arg7) := (W16_arg7 m ρ c).symm
    _ = W17 (F := Ideal) m ρ c (Proc.devRef .tc main_arg7) := (W17_of_ne m ρ c main_arg7 (by decide)).symm
    _ = m ((c : Thread nD τ).loc main_arg7) := W17_main_arg7 m ρ c

/-- The source indices after the projection kernel are the launch's. -/
theorem arg1_at14 (c : Dev nD) :
    W14 (F := Ideal) m ρ c (Proc.devRef .tc main_arg1) = m ((c : Thread nD τ).loc main_arg1) :=
  calc W14 (F := Ideal) m ρ c (Proc.devRef .tc main_arg1)
    _ = W15 (F := Ideal) m ρ c (Proc.devRef .tc main_arg1) := (W15_arg1 m ρ c).symm
    _ = W16 (F := Ideal) m ρ c (Proc.devRef .tc main_arg1) := (W16_arg1 m ρ c).symm
    _ = W17 (F := Ideal) m ρ c (Proc.devRef .tc main_arg1) := (W17_of_ne m ρ c main_arg1 (by decide)).symm
    _ = m ((c : Thread nD τ).loc main_arg1) := W17_main_arg1 m ρ c

/-- The destination indices after the gather stretch are the launch's. -/
theorem arg2_at15 (c : Dev nD) :
    W15 (F := Ideal) m ρ c (Proc.devRef .tc main_arg2) = m ((c : Thread nD τ).loc main_arg2) :=
  calc W15 (F := Ideal) m ρ c (Proc.devRef .tc main_arg2)
    _ = W16 (F := Ideal) m ρ c (Proc.devRef .tc main_arg2) := (W16_arg2 m ρ c).symm
    _ = W17 (F := Ideal) m ρ c (Proc.devRef .tc main_arg2) := (W17_of_ne m ρ c main_arg2 (by decide)).symm
    _ = m ((c : Thread nD τ).loc main_arg2) := W17_main_arg2 m ρ c

/-- The last bias after the gather stretch is the launch's. -/
theorem arg8_at15 (c : Dev nD) :
    W15 (F := Ideal) m ρ c (Proc.devRef .tc main_arg8) = m ((c : Thread nD τ).loc main_arg8) :=
  calc W15 (F := Ideal) m ρ c (Proc.devRef .tc main_arg8)
    _ = W16 (F := Ideal) m ρ c (Proc.devRef .tc main_arg8) := (W16_arg8 m ρ c).symm
    _ = W17 (F := Ideal) m ρ c (Proc.devRef .tc main_arg8) := (W17_of_ne m ρ c main_arg8 (by decide)).symm
    _ = m ((c : Thread nD τ).loc main_arg8) := W17_main_arg8 m ρ c

/-- The in-degree scale column when the softmax kernel is entered is what it was when the projection kernel was. -/
theorem v12_at16 (c : Dev nD) :
    W16 (F := Ideal) m ρ c (Proc.devRef .tc main_v12) = W13 (F := Ideal) m ρ c (Proc.devRef .tc main_v12) :=
  calc W16 (F := Ideal) m ρ c (Proc.devRef .tc main_v12)
    _ = W15 (F := Ideal) m ρ c (Proc.devRef .tc main_v12) := W16_v12 m ρ c
    _ = W14 (F := Ideal) m ρ c (Proc.devRef .tc main_v12) := W15_v12 m ρ c
    _ = W13 (F := Ideal) m ρ c (Proc.devRef .tc main_v12) := W14_of_ne m ρ c main_v12 (by decide)

/-- The projection kernel's output is the projection of the second layer's output. -/
theorem v27_at14 (c : Dev nD) (H3 : FVec Ideal S50000x64 .f32) (so : FVec Ideal S50000 .f32)
    (h26 : W13 (F := Ideal) m ρ c (Proc.devRef .tc main_v26) = H3)
    (h10 : ∀ r : Fin 50000, (W13 (F := Ideal) m ρ c (Proc.devRef .tc main_v10) : FVec Ideal S50000x1 .f32) (ix2 r 0) = so (ix1 r)) :
    W14 (F := Ideal) m ρ c (Proc.devRef .tc main_v27) = Gcn.proj H3 (m ((c : Thread nD τ).loc main_arg7)) so := by
  refine (W14_arr (F := Ideal) m ρ c 3).trans ((region4_arr (V13 (F := Ideal) m ρ) c so h10).trans ?_)
  rw [show V13 (F := Ideal) m ρ c main_v26 = H3 from h26,
    show V13 (F := Ideal) m ρ c main_arg7 = m ((c : Thread nD τ).loc main_arg7) from arg7_at13 m ρ c]

/-- The gather stretch: with every source index in range the filling gather of the projected rows is the plain gather at
    the wrapped source indices. -/
theorem v28_at15 (c : Dev nD) (hsrc : Gcn.InRange (m ((c : Thread nD τ).loc main_arg1))) (P : FVec Ideal S50000x32 .f32)
    (hP : W14 (F := Ideal) m ρ c (Proc.devRef .tc main_v27) = P) :
    W15 (F := Ideal) m ρ c (Proc.devRef .tc main_v28)
      = Host.gather Cert.ReferenceIdeal.gather_S50000x32_S800000x1_S800000x32_1_0_n_n_0_1_132 P
          (Gcn.wrapped (m ((c : Thread nD τ).loc main_arg1))) := by
  show StableHlo.after hostOps5 (W14 (F := Ideal) m ρ c) (Proc.devRef .tc main_v28) = _
  dsimp only [hostOps5]
  after_results_simp
  simp only [ofBuf_toBuf]
  rw [arg1_at14 m ρ c, hP]
  simp only [ofBuf_arg1, ofBuf_v27, toBuf_v28]
  exact Gcn.take_fill (Gcn.wrapped (m ((c : Thread nD τ).loc main_arg1))) (Gcn.wrapped_range _ hsrc)
    (Host.gather Cert.ReferenceIdeal.gather_S50000x32_S800000x1_S800000x32_1_0_n_n_0_1_132 P
      (Gcn.wrapped (m ((c : Thread nD τ).loc main_arg1)))) _ _ _ _ _ _ _

/-- The scatter stretch: the gathered rows added into their destination rows are the width-32 sum along the edges. -/
theorem v31_at16 (c : Dev nD) (hsrc : Gcn.InRange (m ((c : Thread nD τ).loc main_arg1))) (P : FVec Ideal S50000x32 .f32)
    (hP : W14 (F := Ideal) m ρ c (Proc.devRef .tc main_v27) = P) :
    W16 (F := Ideal) m ρ c (Proc.devRef .tc main_v31)
      = Gcn.agg32 P (m ((c : Thread nD τ).loc main_arg1)) (m ((c : Thread nD τ).loc main_arg2)) := by
  show StableHlo.after hostOps5_1 (W15 (F := Ideal) m ρ c) (Proc.devRef .tc main_v31) = _
  have e28 := v28_at15 m ρ c hsrc P hP
  have e2 := arg2_at15 m ρ c
  generalize W15 (F := Ideal) m ρ c = V at e28 e2 ⊢
  dsimp only [hostOps5_1]
  after_results
  rw [e2, e28]
  rfl

/-- The scatter stretch also lays the last bias as a 1 × 32 array: its entry `(0, q)` is the bias at `q`. -/
theorem v32_at16 (c : Dev nD) (q : Fin 32) :
    (W16 (F := Ideal) m ρ c (Proc.devRef .tc main_v32) : FVec Ideal S1x32 .f32) (ix2 0 q)
      = (m ((c : Thread nD τ).loc main_arg8) : FVec Ideal S32 .f32) (ix1 q) := by
  have e : W16 (F := Ideal) m ρ c (Proc.devRef .tc main_v32)
      = shapeCast S1x32 (m ((c : Thread nD τ).loc main_arg8) : FVec Ideal S32 .f32) shapeCasts_S32_S1x32 := by
    show StableHlo.after hostOps5_1 (W15 (F := Ideal) m ρ c) (Proc.devRef .tc main_v32) = _
    have e8 := arg8_at15 m ρ c
    generalize W15 (F := Ideal) m ρ c = V at e8 ⊢
    dsimp only [hostOps5_1]
    after_results
    rw [e8]
    rfl
  rw [e]
  exact shapeCast_a_1a_apply _ _ 0 q

end Layer3

/-- THE THIRD LAYER: with the second layer's output `H3` in its buffer when the projection kernel is entered and the two
    scale columns reading as `so`, `si`, the result buffer after the softmax kernel holds
    `last (agg32 (proj H3 w3 so) src dst) si b3`. -/
theorem layer3_eq (c : Dev nD) (hsrc : Gcn.InRange (m ((c : Thread nD τ).loc main_arg1)))
    (H3 : FVec Ideal S50000x64 .f32) (so si : FVec Ideal S50000 .f32)
    (h26 : W13 (F := Ideal) m ρ c (Proc.devRef .tc main_v26) = H3)
    (h10 : ∀ r : Fin 50000, (W13 (F := Ideal) m ρ c (Proc.devRef .tc main_v10) : FVec Ideal S50000x1 .f32) (ix2 r 0) = so (ix1 r))
    (h12 : ∀ r : Fin 50000, (W13 (F := Ideal) m ρ c (Proc.devRef .tc main_v12) : FVec Ideal S50000x1 .f32) (ix2 r 0) = si (ix1 r)) :
    W17 (F := Ideal) m ρ c (Proc.devRef .tc main_v33)
      = Gcn.last (Gcn.agg32 (Gcn.proj H3 (m ((c : Thread nD τ).loc main_arg7)) so) (m ((c : Thread nD τ).loc main_arg1)) (m ((c : Thread nD τ).loc main_arg2))) si (m ((c : Thread nD τ).loc main_arg8)) := by
  refine (W17_arr (F := Ideal) m ρ c 3).trans ((region5_arr (V16 (F := Ideal) m ρ) c si (m ((c : Thread nD τ).loc main_arg8))
    (fun r => (congrFun (Layer3.v12_at16 m ρ c) (ix2 r 0)).trans (h12 r)) (Layer3.v32_at16 m ρ c)).trans ?_)
  exact congrArg (fun a : FVec Ideal S50000x32 .f32 => Gcn.last a si (m ((c : Thread nD τ).loc main_arg8)))
    (Layer3.v31_at16 m ρ c hsrc _ (Layer3.v27_at14 m ρ c H3 so h26 h10))

end Cert.KernelIdeal.Gen

end
-- ==== Proof.KernelValue.lean ====
/-
  The kernel program's result buffer after its last region, read back through the host stretches and the six
  kernel regions to the launch arrays: it is the network of `Chain.lean` applied to them.
-/
import proofs.«431278_j31860067401788_1_alg».proof.Proof.Gen.KernelIdeal.Frame
import proofs.«431278_j31860067401788_1_alg».proof.Proof.Chain
import proofs.«431278_j31860067401788_1_alg».proof.Proof.Take
import proofs.«431278_j31860067401788_1_alg».proof.Proof.Region0
import proofs.«431278_j31860067401788_1_alg».proof.Proof.Region1
import proofs.«431278_j31860067401788_1_alg».proof.Proof.Region2
import proofs.«431278_j31860067401788_1_alg».proof.Proof.Region3
import proofs.«431278_j31860067401788_1_alg».proof.Proof.Region4
import proofs.«431278_j31860067401788_1_alg».proof.Proof.Region5
import proofs.«431278_j31860067401788_1_alg».proof.Proof.KernelLayer1
import proofs.«431278_j31860067401788_1_alg».proof.Proof.KernelLayers
import proofs.«431278_j31860067401788_1_alg».proof.Proof.KernelLayer3
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Gen

open Idealize.ShloMosaic Idealize.ShloMosaic.TcCoe Idealize.SL.Sem Idealize.ShloMosaic.ValueIdx

variable (m : (ℓ : Loc nD τ sig) → Buf (Elt Ideal) ℓ) (ρ : Dev nD → PrngReg)

namespace Layer0

/-! ### The host's records under both programs' names: the same dimension numbers -/

theorem gd128_eq : Cert.KernelIdeal.gather_S50000x128_S800000x1_S800000x128_1_0_n_n_0_1_1128 = Cert.ReferenceIdeal.gather_S50000x128_S800000x1_S800000x128_1_0_n_n_0_1_1128 := rfl
theorem gd64_eq : Cert.KernelIdeal.gather_S50000x64_S800000x1_S800000x64_1_0_n_n_0_1_164 = Cert.ReferenceIdeal.gather_S50000x64_S800000x1_S800000x64_1_0_n_n_0_1_164 := rfl
theorem gd32_eq : Cert.KernelIdeal.gather_S50000x32_S800000x1_S800000x32_1_0_n_n_0_1_132 = Cert.ReferenceIdeal.gather_S50000x32_S800000x1_S800000x32_1_0_n_n_0_1_132 := rfl
theorem sd128_eq : Cert.KernelIdeal.scatter_S50000x128_S800000x1_S800000x128_1_0_0_1 = Cert.ReferenceIdeal.scatter_S50000x128_S800000x1_S800000x128_1_0_0_1 := rfl
theorem sd64_eq : Cert.KernelIdeal.scatter_S50000x64_S800000x1_S800000x64_1_0_0_1 = Cert.ReferenceIdeal.scatter_S50000x64_S800000x1_S800000x64_1_0_0_1 := rfl
theorem sd32_eq : Cert.KernelIdeal.scatter_S50000x32_S800000x1_S800000x32_1_0_0_1 = Cert.ReferenceIdeal.scatter_S50000x32_S800000x1_S800000x32_1_0_0_1 := rfl
theorem sd1_eq : Cert.KernelIdeal.scatter_S50000_S800000x1_S800000_n_0_0_1 = Cert.ReferenceIdeal.scatter_S50000_S800000x1_S800000_n_0_0_1 := rfl

/-! ### The degree scales: the host stretches before the first kernel region -/

/-- The clipped degree of an index vector, in this program's names: the count of edges per node, at least one. -/
def deg (idx : IVec S800000 32) : FVec Ideal S50000 .f32 :=
  maximumf (broadcastInDim S50000 ![] bcast_S_S50000 (id (constant S_ .f32 0x3F800000#32)))
    (Host.scatterAdd scatter_S50000_S800000x1_S800000_n_0_0_1
      (broadcastInDim S50000 ![] bcast_S_S50000 (constant S_ .f32 0x00000000#32))
      (broadcastInDim S800000x1 ![0] bcast_S800000_S800000x1_0 idx)
      (broadcastInDim S800000 ![] bcast_S_S800000 (constant S_ .f32 0x3F800000#32)))

/-- The inverse square root of the clipped degree is the chain's scale. -/
theorem rsqrt_deg (idx : IVec S800000 32) : (Host.rsqrt (deg idx) : FVec Ideal S50000 .f32) = Gcn.scale idx := by
  unfold deg Gcn.scale
  rw [sd1_eq]

/-! Buffer by buffer through the five host stretches before the first region: the all-ones update vector, the number of
    edges per node counted by source and by destination (a scatter-add of the ones into zeros), each count clipped below
    at one, its inverse square root, and that vector laid out as one column. -/

theorem W1_v0 (c : Dev nD) : (W1 (F := Ideal) m ρ c (Proc.devRef .tc main_v0) : FVec Ideal S800000 .f32) =
    (broadcastInDim S800000 ![] bcast_S_S800000 (constant S_ .f32 0x3F800000#32) : FVec Ideal S800000 .f32) := by
  show StableHlo.after hostOps0 (W0 m ρ c) (Proc.devRef .tc main_v0) = _
  dsimp only [hostOps0]
  after_results

theorem W1_cst_1 (c : Dev nD) : (W1 (F := Ideal) m ρ c (Proc.devRef .tc main_cst_1) : FVec Ideal S_ .f32) =
    (constant S_ .f32 0x3F800000#32 : FVec Ideal S_ .f32) := by
  show StableHlo.after hostOps0 (W0 m ρ c) (Proc.devRef .tc main_cst_1) = _
  dsimp only [hostOps0]
  after_results

theorem W1_v3 (c : Dev nD) : (W1 (F := Ideal) m ρ c (Proc.devRef .tc main_v3) : FVec Ideal S50000 .f32) =
    (Host.scatterAdd scatter_S50000_S800000x1_S800000_n_0_0_1
      (broadcastInDim S50000 ![] bcast_S_S50000 (constant S_ .f32 0x00000000#32))
      (broadcastInDim S800000x1 ![0] bcast_S800000_S800000x1_0 (m ((c : Thread nD τ).loc main_arg1)))
      (broadcastInDim S800000 ![] bcast_S_S800000 (constant S_ .f32 0x3F800000#32)) : FVec Ideal S50000 .f32) := by
  show StableHlo.after hostOps0 (W0 m ρ c) (Proc.devRef .tc main_v3) = _
  dsimp only [hostOps0]
  after_results

theorem W2_v4 (c : Dev nD) : (W2 (F := Ideal) m ρ c (Proc.devRef .tc main_v4) : FVec Ideal S50000 .f32) =
    deg (m ((c : Thread nD τ).loc main_arg1)) := by
  show StableHlo.after hostOps0_1 (W1 m ρ c) (Proc.devRef .tc main_v4) = _
  generalize hW : W1 (F := Ideal) m ρ c = V1
  dsimp only [hostOps0_1]
  after_results
  simp only [StableHlo.TRef.toBuf, StableHlo.TRef.ofBuf, cast_cast, cast_eq]
  subst hW
  rw [W1_cst_1, W1_v3]
  rfl

theorem W2_v0 (c : Dev nD) : (W2 (F := Ideal) m ρ c (Proc.devRef .tc main_v0) : FVec Ideal S800000 .f32) =
    (broadcastInDim S800000 ![] bcast_S_S800000 (constant S_ .f32 0x3F800000#32) : FVec Ideal S800000 .f32) := by
  show StableHlo.after hostOps0_1 (W1 m ρ c) (Proc.devRef .tc main_v0) = _
  generalize hW : W1 (F := Ideal) m ρ c = V1
  dsimp only [hostOps0_1]
  after_results
  subst hW
  exact W1_v0 m ρ c

theorem W2_arg2 (c : Dev nD) : W2 (F := Ideal) m ρ c (Proc.devRef .tc main_arg2) = m ((c : Thread nD τ).loc main_arg2) := by
  show StableHlo.after hostOps0_1 (W1 m ρ c) (Proc.devRef .tc main_arg2) = _
  dsimp only [W1, hostOps0_1, hostOps0]
  after_results

theorem W3_v7 (c : Dev nD) : (W3 (F := Ideal) m ρ c (Proc.devRef .tc main_v7) : FVec Ideal S50000 .f32) =
    (Host.scatterAdd scatter_S50000_S800000x1_S800000_n_0_0_1
      (broadcastInDim S50000 ![] bcast_S_S50000 (constant S_ .f32 0x00000000#32))
      (broadcastInDim S800000x1 ![0] bcast_S800000_S800000x1_0 (m ((c : Thread nD τ).loc main_arg2)))
      (broadcastInDim S800000 ![] bcast_S_S800000 (constant S_ .f32 0x3F800000#32)) : FVec Ideal S50000 .f32) := by
  show StableHlo.after hostOps0_2 (W2 m ρ c) (Proc.devRef .tc main_v7) = _
  generalize hW : W2 (F := Ideal) m ρ c = V2
  dsimp only [hostOps0_2]
  after_results
  subst hW
  rw [W2_v0, W2_arg2]

theorem W3_cst_3 (c : Dev nD) : (W3 (F := Ideal) m ρ c (Proc.devRef .tc main_cst_3) : FVec Ideal S_ .f32) =
    (constant S_ .f32 0x3F800000#32 : FVec Ideal S_ .f32) := by
  show StableHlo.after hostOps0_2 (W2 m ρ c) (Proc.devRef .tc main_cst_3) = _
  generalize hW : W2 (F := Ideal) m ρ c = V2
  dsimp only [hostOps0_2]
  after_results

theorem W3_v4 (c : Dev nD) : (W3 (F := Ideal) m ρ c (Proc.devRef .tc main_v4) : FVec Ideal S50000 .f32) =
    deg (m ((c : Thread nD τ).loc main_arg1)) := by
  show StableHlo.after hostOps0_2 (W2 m ρ c) (Proc.devRef .tc main_v4) = _
  generalize hW : W2 (F := Ideal) m ρ c = V2
  dsimp only [hostOps0_2]
  after_results
  subst hW
  exact W2_v4 m ρ c

theorem W4_v8 (c : Dev nD) : (W4 (F := Ideal) m ρ c (Proc.devRef .tc main_v8) : FVec Ideal S50000 .f32) =
    deg (m ((c : Thread nD τ).loc main_arg2)) := by
  show StableHlo.after hostOps0_3 (W3 m ρ c) (Proc.devRef .tc main_v8) = _
  generalize hW : W3 (F := Ideal) m ρ c = V3
  dsimp only [hostOps0_3]
  after_results
  simp only [StableHlo.TRef.toBuf, StableHlo.TRef.ofBuf, cast_cast, cast_eq]
  subst hW
  rw [W3_cst_3, W3_v7]
  rfl

theorem W4_v4 (c : Dev nD) : (W4 (F := Ideal) m ρ c (Proc.devRef .tc main_v4) : FVec Ideal S50000 .f32) =
    deg (m ((c : Thread nD τ).loc main_arg1)) := by
  show StableHlo.after hostOps0_3 (W3 m ρ c) (Proc.devRef .tc main_v4) = _
  generalize hW : W3 (F := Ideal) m ρ c = V3
  dsimp only [hostOps0_3]
  after_results
  subst hW
  exact W3_v4 m ρ c

theorem W5_v10 (c : Dev nD) : (W5 (F := Ideal) m ρ c (Proc.devRef .tc main_v10) : FVec Ideal S50000x1 .f32) =
    shapeCast S50000x1 (Gcn.scale (m ((c : Thread nD τ).loc main_arg1))) shapeCasts_S50000_S50000x1 := by
  show StableHlo.after hostOps0_4 (W4 m ρ c) (Proc.devRef .tc main_v10) = _
  generalize hW : W4 (F := Ideal) m ρ c = V4
  dsimp only [hostOps0_4]
  after_results
  subst hW
  rw [W4_v4, rsqrt_deg]
  rfl

theorem W5_v12 (c : Dev nD) : (W5 (F := Ideal) m ρ c (Proc.devRef .tc main_v12) : FVec Ideal S50000x1 .f32) =
    shapeCast S50000x1 (Gcn.scale (m ((c : Thread nD τ).loc main_arg2))) shapeCasts_S50000_S50000x1 := by
  show StableHlo.after hostOps0_4 (W4 m ρ c) (Proc.devRef .tc main_v12) = _
  generalize hW : W4 (F := Ideal) m ρ c = V4
  dsimp only [hostOps0_4]
  after_results
  subst hW
  rw [W4_v8, rsqrt_deg]
  rfl

/-- A vector cast to one column reads, at `(i, u)`, the vector at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The out-degree scale column at the first region's entry, entry by entry. -/
theorem W5_v10_apply (c : Dev nD) (r : Fin 50000) :
    (W5 (F := Ideal) m ρ c (Proc.devRef .tc main_v10) : FVec Ideal S50000x1 .f32) (ix2 r 0)
      = Gcn.scale (m ((c : Thread nD τ).loc main_arg1)) (ix1 r) := by
  rw [W5_v10]
  exact shapeCast_a_a1_apply _ _ r 0

/-- The in-degree scale column at the first region's entry, entry by entry. -/
theorem W5_v12_apply (c : Dev nD) (r : Fin 50000) :
    (W5 (F := Ideal) m ρ c (Proc.devRef .tc main_v12) : FVec Ideal S50000x1 .f32) (ix2 r 0)
      = Gcn.scale (m ((c : Thread nD τ).loc main_arg2)) (ix1 r) := by
  rw [W5_v12]
  exact shapeCast_a_a1_apply _ _ r 0

/-- The node features and the first weight matrix at the first region's entry are the launch's: no host operation
    before it writes an argument. -/
theorem W5_arg0 (c : Dev nD) : W5 (F := Ideal) m ρ c (Proc.devRef .tc main_arg0) = m ((c : Thread nD τ).loc main_arg0) := by
  dsimp only [W5, W4, W3, W2, W1, hostOps0_4, hostOps0_3, hostOps0_2, hostOps0_1, hostOps0]
  after_results

theorem W5_arg3 (c : Dev nD) : W5 (F := Ideal) m ρ c (Proc.devRef .tc main_arg3) = m ((c : Thread nD τ).loc main_arg3) := by
  dsimp only [W5, W4, W3, W2, W1, hostOps0_4, hostOps0_3, hostOps0_2, hostOps0_1, hostOps0]
  after_results

/-! ### Across the first kernel region -/

/-- The out-degree scale column is one of the first region's input arrays: it leaves the region as it entered. -/
theorem W6_v10 (c : Dev nD) :
    W6 (F := Ideal) m ρ c (Proc.devRef .tc main_v10) = W5 (F := Ideal) m ρ c (Proc.devRef .tc main_v10) :=
  (W6_arr m ρ c 2).trans (((dat0 (V5 m ρ) c).arrAt_in 2 rfl _).trans (A_eq0 (V5 m ρ) c 2))

/-- The in-degree scale column is none of the first region's arrays. -/
theorem W6_v12 (c : Dev nD) :
    W6 (F := Ideal) m ρ c (Proc.devRef .tc main_v12) = W5 (F := Ideal) m ρ c (Proc.devRef .tc main_v12) :=
  W6_of_ne m ρ c main_v12 (by decide)

/-- The first region's output array: the node features projected by the first weight matrix, each row scaled by its
    out-degree scale. -/
theorem W6_v13 (c : Dev nD) :
    W6 (F := Ideal) m ρ c (Proc.devRef .tc main_v13)
      = Gcn.proj (m ((c : Thread nD τ).loc main_arg0)) (m ((c : Thread nD τ).loc main_arg3))
          (Gcn.scale (m ((c : Thread nD τ).loc main_arg1))) := by
  refine ((W6_arr m ρ c 3).trans (region0_arr (V5 m ρ) c (Gcn.scale (m ((c : Thread nD τ).loc main_arg1)))
    (W5_v10_apply m ρ c))).trans ?_
  show Gcn.proj (W5 (F := Ideal) m ρ c (Proc.devRef .tc main_arg0)) (W5 (F := Ideal) m ρ c (Proc.devRef .tc main_arg3)) _ = _
  rw [W5_arg0, W5_arg3]

end Layer0

/-- With every source index in range, the result buffer's contents at the last boundary are the network's output
    of the launch arrays. -/
theorem result_eq (c : Dev nD) (hsrc : Gcn.InRange (m ((c : Thread nD τ).loc main_arg1))) :
    W17 (F := Ideal) m ρ c (Proc.devRef .tc main_v33)
      = Gcn.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  -- the two scale columns, entry by entry, at the three boundaries where a layer begins
  have h12_6 : ∀ r : Fin 50000, (W6 (F := Ideal) m ρ c (Proc.devRef .tc main_v12) : FVec Ideal S50000x1 .f32) (ix2 r 0)
      = Gcn.scale (m ((c : Thread nD τ).loc main_arg2)) (ix1 r) := fun r => by
    rw [Layer0.W6_v12]; exact Layer0.W5_v12_apply m ρ c r
  have h10_9 : ∀ r : Fin 50000, (W9 (F := Ideal) m ρ c (Proc.devRef .tc main_v10) : FVec Ideal S50000x1 .f32) (ix2 r 0)
      = Gcn.scale (m ((c : Thread nD τ).loc main_arg1)) (ix1 r) := fun r => by
    rw [W9_v10_keep, Layer0.W6_v10]; exact Layer0.W5_v10_apply m ρ c r
  have h12_9 : ∀ r : Fin 50000, (W9 (F := Ideal) m ρ c (Proc.devRef .tc main_v12) : FVec Ideal S50000x1 .f32) (ix2 r 0)
      = Gcn.scale (m ((c : Thread nD τ).loc main_arg2)) (ix1 r) := fun r => by
    rw [W9_v12_keep]; exact h12_6 r
  have h10_13 : ∀ r : Fin 50000, (W13 (F := Ideal) m ρ c (Proc.devRef .tc main_v10) : FVec Ideal S50000x1 .f32) (ix2 r 0)
      = Gcn.scale (m ((c : Thread nD τ).loc main_arg1)) (ix1 r) := fun r => by
    rw [W13_v10_keep]; exact h10_9 r
  have h12_13 : ∀ r : Fin 50000, (W13 (F := Ideal) m ρ c (Proc.devRef .tc main_v12) : FVec Ideal S50000x1 .f32) (ix2 r 0)
      = Gcn.scale (m ((c : Thread nD τ).loc main_arg2)) (ix1 r) := fun r => by
    rw [W13_v12_keep]; exact h12_9 r
  -- the three layers, each from the one before
  have h19 := layer1_eq m ρ c hsrc _ _ (Layer0.W6_v13 m ρ c) h12_6
  have h26 := layer2_eq m ρ c hsrc _ _ _ h19 h10_9 h12_9
  have h33 := layer3_eq m ρ c hsrc _ _ _ h26 h10_13 h12_13
  unfold Gcn.out
  exact h33

end Cert.KernelIdeal.Gen

end
-- ==== Proof.RefStages.lean ====
/-
  The reference's stages, one array operation at a time, are the index-level stage functions: a host product scaled
  by a column is the projection; an aggregate scaled by a column, shifted by a row and passed through the comparison
  with zero is a hidden layer's finish; the same followed by the row-wise maximum, the exponentials and their row sums
  is the last layer's finish. Every operand is an arbitrary array.
-/
import proofs.«431278_j31860067401788_1_alg».proof.Proof.Chain
import Idealize.ShloMosaic.Lib.Pipeline.Value
import Idealize.ShloMosaic.Lib.ValueIdx
import Idealize.ShloMosaic.PureOps.Ideal.Laws
import Idealize.ShloMosaic.PureOps.Reduce
import Mathlib.Data.Finset.Fold

noncomputable section

namespace Cert.ReferenceIdeal.RefStages

open Cert.ReferenceIdeal Cert.ReferenceIdeal.Gen Idealize.ShloMosaic Idealize.ShloMosaic.ValueIdx

/-! ## Broadcasts read at an entry -/

/-- A vector laid down the rows, `v[:, None]` stretched to `m` columns: entry `(p, q)` is `v p`. -/
theorem col_read {α : Type} {m : Nat}
    (h₁ : (⟨1, ![50000]⟩ : Shape).BroadcastsInDim ⟨2, ![50000, 1]⟩ ![0])
    (h₂ : (⟨2, ![50000, 1]⟩ : Shape).BroadcastsInDim ⟨2, ![50000, m]⟩ ![0, 1])
    (v : (⟨1, ![50000]⟩ : Shape).Idx → α) (p : Fin 50000) (q : Fin m) :
    broadcastInDim ⟨2, ![50000, m]⟩ ![0, 1] h₂ (broadcastInDim ⟨2, ![50000, 1]⟩ ![0] h₁ v) (ix2 p q) = v (ix1 p) := by
  rw [broadcastInDim_apply _ h₂ _ (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])]
  exact broadcastInDim_apply _ h₁ v (ix2 p (0 : Fin 1)) (ix1 p) (fun a => match a with
    | ⟨0, _⟩ => by show p.val = if (50000 : Nat) = 1 then 0 else p.val; rw [if_neg (by decide)])

/-- A vector laid along the columns, `b[None, :]` stretched to 50000 rows: entry `(p, q)` is `b q`. -/
theorem row_read {α : Type} {m : Nat}
    (h₁ : (⟨1, ![m]⟩ : Shape).BroadcastsInDim ⟨2, ![1, m]⟩ ![1])
    (h₂ : (⟨2, ![1, m]⟩ : Shape).BroadcastsInDim ⟨2, ![50000, m]⟩ ![0, 1])
    (b : (⟨1, ![m]⟩ : Shape).Idx → α) (p : Fin 50000) (q : Fin m) :
    broadcastInDim ⟨2, ![50000, m]⟩ ![0, 1] h₂ (broadcastInDim ⟨2, ![1, m]⟩ ![1] h₁ b) (ix2 p q) = b (ix1 q) := by
  rw [broadcastInDim_apply _ h₂ _ (ix2 p q) (ix2 (0 : Fin 1) q) (fun a => match a with
    | ⟨0, _⟩ => by show 0 = if (1 : Nat) = 1 then 0 else p.val; rw [if_pos rfl]
    | ⟨1, _⟩ => by
        show q.val = if m = 1 then 0 else q.val
        by_cases hm : m = 1
        · rw [if_pos hm]; have := q.isLt; omega
        · rw [if_neg hm])]
  exact broadcastInDim_apply _ h₁ b (ix2 (0 : Fin 1) q) (ix1 q) (fun a => match a with
    | ⟨0, _⟩ => by
        show q.val = if m = 1 then 0 else q.val
        by_cases hm : m = 1
        · rw [if_pos hm]; have := q.isLt; omega
        · rw [if_neg hm])

/-- A scalar stretched over a shape reads the scalar everywhere. -/
theorem scalar_read {α : Type} {t : Shape} (h : (⟨0, ![]⟩ : Shape).BroadcastsInDim t ![])
    (v : (⟨0, ![]⟩ : Shape).Idx → α) (j : t.Idx) : broadcastInDim t ![] h v j = v ix0 :=
  broadcastInDim_apply _ h v j ix0 (fun a => a.elim0)

/-! ## The host's entrywise operations and the softmax read at an entry -/

theorem hdivf_read {s : Shape} {φ : FTy} (x y : FVec Ideal s φ) (i : s.Idx) : Host.divf x y i = Ideal.div (x i) (y i) := rfl
theorem hexp_read {s : Shape} {φ : FTy} (x : FVec Ideal s φ) (i : s.Idx) : Host.exp x i = Ideal.exp (x i) := rfl
theorem soft_read {M : Nat} (v : FVec Ideal ⟨2, ![50000, M]⟩ .f32) (r : Fin 50000) (c : Fin M) :
    Gcn.soft v (ix2 r c)
      = Ideal.div (Ideal.exp (v (ix2 r c) - (Finset.univ : Finset (Fin M)).fold max (Ideal.ofBits .f32 0xFF800000#32) (fun j => v (ix2 r j))))
        (∑ j : Fin M, Ideal.exp (v (ix2 r j) - (Finset.univ : Finset (Fin M)).fold max (Ideal.ofBits .f32 0xFF800000#32) (fun j => v (ix2 r j)))) := rfl

/-! ## The projection at 128 × 128 -/

theorem lhs_128x128_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_128x128_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs_128x128_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs_128x128_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The host product at entry `(r, c)`: the sum over `k` of `x[r, k] · w[k, c]`. -/
theorem dot_128x128_read (x : FVec Ideal S50000x128 .f32) (w : FVec Ideal S128x128 .f32) (r : Fin 50000) (c : Fin 128) :
    Host.dotGeneral dot_S50000x128_S128x128_S50000x128_1_0_0_1_n_n none x w (ix2 r c) = ∑ k : Fin 128, x (ix2 r k) * w (ix2 k c) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r c) ((contrEquiv1 dot_S50000x128_S128x128_S50000x128_1_0_0_1_n_n 128 rfl rfl).symm k) = ix2 r k := funext fun a => Fin.ext (by
    match a with
    | ⟨0, _⟩ => exact lhs_128x128_0 _ _
    | ⟨1, _⟩ => exact (lhs_128x128_1 _ _).trans hk)
  have er : dot_S50000x128_S128x128_S50000x128_1_0_0_1_n_n.rhsIdx (ix2 r c) ((contrEquiv1 dot_S50000x128_S128x128_S50000x128_1_0_0_1_n_n 128 rfl rfl).symm k) = ix2 k c := funext fun a => Fin.ext (by
    match a with
    | ⟨0, _⟩ => exact (rhs_128x128_0 _ _).trans hk
    | ⟨1, _⟩ => exact rhs_128x128_1 _ _)
  rw [el, er]

/-- The scaled host product is the projection stage. -/
theorem proj128x128_stage (x : FVec Ideal S50000x128 .f32) (w : FVec Ideal S128x128 .f32) (so : FVec Ideal S50000 .f32) :
    mulf (Host.dotGeneral dot_S50000x128_S128x128_S50000x128_1_0_0_1_n_n none x w)
        (broadcastInDim S50000x128 ![0, 1] bcast_S50000x1_S50000x128_0_1 (broadcastInDim S50000x1 ![0] bcast_S50000_S50000x1_0 so))
      = Gcn.proj x w so := by
  funext i
  obtain ⟨r, c, rfl⟩ : ∃ (r : Fin 50000) (c : Fin 128), i = ix2 r c := ⟨i 0, i 1, eq_ix2 i⟩
  show Host.dotGeneral dot_S50000x128_S128x128_S50000x128_1_0_0_1_n_n none x w (ix2 r c)
      * broadcastInDim S50000x128 ![0, 1] bcast_S50000x1_S50000x128_0_1 (broadcastInDim S50000x1 ![0] bcast_S50000_S50000x1_0 so) (ix2 r c)
    = (∑ k : Fin 128, x (ix2 r k) * w (ix2 k c)) * so (ix1 r)
  rw [dot_128x128_read, col_read]

/-! ## The projection at 128 × 64 -/

theorem lhs_128x64_0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem lhs_128x64_1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q
theorem rhs_128x64_0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q
theorem rhs_128x64_1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- The host product at entry `(r, c)`: the sum over `k` of `x[r, k] · w[k, c]`. -/
theorem dot_128x64_read (x : FVec Ideal S50000x128 .f32) (w : FVec Ideal S128x64 .f32) (r : Fin 50000) (c : Fin 64) :
    Host.dotGeneral dot_S50000x128_S128x64_S50000x64_1_0_0_1_n_n none x w (ix2 r c) = ∑ k : Fin 128, x (ix2 r k) * w (ix2 k c) := by
  simp only [Host.dotGeneral]
  rw [Ideal.dotGeneral_apply, ← Equiv.sum_comp (contrEquiv1 dot_S50000x128_S128x64_S50000x64_1_0_0_1_n_n 128 rfl rfl).symm]
  refine Finset.sum_congr rfl fun k _ => ?_
  have hk := contrEquiv1_symm_val dot_S50000x128_S128x64_S50000x64_1_0_0_1_n_n 128 rfl rfl k
  have el : dot_S50000x128_S128x64_S50000x64_1_0_0_1_n_n.lhsIdx (ix2 r c) ((contrEquiv1 dot_S50000x128_S128x64_S50000x64_1_0_0_1_n_n 128 rfl rfl).symm k) = ix2 r k := funext fun a => Fin.ext (by
    match a with
    | ⟨0, _⟩ => exact lhs_128x64_0 _ _
    | ⟨1, _⟩ => exact (lhs_128x64_1 _ _).trans hk)
  have er : dot_S50000x128_S128x64_S50000x64_1_0_0_1_n_n.rhsIdx (ix2 r c) ((contrEquiv1 dot_S50000x128_S128x64_S50000x64_1_0_0_1_n_n 128 rfl rfl).symm k) = ix2 k c := funext fun a => Fin.ext (by
    match a with
    | ⟨0, _⟩ => exact (rhs_128x64_0 _ _).trans hk
    | ⟨1, _⟩ => exact rhs_128x64_1 _ _)
  rw [el, er]

/-- The scaled host product is the projection stage. -/
theorem proj128x64_stage (x : FVec Ideal S50000x128 .f32) (w : FVec Ideal S128x64 .f32) (so : FVec Ideal S50000 .f32) :
    mulf (Host.dotGeneral dot_S50000x128_S128x64_S50000x64_1_0_0_1_n_n none x w)
        (broadcastInDim S50000x64 ![0, 1] bcast_S50000x1_S50000x64_0_1 (broadcastInDim S50000x1 ![0] bcast_S50000_S50000x1_0 so))
      = Gcn.proj x w so := by
  funext i
  obtain ⟨r, c, rfl⟩ : ∃ (r : Fin 50000) (c : Fin 64), i = ix2 r c := ⟨i 0, i 1, eq_ix2 i⟩
  show Host.dotGeneral dot_S50000x128_S128x64_S50000x64_1_0_0_1_n_n none x w (ix2 r c)
      * broadcastInDim S50000x64 ![0, 1] bcast_S50000x1_S50000x64_0_1 (broadcastInDim S50000x1 ![0] bcast_S50000_S50000x1_0 so) (ix2 r c)
    = (∑ k : Fin 128, x (ix2 r k) * w (ix2 k c)) * so (ix1 r)
  rw [dot_128x64_read, col_read]

/-! ## The projection at 64 × 32 -/

theorem lhs_64x32_0 (i : S50000x32.Idx) (q : dot_S50000x64_S64x32_S50000x32_1_0_0_1_n_n.contr.Idx) :
    (dot_S50000x64_S64x32_S50000x32_1_0_0_1_n_n.lhsIdx i q 0).val = (i 0).val := by
  unfold DotDims.lhsIdx
  rw [dif_neg (show ¬(0 : Fin S50000x64.rank) ∈ dot_S50000x64_S64x32_S50000x32_1_0_0_1_n_n.lhsBatch by decide), dif_pos (show (0 : Fin S50000x64.rank) ∈ dot_S50000x64_S64x32_S50000x32_1_0_0_1_n_n.lhsNonContracting by decide)]
  rfl
theorem lhs_64x32_1 (i : S50000x32.Idx) (q : dot_S50000x64_S64x32_S50000x32_1_0_0_1_n_n.contr.Idx) :
    (dot_S50000x64_S64x32_S50000x32_1_0_0_1_n_n.lhsIdx i q 1).val = (q ⟨0, by decide⟩).val :=
  dot_S50000x64_S64x32_S50000x32_1_0_0_1_n_n.lhsIdx_val_of_single rfl i q
theorem rhs_64x32_0 (i : S50000x32.Idx) (q : dot_S50000x64_S64x32_S50000x32_1_0_0_1_n_n.contr.Idx) :
    (dot_S50000x64_S64x32_S50000x32_1_0_0_1_n_n.rhsIdx i q 0).val = (q ⟨0, by decide⟩).val :=
  dot_S50000x64_S64x32_S50000x32_1_0_0_1_n_n.rhsIdx_val_of_single rfl i q
theorem rhs_64x32_1 (i : S50000x32.Idx) (q : dot_S50000x64_S64x32_S50000x32_1_0_0_1_n_n.contr.Idx) :
    (dot_S50000x64_S64x32_S50000x32_1_0_0_1_n_n.rhsIdx i q 1).val = (i 1).val := by
  unfold DotDims.rhsIdx
  rw [dif_neg (show ¬(1 : Fin S64x32.rank) ∈ dot_S50000x64_S64x32_S50000x32_1_0_0_1_n_n.rhsBatch by decide), dif_pos (show (1 : Fin S64x32.rank) ∈ dot_S50000x64_S64x32_S50000x32_1_0_0_1_n_n.rhsNonContracting by decide)]
  rfl

/-- The host product at entry `(r, c)`: the sum over `k` of `x[r, k] · w[k, c]`. -/
theorem dot_64x32_read (x : FVec Ideal S50000x64 .f32) (w : FVec Ideal S64x32 .f32) (r : Fin 50000) (c : Fin 32) :
    Host.dotGeneral dot_S50000x64_S64x32_S50000x32_1_0_0_1_n_n none x w (ix2 r c) = ∑ k : Fin 64, x (ix2 r k) * w (ix2 k c) := by
  simp only [Host.dotGeneral]
  rw [Ideal.dotGeneral_apply, ← Equiv.sum_comp (contrEquiv1 dot_S50000x64_S64x32_S50000x32_1_0_0_1_n_n 64 rfl rfl).symm]
  refine Finset.sum_congr rfl fun k _ => ?_
  have hk := contrEquiv1_symm_val dot_S50000x64_S64x32_S50000x32_1_0_0_1_n_n 64 rfl rfl k
  have el : dot_S50000x64_S64x32_S50000x32_1_0_0_1_n_n.lhsIdx (ix2 r c) ((contrEquiv1 dot_S50000x64_S64x32_S50000x32_1_0_0_1_n_n 64 rfl rfl).symm k) = ix2 r k := funext fun a => Fin.ext (by
    match a with
    | ⟨0, _⟩ => exact lhs_64x32_0 _ _
    | ⟨1, _⟩ => exact (lhs_64x32_1 _ _).trans hk)
  have er : dot_S50000x64_S64x32_S50000x32_1_0_0_1_n_n.rhsIdx (ix2 r c) ((contrEquiv1 dot_S50000x64_S64x32_S50000x32_1_0_0_1_n_n 64 rfl rfl).symm k) = ix2 k c := funext fun a => Fin.ext (by
    match a with
    | ⟨0, _⟩ => exact (rhs_64x32_0 _ _).trans hk
    | ⟨1, _⟩ => exact rhs_64x32_1 _ _)
  rw [el, er]

/-- The scaled host product is the projection stage. -/
theorem proj64x32_stage (x : FVec Ideal S50000x64 .f32) (w : FVec Ideal S64x32 .f32) (so : FVec Ideal S50000 .f32) :
    mulf (Host.dotGeneral dot_S50000x64_S64x32_S50000x32_1_0_0_1_n_n none x w)
        (broadcastInDim S50000x32 ![0, 1] bcast_S50000x1_S50000x32_0_1 (broadcastInDim S50000x1 ![0] bcast_S50000_S50000x1_0 so))
      = Gcn.proj x w so := by
  funext i
  obtain ⟨r, c, rfl⟩ : ∃ (r : Fin 50000) (c : Fin 32), i = ix2 r c := ⟨i 0, i 1, eq_ix2 i⟩
  show Host.dotGeneral dot_S50000x64_S64x32_S50000x32_1_0_0_1_n_n none x w (ix2 r c)
      * broadcastInDim S50000x32 ![0, 1] bcast_S50000x1_S50000x32_0_1 (broadcastInDim S50000x1 ![0] bcast_S50000_S50000x1_0 so) (ix2 r c)
    = (∑ k : Fin 64, x (ix2 r k) * w (ix2 k c)) * so (ix1 r)
  rw [dot_64x32_read, col_read]

/-! ## The finish at width 128 -/

/-- The aggregate scaled by a column and shifted by a row is the scaled, biased aggregate. -/
theorem affine128_stage (a : FVec Ideal S50000x128 .f32) (si : FVec Ideal S50000 .f32) (b : FVec Ideal S128 .f32) :
    addf (mulf a (broadcastInDim S50000x128 ![0, 1] bcast_S50000x1_S50000x128_0_1 (broadcastInDim S50000x1 ![0] bcast_S50000_S50000x1_0 si)))
        (broadcastInDim S50000x128 ![0, 1] bcast_S1x128_S50000x128_0_1 (broadcastInDim S1x128 ![1] bcast_S128_S1x128_1 b))
      = Gcn.affine a si b := by
  funext i
  obtain ⟨r, c, rfl⟩ : ∃ (r : Fin 50000) (c : Fin 128), i = ix2 r c := ⟨i 0, i 1, eq_ix2 i⟩
  show a (ix2 r c) * broadcastInDim S50000x128 ![0, 1] bcast_S50000x1_S50000x128_0_1 (broadcastInDim S50000x1 ![0] bcast_S50000_S50000x1_0 si) (ix2 r c)
      + broadcastInDim S50000x128 ![0, 1] bcast_S1x128_S50000x128_0_1 (broadcastInDim S1x128 ![1] bcast_S128_S1x128_1 b) (ix2 r c)
    = a (ix2 r c) * si (ix1 r) + b (ix1 c)
  rw [col_read, row_read]

/-- The choice between an entry and a tenth of it by its comparison with zero is the leaky rectifier. -/
theorem leaky128_stage (v : FVec Ideal S50000x128 .f32) :
    select (cmpf .oge v (broadcastInDim S50000x128 ![] bcast_S_S50000x128 (constant S_ .f32 0x00000000#32))) v
        (mulf (broadcastInDim S50000x128 ![] bcast_S_S50000x128 (constant S_ .f32 0x3DCCCCCD#32)) v)
      = Gcn.leaky v := by
  funext i
  show Scalar.select (FloatOps.cmpf .oge (v i) (broadcastInDim S50000x128 ![] bcast_S_S50000x128 (constant (F := Ideal) S_ .f32 0x00000000#32) i)) (v i)
      (broadcastInDim S50000x128 ![] bcast_S_S50000x128 (constant (F := Ideal) S_ .f32 0x3DCCCCCD#32) i * v i)
    = Scalar.select (FloatOps.cmpf .oge (v i) (Ideal.ofBits .f32 0x00000000#32)) (v i) (Ideal.ofBits .f32 0x3DCCCCCD#32 * v i)
  rw [scalar_read, scalar_read]
  rfl

/-- A hidden layer's finish, as the reference spells it. -/
theorem hidden128_stage (a : FVec Ideal S50000x128 .f32) (si : FVec Ideal S50000 .f32) (b : FVec Ideal S128 .f32) :
    select (cmpf .oge
          (addf (mulf a (broadcastInDim S50000x128 ![0, 1] bcast_S50000x1_S50000x128_0_1 (broadcastInDim S50000x1 ![0] bcast_S50000_S50000x1_0 si)))
            (broadcastInDim S50000x128 ![0, 1] bcast_S1x128_S50000x128_0_1 (broadcastInDim S1x128 ![1] bcast_S128_S1x128_1 b)))
          (broadcastInDim S50000x128 ![] bcast_S_S50000x128 (constant S_ .f32 0x00000000#32)))
        (addf (mulf a (broadcastInDim S50000x128 ![0, 1] bcast_S50000x1_S50000x128_0_1 (broadcastInDim S50000x1 ![0] bcast_S50000_S50000x1_0 si)))
          (broadcastInDim S50000x128 ![0, 1] bcast_S1x128_S50000x128_0_1 (broadcastInDim S1x128 ![1] bcast_S128_S1x128_1 b)))
        (mulf (broadcastInDim S50000x128 ![] bcast_S_S50000x128 (constant S_ .f32 0x3DCCCCCD#32))
          (addf (mulf a (broadcastInDim S50000x128 ![0, 1] bcast_S50000x1_S50000x128_0_1 (broadcastInDim S50000x1 ![0] bcast_S50000_S50000x1_0 si)))
            (broadcastInDim S50000x128 ![0, 1] bcast_S1x128_S50000x128_0_1 (broadcastInDim S1x128 ![1] bcast_S128_S1x128_1 b))))
      = Gcn.hidden a si b := by
  rw [affine128_stage]
  exact leaky128_stage _

/-! ## The finish at width 64 -/

/-- The aggregate scaled by a column and shifted by a row is the scaled, biased aggregate. -/
theorem affine64_stage (a : FVec Ideal S50000x64 .f32) (si : FVec Ideal S50000 .f32) (b : FVec Ideal S64 .f32) :
    addf (mulf a (broadcastInDim S50000x64 ![0, 1] bcast_S50000x1_S50000x64_0_1 (broadcastInDim S50000x1 ![0] bcast_S50000_S50000x1_0 si)))
        (broadcastInDim S50000x64 ![0, 1] bcast_S1x64_S50000x64_0_1 (broadcastInDim S1x64 ![1] bcast_S64_S1x64_1 b))
      = Gcn.affine a si b := by
  funext i
  obtain ⟨r, c, rfl⟩ : ∃ (r : Fin 50000) (c : Fin 64), i = ix2 r c := ⟨i 0, i 1, eq_ix2 i⟩
  show a (ix2 r c) * broadcastInDim S50000x64 ![0, 1] bcast_S50000x1_S50000x64_0_1 (broadcastInDim S50000x1 ![0] bcast_S50000_S50000x1_0 si) (ix2 r c)
      + broadcastInDim S50000x64 ![0, 1] bcast_S1x64_S50000x64_0_1 (broadcastInDim S1x64 ![1] bcast_S64_S1x64_1 b) (ix2 r c)
    = a (ix2 r c) * si (ix1 r) + b (ix1 c)
  rw [col_read, row_read]

/-- The choice between an entry and a tenth of it by its comparison with zero is the leaky rectifier. -/
theorem leaky64_stage (v : FVec Ideal S50000x64 .f32) :
    select (cmpf .oge v (broadcastInDim S50000x64 ![] bcast_S_S50000x64 (constant S_ .f32 0x00000000#32))) v
        (mulf (broadcastInDim S50000x64 ![] bcast_S_S50000x64 (constant S_ .f32 0x3DCCCCCD#32)) v)
      = Gcn.leaky v := by
  funext i
  show Scalar.select (FloatOps.cmpf .oge (v i) (broadcastInDim S50000x64 ![] bcast_S_S50000x64 (constant (F := Ideal) S_ .f32 0x00000000#32) i)) (v i)
      (broadcastInDim S50000x64 ![] bcast_S_S50000x64 (constant (F := Ideal) S_ .f32 0x3DCCCCCD#32) i * v i)
    = Scalar.select (FloatOps.cmpf .oge (v i) (Ideal.ofBits .f32 0x00000000#32)) (v i) (Ideal.ofBits .f32 0x3DCCCCCD#32 * v i)
  rw [scalar_read, scalar_read]
  rfl

/-- A hidden layer's finish, as the reference spells it. -/
theorem hidden64_stage (a : FVec Ideal S50000x64 .f32) (si : FVec Ideal S50000 .f32) (b : FVec Ideal S64 .f32) :
    select (cmpf .oge
          (addf (mulf a (broadcastInDim S50000x64 ![0, 1] bcast_S50000x1_S50000x64_0_1 (broadcastInDim S50000x1 ![0] bcast_S50000_S50000x1_0 si)))
            (broadcastInDim S50000x64 ![0, 1] bcast_S1x64_S50000x64_0_1 (broadcastInDim S1x64 ![1] bcast_S64_S1x64_1 b)))
          (broadcastInDim S50000x64 ![] bcast_S_S50000x64 (constant S_ .f32 0x00000000#32)))
        (addf (mulf a (broadcastInDim S50000x64 ![0, 1] bcast_S50000x1_S50000x64_0_1 (broadcastInDim S50000x1 ![0] bcast_S50000_S50000x1_0 si)))
          (broadcastInDim S50000x64 ![0, 1] bcast_S1x64_S50000x64_0_1 (broadcastInDim S1x64 ![1] bcast_S64_S1x64_1 b)))
        (mulf (broadcastInDim S50000x64 ![] bcast_S_S50000x64 (constant S_ .f32 0x3DCCCCCD#32))
          (addf (mulf a (broadcastInDim S50000x64 ![0, 1] bcast_S50000x1_S50000x64_0_1 (broadcastInDim S50000x1 ![0] bcast_S50000_S50000x1_0 si)))
            (broadcastInDim S50000x64 ![0, 1] bcast_S1x64_S50000x64_0_1 (broadcastInDim S1x64 ![1] bcast_S64_S1x64_1 b))))
      = Gcn.hidden a si b := by
  rw [affine64_stage]
  exact leaky64_stage _

/-! ## The finish at width 32 -/

/-- The aggregate scaled by a column and shifted by a row is the scaled, biased aggregate. -/
theorem affine32_stage (a : FVec Ideal S50000x32 .f32) (si : FVec Ideal S50000 .f32) (b : FVec Ideal S32 .f32) :
    addf (mulf a (broadcastInDim S50000x32 ![0, 1] bcast_S50000x1_S50000x32_0_1 (broadcastInDim S50000x1 ![0] bcast_S50000_S50000x1_0 si)))
        (broadcastInDim S50000x32 ![0, 1] bcast_S1x32_S50000x32_0_1 (broadcastInDim S1x32 ![1] bcast_S32_S1x32_1 b))
      = Gcn.affine a si b := by
  funext i
  obtain ⟨r, c, rfl⟩ : ∃ (r : Fin 50000) (c : Fin 32), i = ix2 r c := ⟨i 0, i 1, eq_ix2 i⟩
  show a (ix2 r c) * broadcastInDim S50000x32 ![0, 1] bcast_S50000x1_S50000x32_0_1 (broadcastInDim S50000x1 ![0] bcast_S50000_S50000x1_0 si) (ix2 r c)
      + broadcastInDim S50000x32 ![0, 1] bcast_S1x32_S50000x32_0_1 (broadcastInDim S1x32 ![1] bcast_S32_S1x32_1 b) (ix2 r c)
    = a (ix2 r c) * si (ix1 r) + b (ix1 c)
  rw [col_read, row_read]

/-! ## The row-wise softmax at width 32 -/

/-- The row-wise host maximum from `-∞`, at row `r`: the fold of `max` over the row. -/
theorem rowmax_read (v : FVec Ideal S50000x32 .f32) (r : Fin 50000) :
    Host.reduce FloatOps.maximumf v (constant (F := Ideal) S_ .f32 0xFF800000#32) reducesTo_S50000x32_S50000_d1 h_S_ (ix1 r)
      = (Finset.univ : Finset (Fin 32)).fold max (Ideal.ofBits .f32 0xFF800000#32) (fun j => v (ix2 r j)) := by
  rw [Host.reduce_eq_fold_single FloatOps.maximumf v _ reducesTo_S50000x32_S50000_d1 (by decide) h_S_ (ix1 r)]
  have hv : v ∘ (Shape.Reduces.lift (s := S50000x32) (a := 1) (t := S50000) (by decide) (ix1 r)) = fun j : Fin 32 => v (ix2 r j) :=
    funext fun j => congrArg v (funext fun a => Fin.ext (by match a with | ⟨0, _⟩ => rfl | ⟨1, _⟩ => rfl))
  rw [hv]
  rfl

/-- The row-wise host sum from zero, at row `r`: the sum over the row. -/
theorem rowsum_read (e : FVec Ideal S50000x32 .f32) (r : Fin 50000) :
    Host.reduceAdd e (constant (F := Ideal) S_ .f32 0x00000000#32) reducesTo_S50000x32_S50000_d1 h_S_ (ix1 r)
      = ∑ j : Fin 32, e (ix2 r j) := by
  simp only [Host.reduceAdd, Ideal.hostReduceAdd_def]
  rw [Ideal.hostReduceAdd_single reducesTo_S50000x32_S50000_d1 (by decide)]
  show Ideal.ofBits .f32 0x00000000#32 + _ = _
  rw [Ideal.ofBits_zero_f32, zero_add]
  refine Finset.sum_congr rfl fun k _ => ?_
  exact congrArg e (funext fun a => Fin.ext (by match a with | ⟨0, _⟩ => rfl | ⟨1, _⟩ => rfl))

/-- The maximum, the shifted exponentials and their quotient by the row sums are the row-wise softmax. The reference
    takes the maximum of `-∞` and the row's fold from `-∞`, which is the fold. -/
theorem soft32_stage (v : FVec Ideal S50000x32 .f32) :
    Host.divf
        (Host.exp (subf v (broadcastInDim S50000x32 ![0, 1] bcast_S50000x1_S50000x32_0_1 (broadcastInDim S50000x1 ![0] bcast_S50000_S50000x1_0
          (maximumf (broadcastInDim S50000 ![] bcast_S_S50000 (constant S_ .f32 0xFF800000#32))
            (Host.reduce FloatOps.maximumf v (constant S_ .f32 0xFF800000#32) reducesTo_S50000x32_S50000_d1 h_S_))))))
        (broadcastInDim S50000x32 ![0, 1] bcast_S50000x1_S50000x32_0_1 (broadcastInDim S50000x1 ![0] bcast_S50000_S50000x1_0
          (Host.reduceAdd
            (Host.exp (subf v (broadcastInDim S50000x32 ![0, 1] bcast_S50000x1_S50000x32_0_1 (broadcastInDim S50000x1 ![0] bcast_S50000_S50000x1_0
              (maximumf (broadcastInDim S50000 ![] bcast_S_S50000 (constant S_ .f32 0xFF800000#32))
                (Host.reduce FloatOps.maximumf v (constant S_ .f32 0xFF800000#32) reducesTo_S50000x32_S50000_d1 h_S_))))))
            (constant S_ .f32 0x00000000#32) reducesTo_S50000x32_S50000_d1 h_S_)))
      = Gcn.soft v := by
  generalize hmx : maximumf (broadcastInDim S50000 ![] bcast_S_S50000 (constant (F := Ideal) S_ .f32 0xFF800000#32))
      (Host.reduce FloatOps.maximumf v (constant (F := Ideal) S_ .f32 0xFF800000#32) reducesTo_S50000x32_S50000_d1 h_S_) = mx
  have hmx' : ∀ r : Fin 50000, mx (ix1 r)
      = (Finset.univ : Finset (Fin 32)).fold max (Ideal.ofBits .f32 0xFF800000#32) (fun j => v (ix2 r j)) := by
    intro r
    rw [← hmx, maximumf_apply, scalar_read, rowmax_read]
    exact max_eq_right ((Finset.le_fold_max _).mpr (Or.inl le_rfl))
  generalize he : Host.exp (subf v (broadcastInDim S50000x32 ![0, 1] bcast_S50000x1_S50000x32_0_1 (broadcastInDim S50000x1 ![0] bcast_S50000_S50000x1_0 mx))) = e
  have he' : ∀ (r : Fin 50000) (c : Fin 32), e (ix2 r c) = Ideal.exp (v (ix2 r c) - mx (ix1 r)) := by
    intro r c
    rw [← he, hexp_read, subf_apply, col_read]
  funext i
  obtain ⟨r, c, rfl⟩ : ∃ (r : Fin 50000) (c : Fin 32), i = ix2 r c := ⟨i 0, i 1, eq_ix2 i⟩
  rw [hdivf_read, soft_read, col_read, rowsum_read, he', hmx']
  refine congrArg (Ideal.div _) (Finset.sum_congr rfl fun j _ => ?_)
  rw [he', hmx']

/-- The last layer's finish, as the reference spells it. -/
theorem last32_stage (a : FVec Ideal S50000x32 .f32) (si : FVec Ideal S50000 .f32) (b : FVec Ideal S32 .f32) :
    Host.divf
        (Host.exp (subf
          (addf (mulf a (broadcastInDim S50000x32 ![0, 1] bcast_S50000x1_S50000x32_0_1 (broadcastInDim S50000x1 ![0] bcast_S50000_S50000x1_0 si)))
            (broadcastInDim S50000x32 ![0, 1] bcast_S1x32_S50000x32_0_1 (broadcastInDim S1x32 ![1] bcast_S32_S1x32_1 b)))
          (broadcastInDim S50000x32 ![0, 1] bcast_S50000x1_S50000x32_0_1 (broadcastInDim S50000x1 ![0] bcast_S50000_S50000x1_0
            (maximumf (broadcastInDim S50000 ![] bcast_S_S50000 (constant S_ .f32 0xFF800000#32))
              (Host.reduce FloatOps.maximumf
                (addf (mulf a (broadcastInDim S50000x32 ![0, 1] bcast_S50000x1_S50000x32_0_1 (broadcastInDim S50000x1 ![0] bcast_S50000_S50000x1_0 si)))
                  (broadcastInDim S50000x32 ![0, 1] bcast_S1x32_S50000x32_0_1 (broadcastInDim S1x32 ![1] bcast_S32_S1x32_1 b)))
                (constant S_ .f32 0xFF800000#32) reducesTo_S50000x32_S50000_d1 h_S_))))))
        (broadcastInDim S50000x32 ![0, 1] bcast_S50000x1_S50000x32_0_1 (broadcastInDim S50000x1 ![0] bcast_S50000_S50000x1_0
          (Host.reduceAdd
            (Host.exp (subf
              (addf (mulf a (broadcastInDim S50000x32 ![0, 1] bcast_S50000x1_S50000x32_0_1 (broadcastInDim S50000x1 ![0] bcast_S50000_S50000x1_0 si)))
                (broadcastInDim S50000x32 ![0, 1] bcast_S1x32_S50000x32_0_1 (broadcastInDim S1x32 ![1] bcast_S32_S1x32_1 b)))
              (broadcastInDim S50000x32 ![0, 1] bcast_S50000x1_S50000x32_0_1 (broadcastInDim S50000x1 ![0] bcast_S50000_S50000x1_0
                (maximumf (broadcastInDim S50000 ![] bcast_S_S50000 (constant S_ .f32 0xFF800000#32))
                  (Host.reduce FloatOps.maximumf
                    (addf (mulf a (broadcastInDim S50000x32 ![0, 1] bcast_S50000x1_S50000x32_0_1 (broadcastInDim S50000x1 ![0] bcast_S50000_S50000x1_0 si)))
                      (broadcastInDim S50000x32 ![0, 1] bcast_S1x32_S50000x32_0_1 (broadcastInDim S1x32 ![1] bcast_S32_S1x32_1 b)))
                    (constant S_ .f32 0xFF800000#32) reducesTo_S50000x32_S50000_d1 h_S_))))))
            (constant S_ .f32 0x00000000#32) reducesTo_S50000x32_S50000_d1 h_S_)))
      = Gcn.last a si b := by
  rw [affine32_stage]
  exact soft32_stage _

end Cert.ReferenceIdeal.RefStages

end
-- ==== Proof.RefValue.lean ====
/-
  The reference program's result, read as the network of `Chain.lean`: its three projections, its two rectified
  finishes and its softmax finish are the stage functions of `Spec.lean`, index by index; the degree counts, the
  gathers and the scatter-adds between them are the same host operations on the same operands.
-/
import proofs.«431278_j31860067401788_1_alg».proof.Proof.Gen.ReferenceIdeal.Run
import proofs.«431278_j31860067401788_1_alg».proof.Proof.Chain
import proofs.«431278_j31860067401788_1_alg».proof.Proof.RefStages
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.ValueIdx

/-- The reference run's result term is the network's output of the launch arrays. -/
theorem result_eq (m : (ℓ : Loc nD τ sig) → Buf (Elt Ideal) ℓ) (c : Dev nD) :
    Cert.ReferenceIdeal.Value.res_main_v113 (F := Ideal) m c
      = Gcn.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  -- the result term, opened; then each stage of it, outermost first, is the stage function of the same operands:
  -- the softmax finish, the third projection, the second rectified finish, the second projection, the first
  -- rectified finish, the first projection. What remains on both sides is the same degree scales, wrapped
  -- indices, gathers and scatter-adds around the same stage functions.
  unfold Cert.ReferenceIdeal.Value.res_main_v113
  rw [RefStages.last32_stage, RefStages.proj64x32_stage, RefStages.hidden64_stage, RefStages.proj128x64_stage,
    RefStages.hidden128_stage, RefStages.proj128x128_stage]
  rfl

end Cert.ReferenceIdeal.RefValue

end
-- ==== Proof.SrcRange.lean ====
/-
  What the precondition says about the source indices: each lies in `[-50000, 50000)`.
-/
import proofs.«431278_j31860067401788_1_alg».proof.Pre_finite_inputs
import proofs.«431278_j31860067401788_1_alg».proof.Proof.Gen.Pre_finite_inputs
import proofs.«431278_j31860067401788_1_alg».proof.Proof.Chain
import Idealize.ShloMosaic.Lib.ReduceAll

noncomputable section

namespace Gcn

open Idealize.ShloMosaic

/-- The scalar shape has one index. -/
instance : Subsingleton Cert.Pre_finite_inputs.S_.Idx := ⟨fun _ _ => funext fun d => d.elim0⟩

/-- The precondition's last conjunct, decoded: all ones means every source index is in range. -/
theorem inRange_of_pre (a0 : FVec Ideal Cert.Pre_finite_inputs.S50000x128 .f32) (a1 a2 : IVec Cert.Pre_finite_inputs.S800000 32)
    (a3 : FVec Ideal Cert.Pre_finite_inputs.S128x128 .f32) (a4 : FVec Ideal Cert.Pre_finite_inputs.S128 .f32)
    (a5 : FVec Ideal Cert.Pre_finite_inputs.S128x64 .f32) (a6 : FVec Ideal Cert.Pre_finite_inputs.S64 .f32)
    (a7 : FVec Ideal Cert.Pre_finite_inputs.S64x32 .f32) (a8 : FVec Ideal Cert.Pre_finite_inputs.S32 .f32)
    (h : Cert.Pre_finite_inputs.fn (F := Ideal) a0 a1 a2 a3 a4 a5 a6 a7 a8 = fun _ => 1#1) : InRange a1 := by
  have h1 := congrFun h ValueIdx.ix0
  dsimp only [Cert.Pre_finite_inputs.fn, Cert.Pre_finite_inputs.fn_part1, Cert.Pre_finite_inputs.fn_part2] at h1
  -- the whole predicate is the conjunction of the finiteness part and the reduced index mask
  have hall := (IntOp.andi_eq_one.1 h1).2
  intro e
  -- the mask's entry at `e`: both compares of the source index against the two bounds
  have he := Host.reduce_andi_all _ _ _ _ _ hall (ValueIdx.ix1 e)
  have hpair : IntOp.andi (IntOp.cmpi .sge (a1 (ValueIdx.ix1 e)) 4294917296#32)
      (IntOp.cmpi .slt (a1 (ValueIdx.ix1 e)) 50000#32) = 1#1 := he
  obtain ⟨hge, hlt⟩ := IntOp.andi_eq_one.1 hpair
  have hm : (4294917296#32 : BitVec 32).toInt = -50000 := by decide
  have hp : (50000#32 : BitVec 32).toInt = 50000 := by decide
  have hge' := IntOp.cmpi_sge.1 hge
  have hlt' := IntOp.cmpi_slt.1 hlt
  rw [hm] at hge'
  rw [hp] at hlt'
  exact ⟨hge', hlt'⟩

end Gcn

end
-- ==== Proof.lean ====
/-
  The certificate of a three-layer graph-convolution network: a Pallas kernel program (a projection kernel and a
  finishing kernel per layer, the edge gather and scatter-add between them left to the host) against its jnp reference.

  At the ideal instance both programs compute the network of `Proof/Chain.lean` over the stages of `Proof/Spec.lean`:
  per layer `p = (x · w) · so` row-scaled by the inverse square root of the clipped out-degree, the sum of the
  projected rows along the edges (row `src[e]` into row `dst[e]`), then `a · si + b` row-scaled by the inverse
  square root of the clipped in-degree, followed by the leaky rectifier on the two hidden layers and the row-wise softmax
  on the last. The kernel's matrix product accumulates bf16 operands into a zero f32 accumulator, which at the ideal
  instance is the reference's plain product; its ten row blocks of 5000 rows tile the 50000 rows; its reshaped scale and
  bias arrays read as the reference's broadcast ones. No law of real arithmetic beyond that is used, so the finiteness
  of the float inputs is never opened.

  The one place the two programs part is the row gather: the kernel's replaces the row of an out-of-range source index
  by a fill value, the reference's reads a clamped row. The precondition therefore asks every source index to be a
  valid row index as NumPy reads one (`-50000 ≤ src < 50000`; both programs wrap the negative ones alike), under which
  the kernel's mask is all ones (`Proof/Take.lean`, `Proof/SrcRange.lean`). The destination indices need nothing: both
  programs hand them to the same scatter-add.

  `preserves` is trivial: the ideal pass rewrote nothing. The three frames are the generated ones (the reference's is its
  generated run with the result dropped).
-/
import proofs.«431278_j31860067401788_1_alg».proof.Defs
import proofs.«431278_j31860067401788_1_alg».proof.Proof.Gen.Kernel
import proofs.«431278_j31860067401788_1_alg».proof.Proof.Gen.Kernel.Skeleton
import proofs.«431278_j31860067401788_1_alg».proof.Proof.Gen.Kernel.Launch
import proofs.«431278_j31860067401788_1_alg».proof.Proof.Gen.Kernel.Points
import proofs.«431278_j31860067401788_1_alg».proof.Proof.Gen.Kernel.Frame
import proofs.«431278_j31860067401788_1_alg».proof.Proof.Gen.KernelIdeal
import proofs.«431278_j31860067401788_1_alg».proof.Proof.Gen.KernelIdeal.Skeleton
import proofs.«431278_j31860067401788_1_alg».proof.Proof.Gen.KernelIdeal.Launch
import proofs.«431278_j31860067401788_1_alg».proof.Proof.Gen.KernelIdeal.Points
import proofs.«431278_j31860067401788_1_alg».proof.Proof.Gen.KernelIdeal.Frame
import proofs.«431278_j31860067401788_1_alg».proof.Proof.Gen.ReferenceIdeal
import proofs.«431278_j31860067401788_1_alg».proof.Proof.Gen.ReferenceIdeal.Run
import proofs.«431278_j31860067401788_1_alg».proof.Proof.Gen.Pre_finite_inputs
import proofs.«431278_j31860067401788_1_alg».proof.Proof.KernelRun
import proofs.«431278_j31860067401788_1_alg».proof.Proof.KernelValue
import proofs.«431278_j31860067401788_1_alg».proof.Proof.RefValue
import proofs.«431278_j31860067401788_1_alg».proof.Proof.SrcRange
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the network's output of the launch arrays: the kernel's result buffer read back through its
    regions (the source indices in range by the precondition), the reference's composed term read stage by stage. -/
theorem algebraic : Cert.algebraic_KernelIdeal_ReferenceIdeal := by
  intro m ρ m' ρ' hpre hagree
  refine ⟨fun c => Gcn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Gen.result_eq m ρ c (Gcn.inRange_of_pre _ _ _ _ _ _ _ _ _ (hpre c))), (h c).2⟩)
      (Cert.KernelIdeal.Gen.run_value (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.result_eq m' c, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
